-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S24576x768 : Shape := ⟨2, ![24576, 768]⟩
abbrev S_ : Shape := ⟨0, ![]⟩

class Facts : Prop where
  bcast_S_S24576x768 : S_.BroadcastsInDim S24576x768 (![] : Fin 0 → Fin S24576x768.rank)
  reducesTo_S24576x768_S_d0_1 : S24576x768.ReducesTo [0, 1] S_
  h_S_ : 0 < S_.numel

variable [Facts]

def fn {F : FTy → Type} [FloatOps F] (main_arg0 : FVec F S24576x768 .f32) : IVec S_ 1 :=
  let main_v0 : FVec F S24576x768 .f32 := Host.absf main_arg0
  let main_cst : FVec F S_ .f32 := constant S_ .f32 0x7F800000#32
  let main_v1 : FVec F S24576x768 .f32 := broadcastInDim S24576x768 ![] bcast_S_S24576x768 main_cst
  let main_v2 : IVec S24576x768 1 := cmpf .olt main_v0 main_v1
  let main_c : IVec S_ 1 := constantI S_ 1 1#1
  let main_v3 : IVec S_ 1 := (fun x v => Host.reduce IntOp.andi x v reducesTo_S24576x768_S_d0_1 h_S_) main_v2 main_c
  main_v3
-- ==== Kernel.lean ====
abbrev S1536x768 : Shape := ⟨2, ![1536, 768]⟩
abbrev S1x768 : Shape := ⟨2, ![1, 768]⟩
abbrev S16x1x768 : Shape := ⟨3, ![16, 1, 768]⟩
abbrev S16 : Shape := ⟨1, ![16]⟩
abbrev S_ : Shape := ⟨0, ![]⟩
abbrev S768 : Shape := ⟨1, ![768]⟩
abbrev S1x1x768 : Shape := ⟨3, ![1, 1, 768]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S16x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_140 : BitVec 32 := 1#32
  let v206 : BitVec 32 := Scalar.addi v2 c1_i32_140
  let c16_i32_141 : BitVec 32 := 16#32
  let c0_i32_142 : BitVec 32 := 0#32
  let v207 : BitVec 1 := Scalar.cmpi .eq c16_i32_141 c0_i32_142
  let c1_i32_143 : BitVec 32 := 1#32
  let v208 : BitVec 32 := Scalar.select v207 c1_i32_143 c16_i32_141
  let v209 : BitVec 32 := Scalar.remsi v206 v208
  let c0_i32_145 : BitVec 32 := 0#32
  let v211 : BitVec 1 := Scalar.cmpi .slt v209 c0_i32_145
  let c0_i32_146 : BitVec 32 := 0#32
  let v212 : BitVec 1 := Scalar.cmpi .slt v208 c0_i32_146
  let v213 : BitVec 1 := Scalar.xori v211 v212
  let c0_i32_144 : BitVec 32 := 0#32
  let v210 : BitVec 1 := Scalar.cmpi .ne v209 c0_i32_144
  let v214 : BitVec 1 := Scalar.andi v213 v210
  let v215 : BitVec 32 := Scalar.addi v209 v208
  let v216 : BitVec 32 := Scalar.select v214 v215 v209
  let c1_i32_151 : BitVec 32 := 1#32
  let v217 : BitVec 32 := Scalar.muli v216 c1_i32_151
  let v218 : BitVec 32 := Scalar.addi c0_i32_152 v217
  v218.toNat
def k0_dev17 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_157 : BitVec 32 := 2#32
  let v227 : BitVec 32 := Scalar.addi v2 c2_i32_157
  let c16_i32_158 : BitVec 32 := 16#32
  let c0_i32_159 : BitVec 32 := 0#32
  let v228 : BitVec 1 := Scalar.cmpi .eq c16_i32_158 c0_i32_159
  let c1_i32_160 : BitVec 32 := 1#32
  let v229 : BitVec 32 := Scalar.select v228 c1_i32_160 c16_i32_158
  let v230 : BitVec 32 := Scalar.remsi v227 v229
  let c0_i32_162 : BitVec 32 := 0#32
  let v232 : BitVec 1 := Scalar.cmpi .slt v230 c0_i32_162
  let c0_i32_163 : BitVec 32 := 0#32
  let v233 : BitVec 1 := Scalar.cmpi .slt v229 c0_i32_163
  let v234 : BitVec 1 := Scalar.xori v232 v233
  let c0_i32_161 : BitVec 32 := 0#32
  let v231 : BitVec 1 := Scalar.cmpi .ne v230 c0_i32_161
  let v235 : BitVec 1 := Scalar.andi v234 v231
  let v236 : BitVec 32 := Scalar.addi v230 v229
  let v237 : BitVec 32 := Scalar.select v235 v236 v230
  let c1_i32_168 : BitVec 32 := 1#32
  let v238 : BitVec 32 := Scalar.muli v237 c1_i32_168
  let v239 : BitVec 32 := Scalar.addi c0_i32_169 v238
  v239.toNat
def k0_dev18 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_174 : BitVec 32 := 3#32
  let v248 : BitVec 32 := Scalar.addi v2 c3_i32_174
  let c16_i32_175 : BitVec 32 := 16#32
  let c0_i32_176 : BitVec 32 := 0#32
  let v249 : BitVec 1 := Scalar.cmpi .eq c16_i32_175 c0_i32_176
  let c1_i32_177 : BitVec 32 := 1#32
  let v250 : BitVec 32 := Scalar.select v249 c1_i32_177 c16_i32_175
  let v251 : BitVec 32 := Scalar.remsi v248 v250
  let c0_i32_179 : BitVec 32 := 0#32
  let v253 : BitVec 1 := Scalar.cmpi .slt v251 c0_i32_179
  let c0_i32_180 : BitVec 32 := 0#32
  let v254 : BitVec 1 := Scalar.cmpi .slt v250 c0_i32_180
  let v255 : BitVec 1 := Scalar.xori v253 v254
  let c0_i32_178 : BitVec 32 := 0#32
  let v252 : BitVec 1 := Scalar.cmpi .ne v251 c0_i32_178
  let v256 : BitVec 1 := Scalar.andi v255 v252
  let v257 : BitVec 32 := Scalar.addi v251 v250
  let v258 : BitVec 32 := Scalar.select v256 v257 v251
  let c1_i32_185 : BitVec 32 := 1#32
  let v259 : BitVec 32 := Scalar.muli v258 c1_i32_185
  let v260 : BitVec 32 := Scalar.addi c0_i32_186 v259
  v260.toNat
def k0_dev19 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_191 : BitVec 32 := 4#32
  let v269 : BitVec 32 := Scalar.addi v2 c4_i32_191
  let c16_i32_192 : BitVec 32 := 16#32
  let c0_i32_193 : BitVec 32 := 0#32
  let v270 : BitVec 1 := Scalar.cmpi .eq c16_i32_192 c0_i32_193
  let c1_i32_194 : BitVec 32 := 1#32
  let v271 : BitVec 32 := Scalar.select v270 c1_i32_194 c16_i32_192
  let v272 : BitVec 32 := Scalar.remsi v269 v271
  let c0_i32_196 : BitVec 32 := 0#32
  let v274 : BitVec 1 := Scalar.cmpi .slt v272 c0_i32_196
  let c0_i32_197 : BitVec 32 := 0#32
  let v275 : BitVec 1 := Scalar.cmpi .slt v271 c0_i32_197
  let v276 : BitVec 1 := Scalar.xori v274 v275
  let c0_i32_195 : BitVec 32 := 0#32
  let v273 : BitVec 1 := Scalar.cmpi .ne v272 c0_i32_195
  let v277 : BitVec 1 := Scalar.andi v276 v273
  let v278 : BitVec 32 := Scalar.addi v272 v271
  let v279 : BitVec 32 := Scalar.select v277 v278 v272
  let c1_i32_202 : BitVec 32 := 1#32
  let v280 : BitVec 32 := Scalar.muli v279 c1_i32_202
  let v281 : BitVec 32 := Scalar.addi c0_i32_203 v280
  v281.toNat
def k0_dev20 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_208 : BitVec 32 := 5#32
  let v290 : BitVec 32 := Scalar.addi v2 c5_i32_208
  let c16_i32_209 : BitVec 32 := 16#32
  let c0_i32_210 : BitVec 32 := 0#32
  let v291 : BitVec 1 := Scalar.cmpi .eq c16_i32_209 c0_i32_210
  let c1_i32_211 : BitVec 32 := 1#32
  let v292 : BitVec 32 := Scalar.select v291 c1_i32_211 c16_i32_209
  let v293 : BitVec 32 := Scalar.remsi v290 v292
  let c0_i32_213 : BitVec 32 := 0#32
  let v295 : BitVec 1 := Scalar.cmpi .slt v293 c0_i32_213
  let c0_i32_214 : BitVec 32 := 0#32
  let v296 : BitVec 1 := Scalar.cmpi .slt v292 c0_i32_214
  let v297 : BitVec 1 := Scalar.xori v295 v296
  let c0_i32_212 : BitVec 32 := 0#32
  let v294 : BitVec 1 := Scalar.cmpi .ne v293 c0_i32_212
  let v298 : BitVec 1 := Scalar.andi v297 v294
  let v299 : BitVec 32 := Scalar.addi v293 v292
  let v300 : BitVec 32 := Scalar.select v298 v299 v293
  let c1_i32_219 : BitVec 32 := 1#32
  let v301 : BitVec 32 := Scalar.muli v300 c1_i32_219
  let v302 : BitVec 32 := Scalar.addi c0_i32_220 v301
  v302.toNat
def k0_dev21 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_225 : BitVec 32 := 6#32
  let v311 : BitVec 32 := Scalar.addi v2 c6_i32_225
  let c16_i32_226 : BitVec 32 := 16#32
  let c0_i32_227 : BitVec 32 := 0#32
  let v312 : BitVec 1 := Scalar.cmpi .eq c16_i32_226 c0_i32_227
  let c1_i32_228 : BitVec 32 := 1#32
  let v313 : BitVec 32 := Scalar.select v312 c1_i32_228 c16_i32_226
  let v314 : BitVec 32 := Scalar.remsi v311 v313
  let c0_i32_230 : BitVec 32 := 0#32
  let v316 : BitVec 1 := Scalar.cmpi .slt v314 c0_i32_230
  let c0_i32_231 : BitVec 32 := 0#32
  let v317 : BitVec 1 := Scalar.cmpi .slt v313 c0_i32_231
  let v318 : BitVec 1 := Scalar.xori v316 v317
  let c0_i32_229 : BitVec 32 := 0#32
  let v315 : BitVec 1 := Scalar.cmpi .ne v314 c0_i32_229
  let v319 : BitVec 1 := Scalar.andi v318 v315
  let v320 : BitVec 32 := Scalar.addi v314 v313
  let v321 : BitVec 32 := Scalar.select v319 v320 v314
  let c1_i32_236 : BitVec 32 := 1#32
  let v322 : BitVec 32 := Scalar.muli v321 c1_i32_236
  let v323 : BitVec 32 := Scalar.addi c0_i32_237 v322
  v323.toNat
def k0_dev22 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_242 : BitVec 32 := 7#32
  let v332 : BitVec 32 := Scalar.addi v2 c7_i32_242
  let c16_i32_243 : BitVec 32 := 16#32
  let c0_i32_244 : BitVec 32 := 0#32
  let v333 : BitVec 1 := Scalar.cmpi .eq c16_i32_243 c0_i32_244
  let c1_i32_245 : BitVec 32 := 1#32
  let v334 : BitVec 32 := Scalar.select v333 c1_i32_245 c16_i32_243
  let v335 : BitVec 32 := Scalar.remsi v332 v334
  let c0_i32_247 : BitVec 32 := 0#32
  let v337 : BitVec 1 := Scalar.cmpi .slt v335 c0_i32_247
  let c0_i32_248 : BitVec 32 := 0#32
  let v338 : BitVec 1 := Scalar.cmpi .slt v334 c0_i32_248
  let v339 : BitVec 1 := Scalar.xori v337 v338
  let c0_i32_246 : BitVec 32 := 0#32
  let v336 : BitVec 1 := Scalar.cmpi .ne v335 c0_i32_246
  let v340 : BitVec 1 := Scalar.andi v339 v336
  let v341 : BitVec 32 := Scalar.addi v335 v334
  let v342 : BitVec 32 := Scalar.select v340 v341 v335
  let c1_i32_253 : BitVec 32 := 1#32
  let v343 : BitVec 32 := Scalar.muli v342 c1_i32_253
  let v344 : BitVec 32 := Scalar.addi c0_i32_254 v343
  v344.toNat
def k0_dev23 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_259 : BitVec 32 := 8#32
  let v353 : BitVec 32 := Scalar.addi v2 c8_i32_259
  let c16_i32_260 : BitVec 32 := 16#32
  let c0_i32_261 : BitVec 32 := 0#32
  let v354 : BitVec 1 := Scalar.cmpi .eq c16_i32_260 c0_i32_261
  let c1_i32_262 : BitVec 32 := 1#32
  let v355 : BitVec 32 := Scalar.select v354 c1_i32_262 c16_i32_260
  let v356 : BitVec 32 := Scalar.remsi v353 v355
  let c0_i32_264 : BitVec 32 := 0#32
  let v358 : BitVec 1 := Scalar.cmpi .slt v356 c0_i32_264
  let c0_i32_265 : BitVec 32 := 0#32
  let v359 : BitVec 1 := Scalar.cmpi .slt v355 c0_i32_265
  let v360 : BitVec 1 := Scalar.xori v358 v359
  let c0_i32_263 : BitVec 32 := 0#32
  let v357 : BitVec 1 := Scalar.cmpi .ne v356 c0_i32_263
  let v361 : BitVec 1 := Scalar.andi v360 v357
  let v362 : BitVec 32 := Scalar.addi v356 v355
  let v363 : BitVec 32 := Scalar.select v361 v362 v356
  let c1_i32_270 : BitVec 32 := 1#32
  let v364 : BitVec 32 := Scalar.muli v363 c1_i32_270
  let v365 : BitVec 32 := Scalar.addi c0_i32_271 v364
  v365.toNat
def k0_dev24 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_276 : BitVec 32 := 9#32
  let v374 : BitVec 32 := Scalar.addi v2 c9_i32_276
  let c16_i32_277 : BitVec 32 := 16#32
  let c0_i32_278 : BitVec 32 := 0#32
  let v375 : BitVec 1 := Scalar.cmpi .eq c16_i32_277 c0_i32_278
  let c1_i32_279 : BitVec 32 := 1#32
  let v376 : BitVec 32 := Scalar.select v375 c1_i32_279 c16_i32_277
  let v377 : BitVec 32 := Scalar.remsi v374 v376
  let c0_i32_281 : BitVec 32 := 0#32
  let v379 : BitVec 1 := Scalar.cmpi .slt v377 c0_i32_281
  let c0_i32_282 : BitVec 32 := 0#32
  let v380 : BitVec 1 := Scalar.cmpi .slt v376 c0_i32_282
  let v381 : BitVec 1 := Scalar.xori v379 v380
  let c0_i32_280 : BitVec 32 := 0#32
  let v378 : BitVec 1 := Scalar.cmpi .ne v377 c0_i32_280
  let v382 : BitVec 1 := Scalar.andi v381 v378
  let v383 : BitVec 32 := Scalar.addi v377 v376
  let v384 : BitVec 32 := Scalar.select v382 v383 v377
  let c1_i32_287 : BitVec 32 := 1#32
  let v385 : BitVec 32 := Scalar.muli v384 c1_i32_287
  let v386 : BitVec 32 := Scalar.addi c0_i32_288 v385
  v386.toNat
def k0_dev25 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_293 : BitVec 32 := 10#32
  let v395 : BitVec 32 := Scalar.addi v2 c10_i32_293
  let c16_i32_294 : BitVec 32 := 16#32
  let c0_i32_295 : BitVec 32 := 0#32
  let v396 : BitVec 1 := Scalar.cmpi .eq c16_i32_294 c0_i32_295
  let c1_i32_296 : BitVec 32 := 1#32
  let v397 : BitVec 32 := Scalar.select v396 c1_i32_296 c16_i32_294
  let v398 : BitVec 32 := Scalar.remsi v395 v397
  let c0_i32_298 : BitVec 32 := 0#32
  let v400 : BitVec 1 := Scalar.cmpi .slt v398 c0_i32_298
  let c0_i32_299 : BitVec 32 := 0#32
  let v401 : BitVec 1 := Scalar.cmpi .slt v397 c0_i32_299
  let v402 : BitVec 1 := Scalar.xori v400 v401
  let c0_i32_297 : BitVec 32 := 0#32
  let v399 : BitVec 1 := Scalar.cmpi .ne v398 c0_i32_297
  let v403 : BitVec 1 := Scalar.andi v402 v399
  let v404 : BitVec 32 := Scalar.addi v398 v397
  let v405 : BitVec 32 := Scalar.select v403 v404 v398
  let c1_i32_304 : BitVec 32 := 1#32
  let v406 : BitVec 32 := Scalar.muli v405 c1_i32_304
  let v407 : BitVec 32 := Scalar.addi c0_i32_305 v406
  v407.toNat
def k0_dev26 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_310 : BitVec 32 := 11#32
  let v416 : BitVec 32 := Scalar.addi v2 c11_i32_310
  let c16_i32_311 : BitVec 32 := 16#32
  let c0_i32_312 : BitVec 32 := 0#32
  let v417 : BitVec 1 := Scalar.cmpi .eq c16_i32_311 c0_i32_312
  let c1_i32_313 : BitVec 32 := 1#32
  let v418 : BitVec 32 := Scalar.select v417 c1_i32_313 c16_i32_311
  let v419 : BitVec 32 := Scalar.remsi v416 v418
  let c0_i32_315 : BitVec 32 := 0#32
  let v421 : BitVec 1 := Scalar.cmpi .slt v419 c0_i32_315
  let c0_i32_316 : BitVec 32 := 0#32
  let v422 : BitVec 1 := Scalar.cmpi .slt v418 c0_i32_316
  let v423 : BitVec 1 := Scalar.xori v421 v422
  let c0_i32_314 : BitVec 32 := 0#32
  let v420 : BitVec 1 := Scalar.cmpi .ne v419 c0_i32_314
  let v424 : BitVec 1 := Scalar.andi v423 v420
  let v425 : BitVec 32 := Scalar.addi v419 v418
  let v426 : BitVec 32 := Scalar.select v424 v425 v419
  let c1_i32_321 : BitVec 32 := 1#32
  let v427 : BitVec 32 := Scalar.muli v426 c1_i32_321
  let v428 : BitVec 32 := Scalar.addi c0_i32_322 v427
  v428.toNat
def k0_dev27 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_327 : BitVec 32 := 12#32
  let v437 : BitVec 32 := Scalar.addi v2 c12_i32_327
  let c16_i32_328 : BitVec 32 := 16#32
  let c0_i32_329 : BitVec 32 := 0#32
  let v438 : BitVec 1 := Scalar.cmpi .eq c16_i32_328 c0_i32_329
  let c1_i32_330 : BitVec 32 := 1#32
  let v439 : BitVec 32 := Scalar.select v438 c1_i32_330 c16_i32_328
  let v440 : BitVec 32 := Scalar.remsi v437 v439
  let c0_i32_332 : BitVec 32 := 0#32
  let v442 : BitVec 1 := Scalar.cmpi .slt v440 c0_i32_332
  let c0_i32_333 : BitVec 32 := 0#32
  let v443 : BitVec 1 := Scalar.cmpi .slt v439 c0_i32_333
  let v444 : BitVec 1 := Scalar.xori v442 v443
  let c0_i32_331 : BitVec 32 := 0#32
  let v441 : BitVec 1 := Scalar.cmpi .ne v440 c0_i32_331
  let v445 : BitVec 1 := Scalar.andi v444 v441
  let v446 : BitVec 32 := Scalar.addi v440 v439
  let v447 : BitVec 32 := Scalar.select v445 v446 v440
  let c1_i32_338 : BitVec 32 := 1#32
  let v448 : BitVec 32 := Scalar.muli v447 c1_i32_338
  let v449 : BitVec 32 := Scalar.addi c0_i32_339 v448
  v449.toNat
def k0_dev28 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_344 : BitVec 32 := 13#32
  let v458 : BitVec 32 := Scalar.addi v2 c13_i32_344
  let c16_i32_345 : BitVec 32 := 16#32
  let c0_i32_346 : BitVec 32 := 0#32
  let v459 : BitVec 1 := Scalar.cmpi .eq c16_i32_345 c0_i32_346
  let c1_i32_347 : BitVec 32 := 1#32
  let v460 : BitVec 32 := Scalar.select v459 c1_i32_347 c16_i32_345
  let v461 : BitVec 32 := Scalar.remsi v458 v460
  let c0_i32_349 : BitVec 32 := 0#32
  let v463 : BitVec 1 := Scalar.cmpi .slt v461 c0_i32_349
  let c0_i32_350 : BitVec 32 := 0#32
  let v464 : BitVec 1 := Scalar.cmpi .slt v460 c0_i32_350
  let v465 : BitVec 1 := Scalar.xori v463 v464
  let c0_i32_348 : BitVec 32 := 0#32
  let v462 : BitVec 1 := Scalar.cmpi .ne v461 c0_i32_348
  let v466 : BitVec 1 := Scalar.andi v465 v462
  let v467 : BitVec 32 := Scalar.addi v461 v460
  let v468 : BitVec 32 := Scalar.select v466 v467 v461
  let c1_i32_355 : BitVec 32 := 1#32
  let v469 : BitVec 32 := Scalar.muli v468 c1_i32_355
  let v470 : BitVec 32 := Scalar.addi c0_i32_356 v469
  v470.toNat
def k0_dev29 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_361 : BitVec 32 := 14#32
  let v479 : BitVec 32 := Scalar.addi v2 c14_i32_361
  let c16_i32_362 : BitVec 32 := 16#32
  let c0_i32_363 : BitVec 32 := 0#32
  let v480 : BitVec 1 := Scalar.cmpi .eq c16_i32_362 c0_i32_363
  let c1_i32_364 : BitVec 32 := 1#32
  let v481 : BitVec 32 := Scalar.select v480 c1_i32_364 c16_i32_362
  let v482 : BitVec 32 := Scalar.remsi v479 v481
  let c0_i32_366 : BitVec 32 := 0#32
  let v484 : BitVec 1 := Scalar.cmpi .slt v482 c0_i32_366
  let c0_i32_367 : BitVec 32 := 0#32
  let v485 : BitVec 1 := Scalar.cmpi .slt v481 c0_i32_367
  let v486 : BitVec 1 := Scalar.xori v484 v485
  let c0_i32_365 : BitVec 32 := 0#32
  let v483 : BitVec 1 := Scalar.cmpi .ne v482 c0_i32_365
  let v487 : BitVec 1 := Scalar.andi v486 v483
  let v488 : BitVec 32 := Scalar.addi v482 v481
  let v489 : BitVec 32 := Scalar.select v487 v488 v482
  let c1_i32_372 : BitVec 32 := 1#32
  let v490 : BitVec 32 := Scalar.muli v489 c1_i32_372
  let v491 : BitVec 32 := Scalar.addi c0_i32_373 v490
  v491.toNat
def k0_dev30 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_378 : BitVec 32 := 15#32
  let v500 : BitVec 32 := Scalar.addi v2 c15_i32_378
  let c16_i32_379 : BitVec 32 := 16#32
  let c0_i32_380 : BitVec 32 := 0#32
  let v501 : BitVec 1 := Scalar.cmpi .eq c16_i32_379 c0_i32_380
  let c1_i32_381 : BitVec 32 := 1#32
  let v502 : BitVec 32 := Scalar.select v501 c1_i32_381 c16_i32_379
  let v503 : BitVec 32 := Scalar.remsi v500 v502
  let c0_i32_383 : BitVec 32 := 0#32
  let v505 : BitVec 1 := Scalar.cmpi .slt v503 c0_i32_383
  let c0_i32_384 : BitVec 32 := 0#32
  let v506 : BitVec 1 := Scalar.cmpi .slt v502 c0_i32_384
  let v507 : BitVec 1 := Scalar.xori v505 v506
  let c0_i32_382 : BitVec 32 := 0#32
  let v504 : BitVec 1 := Scalar.cmpi .ne v503 c0_i32_382
  let v508 : BitVec 1 := Scalar.andi v507 v504
  let v509 : BitVec 32 := Scalar.addi v503 v502
  let v510 : BitVec 32 := Scalar.select v508 v509 v503
  let c1_i32_389 : BitVec 32 := 1#32
  let v511 : BitVec 32 := Scalar.muli v510 c1_i32_389
  let v512 : BitVec 32 := Scalar.addi c0_i32_390 v511
  v512.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S16x1x768_S1x1x768_0_0_0 : ∀ a, (![0, 0, 0] : Fin 3 → Nat) a + S1x1x768.size a ≤ S16x1x768.size a
  h_S1x1x768 : 0 < S1x1x768.numel
  shapeCasts_S1x1x768_S1x768 : S1x1x768.ShapeCasts S1x768
  shapeCasts_S1x768_S1x1x768 : S1x768.ShapeCasts S1x1x768
  hamt_15 : (15#32 : BitVec 32).msb = false
  inb_S16_S1_1 : ∀ a, (![1] : Fin 1 → Nat) a + S1.size a ≤ S16.size a
  squeezes_S1_S_ : S1.Squeezes S_
  inb_S16x1x768_S1x1x768_1_0_0 : ∀ a, (![1, 0, 0] : Fin 3 → Nat) a + S1x1x768.size a ≤ S16x1x768.size a
  squeezes_S1x1x768_S1x768 : S1x1x768.Squeezes S1x768
  inb_S16_S1_2 : ∀ a, (![2] : Fin 1 → Nat) a + S1.size a ≤ S16.size a
  inb_S16x1x768_S1x1x768_2_0_0 : ∀ a, (![2, 0, 0] : Fin 3 → Nat) a + S1x1x768.size a ≤ S16x1x768.size a
  inb_S16_S1_3 : ∀ a, (![3] : Fin 1 → Nat) a + S1.size a ≤ S16.size a
  inb_S16x1x768_S1x1x768_3_0_0 : ∀ a, (![3, 0, 0] : Fin 3 → Nat) a + S1x1x768.size a ≤ S16x1x768.size a
  inb_S16_S1_4 : ∀ a, (![4] : Fin 1 → Nat) a + S1.size a ≤ S16.size a
  inb_S16x1x768_S1x1x768_4_0_0 : ∀ a, (![4, 0, 0] : Fin 3 → Nat) a + S1x1x768.size a ≤ S16x1x768.size a
  inb_S16_S1_5 : ∀ a, (![5] : Fin 1 → Nat) a + S1.size a ≤ S16.size a
  inb_S16x1x768_S1x1x768_5_0_0 : ∀ a, (![5, 0, 0] : Fin 3 → Nat) a + S1x1x768.size a ≤ S16x1x768.size a
  inb_S16_S1_6 : ∀ a, (![6] : Fin 1 → Nat) a + S1.size a ≤ S16.size a
  inb_S16x1x768_S1x1x768_6_0_0 : ∀ a, (![6, 0, 0] : Fin 3 → Nat) a + S1x1x768.size a ≤ S16x1x768.size a
  inb_S16_S1_7 : ∀ a, (![7] : Fin 1 → Nat) a + S1.size a ≤ S16.size a
  inb_S16x1x768_S1x1x768_7_0_0 : ∀ a, (![7, 0, 0] : Fin 3 → Nat) a + S1x1x768.size a ≤ S16x1x768.size a
  inb_S16_S1_8 : ∀ a, (![8] : Fin 1 → Nat) a + S1.size a ≤ S16.size a
  inb_S16x1x768_S1x1x768_8_0_0 : ∀ a, (![8, 0, 0] : Fin 3 → Nat) a + S1x1x768.size a ≤ S16x1x768.size a
  inb_S16_S1_9 : ∀ a, (![9] : Fin 1 → Nat) a + S1.size a ≤ S16.size a
  inb_S16x1x768_S1x1x768_9_0_0 : ∀ a, (![9, 0, 0] : Fin 3 → Nat) a + S1x1x768.size a ≤ S16x1x768.size a
  inb_S16_S1_10 : ∀ a, (![10] : Fin 1 → Nat) a + S1.size a ≤ S16.size a
  inb_S16x1x768_S1x1x768_10_0_0 : ∀ a, (![10, 0, 0] : Fin 3 → Nat) a + S1x1x768.size a ≤ S16x1x768.size a
  inb_S16_S1_11 : ∀ a, (![11] : Fin 1 → Nat) a + S1.size a ≤ S16.size a
  inb_S16x1x768_S1x1x768_11_0_0 : ∀ a, (![11, 0, 0] : Fin 3 → Nat) a + S1x1x768.size a ≤ S16x1x768.size a
  inb_S16_S1_12 : ∀ a, (![12] : Fin 1 → Nat) a + S1.size a ≤ S16.size a
  inb_S16x1x768_S1x1x768_12_0_0 : ∀ a, (![12, 0, 0] : Fin 3 → Nat) a + S1x1x768.size a ≤ S16x1x768.size a
  inb_S16_S1_13 : ∀ a, (![13] : Fin 1 → Nat) a + S1.size a ≤ S16.size a
  inb_S16x1x768_S1x1x768_13_0_0 : ∀ a, (![13, 0, 0] : Fin 3 → Nat) a + S1x1x768.size a ≤ S16x1x768.size a
  inb_S16_S1_14 : ∀ a, (![14] : Fin 1 → Nat) a + S1.size a ≤ S16.size a
  inb_S16x1x768_S1x1x768_14_0_0 : ∀ a, (![14, 0, 0] : Fin 3 → Nat) a + S1x1x768.size a ≤ S16x1x768.size a
  inb_S16_S1_15 : ∀ a, (![15] : Fin 1 → Nat) a + S1.size a ≤ S16.size a
  inb_S16x1x768_S1x1x768_15_0_0 : ∀ a, (![15, 0, 0] : Fin 3 → Nat) a + S1x1x768.size a ≤ S16x1x768.size a
  inb_S1x768_S1x768_0_0 : ∀ a, (![0, 0] : Fin 2 → Nat) a + S1x768.size a ≤ S1x768.size a
  h_S1x768 : 0 < S1x768.numel
  hcc0_scratch1 : 2 + S16.numel ≤ 34
  hcc0_scratch2 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S24576x768 : Shape := ⟨2, ![24576, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S24576x768, .f32⟩
  | .hbm, ⟨1, _⟩ => ⟨S_, .f32⟩
  | .hbm, ⟨2, _⟩ => ⟨S768, .f32⟩
  | .hbm, ⟨3, _⟩ => ⟨S1x768, .f32⟩
  | _, _ => ⟨S24576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S24576x768_S768_d0 : S24576x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.KernelIdeal.Mesh.lean ====
/-
The sixteen devices form the cyclic group ℤ/16: `sh d c` is the device `d` places after `c`.
Every device id the kernel computes — for the fifteen barrier signals and the fifteen remote
copies — is `sh d c` for some `d = 1 … 15`. A shift is a permutation of the devices, a shift by
`d` is undone by a shift by `16 - d`, and two different shifts below sixteen never meet.
-/
import proofs.«900909_g7700000000000910_dist_max_ax0_shard0_i_m1536_n768_v7x_i16_f32_1_alg».proof.Proof.Gen.KernelIdeal

namespace Cert.KernelIdeal.Hand

open Cert.KernelIdeal Idealize.ShloMosaic Idealize.SL.Sem

/-- The device `d` places after `c` on the ring of sixteen. -/
def sh (d : ℕ) (c : Dev nD) : Dev nD := ⟨(c.val + d) % 16, Nat.mod_lt _ (by decide)⟩

theorem sh_val (d : ℕ) (c : Dev nD) : (sh d c).val = (c.val + d) % 16 := rfl

/-- Going `d` places forward and then `16 - d` places forward is a full turn. -/
theorem sh_sh_compl (d : ℕ) (hd : d ≤ 16) (c : Dev nD) : sh (16 - d) (sh d c) = c := by
  apply Fin.ext; have hc : c.val < 16 := c.isLt; simp only [sh_val]; omega
theorem sh_compl_sh (d : ℕ) (hd : d ≤ 16) (c : Dev nD) : sh d (sh (16 - d) c) = c := by
  apply Fin.ext; have hc : c.val < 16 := c.isLt; simp only [sh_val]; omega

/-- A shift is a permutation of the devices. -/
def shEquiv (d : ℕ) (hd : d ≤ 16) : Dev nD ≃ Dev nD := ⟨sh d, sh (16 - d), sh_sh_compl d hd, sh_compl_sh d hd⟩

theorem sh_inj (d : ℕ) (hd : d ≤ 16) {a b : Dev nD} (h : sh d a = sh d b) : a = b := (shEquiv d hd).injective h

/-- Two different shifts below sixteen never meet. -/
theorem sh_ne (d e : ℕ) (hd : d < 16) (he : e < 16) (hde : d ≠ e) (c : Dev nD) : sh d c ≠ sh e c := by
  intro h; have h' := congrArg Fin.val h; have hc : c.val < 16 := c.isLt; simp only [sh_val] at h'; omega

end Cert.KernelIdeal.Hand
-- ==== Proof.KernelIdeal.Contents.lean ====
/-
What the buffers hold. Device `c` holds block `c` of `x` (1536 rows of 768 columns). Its
column maxima form one row `locmax c` of 768 entries. After the exchange, slot `d` of device
`c`'s sixteen-row scratch holds the row of the device `d` places before it, `locmax (sh (16 - d) c)`,
and slot 0 holds its own. The result on `c` is the entrywise maximum of the sixteen rows, taken in
the order the kernel takes them: slot 0, then slots 1, 15, 2, 14, 3, 13, 4, 12, 5, 11, 6, 10, 7, 9, 8.
-/
import proofs.«900909_g7700000000000910_dist_max_ax0_shard0_i_m1536_n768_v7x_i16_f32_1_alg».proof.Proof.Gen.KernelIdeal.Skeleton
import proofs.«900909_g7700000000000910_dist_max_ax0_shard0_i_m1536_n768_v7x_i16_f32_1_alg».proof.Proof.KernelIdeal.Mesh
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Device `c`'s block of `x`, as its staging buffer holds it at the kernel's one grid point. -/
def xblk (c : Dev nD) : Vec F S1536x768 .f32 :=
  (win0_0.blk (0 : Fin 1)).view.read (Elt F) (m ((c : Thread nD τ).loc main_arg0))

/-- The column maxima of device `c`'s block: one row of 768 entries. -/
def locmax (c : Dev nD) : Vec F S1x1x768 .f32 := k0_pay1 (xblk m c)

/-- The row that lands in slot `d` of device `c`'s scratch: that of the device `d` places before `c`. -/
def rowAt (c : Dev nD) (d : ℕ) : Vec F S1x1x768 .f32 := locmax m (sh (16 - d) c)

/-- The result on device `c`: the entrywise maximum of the sixteen rows in the kernel's order. -/
def outAt (c : Dev nD) : Vec F S1x768 .f32 :=
  k0_pay8 (k0_pay7 (k0_pay6 (k0_pay5 (k0_pay4 (k0_pay3 (k0_pay2 (locmax m c) (rowAt m c 1))
    (rowAt m c 15) (rowAt m c 2) (rowAt m c 14)) (rowAt m c 3) (rowAt m c 13))
    (rowAt m c 4) (rowAt m c 12) (rowAt m c 5)) (rowAt m c 11) (rowAt m c 6)) (rowAt m c 10) (rowAt m c 7))
    (rowAt m c 9) (rowAt m c 8)

end Cert.KernelIdeal.Hand

end
-- ==== Proof.KernelIdeal.Sched.lean ====
/-
The exchange protocol, as a schedule of rounds. Every device has one barrier cell, fifteen send cells
and fifteen receive cells (slots 1 … 15), each with ONE round.

* Barrier cell of `c`: fifteen duties `e = 1 … 15` of one unit, duty `e` paid by the device `e`
  places before `c` (its signal number `e` names `c`). That device is `sh (16 - e) c`; what its unit
  hands `c` is slot `16 - e` of ITS scratch — the slot `c`'s copy number `16 - e` lands in — and
  that its receive cell for that slot is open.
* Receive cell `k` of `c`: one duty, the landing of the copy from the device `k` places before `c`;
  it hands `c` slot `k` of its scratch holding that device's row of column maxima.
* Send cell `k` of `c`: one duty, the source of copy `k` read out; it hands back the share of slot 0
  the copy was given.

Slot 0 is read by all fifteen copies at once and by the kernel's own load, so its ownership is cut
into sixteen shares: `shr 1 … shr 15` for the copies and `rest 15` kept.
-/
import proofs.«900909_g7700000000000910_dist_max_ax0_shard0_i_m1536_n768_v7x_i16_f32_1_alg».proof.Proof.Gen.KernelIdeal.Skeleton
import proofs.«900909_g7700000000000910_dist_max_ax0_shard0_i_m1536_n768_v7x_i16_f32_1_alg».proof.Proof.Gen.KernelIdeal.Launch
import proofs.«900909_g7700000000000910_dist_max_ax0_shard0_i_m1536_n768_v7x_i16_f32_1_alg».proof.Proof.KernelIdeal.Contents
import Idealize.ShloMosaic.Lib.Pipeline.Launch
import Idealize.ShloMosaic.Lib.Pipeline.Kit
import Idealize.ShloMosaic.Lib.Tactic
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties numbered by ℕ) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Memrefs, semaphores, cells -/

abbrev xM : Memref sig .tc .vmem S1536x768 .f32 := Memref.whole cc0_stg0_0
abbrev oM : Memref sig .tc .vmem S1x768 .f32 := Memref.whole cc0_stg1_0
abbrev rM : Memref sig .tc .vmem S16x1x768 .f32 := Memref.whole cc0_scratch0

/-- Row `k` of the scratch as a rectangle, and as the memref a copy names. -/
abbrev slotR (k : ℕ) (h : ∀ a, (![k, 0, 0] : Fin 3 → ℕ) a + S1x1x768.size a ≤ S16x1x768.size a) : Rect S16x1x768 :=
  Rect.unit (s := S16x1x768) ![k, 0, 0] S1x1x768.size h
abbrev slotM (k : ℕ) (h : ∀ a, (![k, 0, 0] : Fin 3 → ℕ) a + S1x1x768.size a ≤ S16x1x768.size a) : Memref sig .tc .vmem S1x768 .f32 :=
  (rM.slice (slotR k h) (fun _ => rfl)).squeeze S1x768 squeezes_S1x1x768_S1x768

theorem slot_inb (k : ℕ) (hk : k < 16) : ∀ a, (![k, 0, 0] : Fin 3 → ℕ) a + S1x1x768.size a ≤ S16x1x768.size a := by
  intro a; fin_cases a
  · show k + 1 ≤ 16; omega
  · show 0 + 1 ≤ 1; omega
  · show 0 + 768 ≤ 768; omega

/-- The runtime's barrier semaphore; the send and receive DMA semaphores of slot `k` (numbers `2 + k`, `18 + k`). -/
abbrev barS : Sem sig := (SemArray.scalar (sig.barrier 0 rfl) : Sems sig S_).sem
def sq (k : ℕ) : DmaSem sig := ⟨(2 + k) % 34, Nat.mod_lt _ (by decide)⟩
def rq (k : ℕ) : DmaSem sig := ⟨(18 + k) % 34, Nat.mod_lt _ (by decide)⟩

theorem sq_val (k : ℕ) (hk : k < 16) : (sq k).val = 2 + k := Nat.mod_eq_of_lt (by omega)
theorem rq_val (k : ℕ) (hk : k < 16) : (rq k).val = 18 + k := Nat.mod_eq_of_lt (by omega)

abbrev barCell (c : Dev nD) : GSem nD τ sig := ((c : Thread nD τ), .reg barS)
abbrev sendCell (c : Dev nD) (k : ℕ) : GSem nD τ sig := ((c : Thread nD τ), .dma (sq k))
abbrev recvCell (c : Dev nD) (k : ℕ) : GSem nD τ sig := ((c : Thread nD τ), .dma (rq k))

/-- The units one copy of a row credits. -/
abbrev N : ℕ := (slotM 1 (slot_inb 1 (by decide))).view.dmaCredit
theorem N_pos : 0 < N := View.dmaCredit_pos _ (by decide)

/-! ## Slots of the scratch, and the shares of slot 0 -/

/-- The elements of row `k` of the scratch. -/
def slotSet (k : ℕ) : Finset S16x1x768.Idx := Finset.univ.filter fun i => (i 0).val = k

theorem mem_slotSet {k : ℕ} {i : S16x1x768.Idx} : i ∈ slotSet k ↔ (i 0).val = k := by
  unfold slotSet; rw [Finset.mem_filter]; exact ⟨fun h => h.2, fun h => ⟨Finset.mem_univ _, h⟩⟩

theorem slotR_set (k : ℕ) (h) : (slotR k h).set = slotSet k := by
  ext i
  rw [Rect.mem_set_unit, mem_slotSet]
  constructor
  · intro hi; have := hi 0; simp only [Matrix.cons_val_zero] at this
    have h2 : S1x1x768.size 0 = 1 := rfl
    omega
  · intro hi a; fin_cases a
    · show k ≤ (i 0).val ∧ (i 0).val < k + 1; omega
    · show 0 ≤ (i 1).val ∧ (i 1).val < 0 + 1; have h1 : (i 1).val < 1 := (i 1).isLt; exact ⟨Nat.zero_le _, by omega⟩
    · show 0 ≤ (i 2).val ∧ (i 2).val < 0 + 768; have h2 : (i 2).val < 768 := (i 2).isLt; exact ⟨Nat.zero_le _, by omega⟩

theorem slotM_set (k : ℕ) (h) : (slotM k h).view.set = slotSet k := by
  simp only [Memref.view_squeeze, Memref.view_slice, Memref.view_whole, View.set_reshape, View.set_slice_whole]
  exact slotR_set k h

theorem slotSet_disjoint {j k : ℕ} (h : j ≠ k) : Disjoint (slotSet j) (slotSet k) := by
  rw [Finset.disjoint_left]; intro i hj hk; exact h ((mem_slotSet.mp hj).symm.trans (mem_slotSet.mp hk))

/-- The scratch with the row `v` written at slot `k` (elsewhere anything): the contents a slot's points-to names. -/
def putAt (k : ℕ) (v : Vec F S1x1x768 .f32) : Vec F S16x1x768 .f32 :=
  if hk : k < 16 then (rM.access (slotR k (slot_inb k hk))).write (Elt F) (fun _ => v (ValueIdx.ix3 0 0 0)) v Finset.univ
  else fun _ => v (ValueIdx.ix3 0 0 0)

omit [FloatOps F] in
theorem putAt_eq (k : ℕ) (hk : k < 16) (h) (v : Vec F S1x1x768 .f32) :
    putAt k v = (rM.access (slotR k h)).write (Elt F) (fun _ => v (ValueIdx.ix3 0 0 0)) v Finset.univ := by
  unfold putAt; rw [dif_pos hk]

omit [FloatOps F] in
/-- A load of slot `k` reads the row back. -/
theorem read_putAt (k : ℕ) (hk : k < 16) (h) (v : Vec F S1x1x768 .f32) :
    (rM : Memref sig .tc .vmem S16x1x768 .f32).view.readAt (Elt F) (slotR k h).toLoadRect (putAt k v) = v := by
  rw [putAt_eq k hk h]
  exact View.read_write_univ _ _

omit [FloatOps F] in
theorem access_set (k : ℕ) (h) : ((rM : Memref sig .tc .vmem S16x1x768 .f32).access (slotR k h)).set = slotSet k := by
  show ((View.whole cc0_scratch0).slice (slotR k h)).set = slotSet k
  rw [View.set_slice_whole]; exact slotR_set k h

omit [FloatOps F] in
/-- A store of the row `w` through slot `k` leaves the slot at `putAt k w`, whatever it held. -/
theorem write_putAt (k : ℕ) (hk : k < 16) (h) (f : Vec F S16x1x768 .f32) (w : Vec F S1x1x768 .f32) :
    ∀ i ∈ slotSet k, ((rM : Memref sig .tc .vmem S16x1x768 .f32).access (slotR k h)).write (Elt F) f w Finset.univ i = putAt k w i := by
  intro i hi
  rw [← access_set k h] at hi
  obtain ⟨y, rfl⟩ := View.exists_emb_of_mem_set _ hi
  rw [putAt_eq k hk h, View.write_emb_of_mem _ _ (Finset.mem_univ y), View.write_emb_of_mem _ _ (Finset.mem_univ y)]

omit [FloatOps F] in
/-- A copy of slot 0 (holding the row `v`) into slot `k` leaves slot `k` holding `v`, whatever it held. -/
theorem land_putAt (k : ℕ) (hk : k < 16) (h0) (h) (fd : Vec F S16x1x768 .f32) (v : Vec F S1x1x768 .f32) :
    ∀ i ∈ slotSet k, (slotM k h).view.write (Elt F) fd ((slotM 0 h0).view.read (Elt F) (putAt 0 v)) Finset.univ i = putAt k v i := by
  intro i hi
  rw [← slotM_set k h] at hi
  obtain ⟨y, rfl⟩ := View.exists_emb_of_mem_set _ hi
  rw [View.write_emb_of_mem _ _ (Finset.mem_univ y), View.read_apply]
  have e0 : (slotM 0 h0).view.emb y = ((rM : Memref sig .tc .vmem S16x1x768 .f32).access (slotR 0 h0)).emb (Shape.reshapeEquiv (Shape.Squeezes.numel_eq squeezes_S1x1x768_S1x768) y) := rfl
  have ek : (slotM k h).view.emb y = ((rM : Memref sig .tc .vmem S16x1x768 .f32).access (slotR k h)).emb (Shape.reshapeEquiv (Shape.Squeezes.numel_eq squeezes_S1x1x768_S1x768) y) := rfl
  rw [e0, ek, putAt_eq 0 (by decide) h0, putAt_eq k hk h, View.write_emb_of_mem _ _ (Finset.mem_univ _), View.write_emb_of_mem _ _ (Finset.mem_univ _)]
  rfl

/-- What is left of slot 0's ownership after the first `n` copies have taken their shares; copy `n + 1` takes `shr (n + 1)`. -/
def rest : ℕ → PosShare TreeShare
  | 0 => fullShare
  | n + 1 => (rest n).right
def shr (n : ℕ) : PosShare TreeShare := (rest (n - 1)).left

/-- Device `c`'s scratch elements `S` at share `q` holding `f`. -/
abbrev scr (c : Dev nD) (S : Finset S16x1x768.Idx) (q : PosShare TreeShare) (f : Vec F S16x1x768 .f32) : sProp 𝕄 :=
  ((c : Thread nD τ).loc cc0_scratch0) ↦[S]{q} f

omit [FloatOps F] in
instance scr_storable (c : Dev nD) (S q f) : BI.Storable (upEmb : UEmb _ 𝕄) (scr (F := F) c S q f) := by unfold scr; infer_instance

omit [FloatOps F] in
theorem scr_congr (c : Dev nD) (S : Finset S16x1x768.Idx) (q) {f g : Vec F S16x1x768 .f32} (h : ∀ i ∈ S, f i = g i) :
    scr c S q f = scr c S q g := by unfold scr; exact BI.Region.is_congr h

omit [FloatOps F] in
/-- Cutting the next copy's share off what is left of slot 0. -/
theorem scr_share (c : Dev nD) (S : Finset S16x1x768.Idx) (n : ℕ) (f : Vec F S16x1x768 .f32) :
    scr c S (rest n) f ⊣⊢ iprop(scr c S (shr (n + 1)) f ∗ scr c S (rest (n + 1)) f) := by
  unfold scr
  exact BI.Region.is_share (IsOp.posShare_halves (rest n)).1

/-! ## The payloads -/

/-- What the unit of duty `e` of `c`'s barrier cell hands `c`: slot `16 - e` of the scratch of the device
    `16 - e` places after `c` (at any contents), and that device's receive cell for that slot open. -/
def barPay (c : Dev nD) (e : ℕ) : sProp 𝕄 :=
  iprop((∃ f, scr (sh (16 - e) c) (slotSet (16 - e)) fullShare f) ∗ reached ER (recvCell (sh (16 - e) c) (16 - e)) 0)
/-- The landing in slot `k` of `c`: the slot, holding the row of the device `k` places before `c`. -/
def recvPay (c : Dev nD) (k : ℕ) : sProp 𝕄 := scr c (slotSet k) fullShare (putAt k (rowAt m c k))
/-- Copy `k` read out: its share of slot 0, holding `c`'s own row. -/
def sendPay (c : Dev nD) (k : ℕ) : sProp 𝕄 := scr c (slotSet 0) (shr k) (putAt 0 (locmax m c))

/-! ## The schedule -/

/-- One round. A barrier cell: duties `1 … 15`, one unit each. Send cell `k`, receive cell `k` (`k = 1 … 15`):
    the one duty `0`, of a row's credit. Every other cell (the two unused semaphores, the staging cells): none. -/
def sched : Rounds.Schedule (GSem nD τ sig) ℕ 𝕄 where
  duties g r := if r = 0 ∧ g.1.2 = .tc then
      (match g.2 with
        | .reg s => if s = barS then Finset.Icc 1 15 else ∅
        | .dma q => if (2 < q.val ∧ q.val < 18) ∨ 18 < q.val then {0} else ∅)
    else ∅
  unitless _ := False
  amount g _ _ := match g.2 with | .reg _ => 1 | .dma _ => N
  payload g _ e := match g.2 with
    | .reg _ => barPay g.1.1 e
    | .dma q => if 18 < q.val then recvPay m g.1.1 (q.val - 18) else sendPay m g.1.1 (q.val - 2)
  amount_pos g _ _ _ := by
    cases g.2 with
    | reg _ => exact Nat.one_pos
    | dma _ => exact N_pos

instance sched_payload_storable (g : GSem nD τ sig) (r : ℕ) (d : ℕ) :
    BI.Storable (upEmb : UEmb _ 𝕄) ((sched (F := F) m).payload g r d) := by
  show BI.Storable upEmb (match g.2 with
    | .reg _ => barPay g.1.1 d
    | .dma q => if 18 < q.val then recvPay m g.1.1 (q.val - 18) else sendPay m g.1.1 (q.val - 2))
  unfold barPay recvPay sendPay
  (repeat' split) <;> infer_instance

section Tables
variable (c : Dev nD)

theorem duties_bar : (sched (F := F) m).duties (barCell c) 0 = Finset.Icc 1 15 := by
  dsimp only [sched]; rw [if_pos ⟨rfl, rfl⟩, if_pos rfl]
theorem duties_send (k : ℕ) (hk : 1 ≤ k ∧ k ≤ 15) : (sched (F := F) m).duties (sendCell c k) 0 = {0} := by
  dsimp only [sched]; rw [if_pos ⟨rfl, rfl⟩, if_pos (Or.inl (by rw [sq_val k (by omega)]; omega))]
theorem duties_recv (k : ℕ) (hk : 1 ≤ k ∧ k ≤ 15) : (sched (F := F) m).duties (recvCell c k) 0 = {0} := by
  dsimp only [sched]; rw [if_pos ⟨rfl, rfl⟩, if_pos (Or.inr (by rw [rq_val k (by omega)]; omega))]
theorem duties_later (g : GSem nD τ sig) : ∀ r, 1 ≤ r → (sched (F := F) m).duties g r = ∅ :=
  fun r hr => by dsimp only [sched]; rw [if_neg fun h => by omega]
/-- The two semaphores no copy uses have no duty at all. -/
theorem duties_unused (q : DmaSem sig) (hq : q.val = 2 ∨ q.val = 18) : ∀ r, 0 ≤ r → (sched (F := F) m).duties ((c : Thread nD τ), .dma q) r = ∅ :=
  fun r _ => by
    dsimp only [sched]
    by_cases h : r = 0 ∧ ((c : Thread nD τ)).2 = .tc
    · rw [if_pos h, if_neg (by omega)]
    · rw [if_neg h]

theorem amount_bar (d : ℕ) : (sched (F := F) m).amount (barCell c) 0 d = 1 := rfl
theorem amount_send (k d : ℕ) : (sched (F := F) m).amount (sendCell c k) 0 d = N := rfl
theorem amount_recv (k d : ℕ) : (sched (F := F) m).amount (recvCell c k) 0 d = N := rfl

theorem expect_bar : (sched (F := F) m).expect (barCell c) 0 = 15 := by
  unfold Schedule.expect Schedule.amountOf
  rw [duties_bar, Finset.sum_congr rfl fun d _ => amount_bar m c d, Finset.sum_const, smul_eq_mul]; decide
theorem expect_send (k : ℕ) (hk : 1 ≤ k ∧ k ≤ 15) : (sched (F := F) m).expect (sendCell c k) 0 = N := by
  unfold Schedule.expect Schedule.amountOf; rw [duties_send m c k hk, Finset.sum_singleton]; rfl
theorem expect_recv (k : ℕ) (hk : 1 ≤ k ∧ k ≤ 15) : (sched (F := F) m).expect (recvCell c k) 0 = N := by
  unfold Schedule.expect Schedule.amountOf; rw [duties_recv m c k hk, Finset.sum_singleton]; rfl

theorem payload_bar (e : ℕ) : (sched (F := F) m).payload (barCell c) 0 e = barPay c e := rfl
theorem payload_send (k : ℕ) (hk : 1 ≤ k ∧ k ≤ 15) (d : ℕ) : (sched (F := F) m).payload (sendCell c k) 0 d = sendPay m c k := by
  dsimp only [sched]; rw [if_neg (by rw [sq_val k (by omega)]; omega), sq_val k (by omega), Nat.add_sub_cancel_left]
theorem payload_recv (k : ℕ) (hk : 1 ≤ k ∧ k ≤ 15) (d : ℕ) : (sched (F := F) m).payload (recvCell c k) 0 d = recvPay m c k := by
  dsimp only [sched]; rw [if_pos (by rw [rq_val k (by omega)]; omega), rq_val k (by omega), Nat.add_sub_cancel_left]

/-- The whole of the barrier cell's round: the fifteen hand-overs, in the order of the slots `15, 14, … 1`
    of duties `1, 2, … 15`. -/
theorem rest_bar : bigSep ((sched (F := F) m).duties (barCell c) 0 \ ∅) (fun d => (sched (F := F) m).payload (barCell c) 0 d)
    = iprop(barPay c 1 ∗ barPay c 2 ∗ barPay c 3 ∗ barPay c 4 ∗ barPay c 5 ∗ barPay c 6 ∗ barPay c 7 ∗ barPay c 8
        ∗ barPay c 9 ∗ barPay c 10 ∗ barPay c 11 ∗ barPay c 12 ∗ barPay c 13 ∗ barPay c 14 ∗ barPay c 15) := by
  rw [Finset.sdiff_empty, duties_bar,
    bigSep_eq_bigSepL_of_eq [1, 2, 3, 4, 5, 6, 7, 8, 9, 10, 11, 12, 13, 14, 15] (by decide) (by decide)]
  rfl
theorem rest_send (k : ℕ) (hk : 1 ≤ k ∧ k ≤ 15) :
    bigSep ((sched (F := F) m).duties (sendCell c k) 0 \ ∅) (fun d => (sched (F := F) m).payload (sendCell c k) 0 d) = sendPay m c k := by
  rw [Finset.sdiff_empty, duties_send m c k hk, bigSep_singleton, payload_send m c k hk]
theorem rest_recv (k : ℕ) (hk : 1 ≤ k ∧ k ≤ 15) :
    bigSep ((sched (F := F) m).duties (recvCell c k) 0 \ ∅) (fun d => (sched (F := F) m).payload (recvCell c k) 0 d) = recvPay m c k := by
  rw [Finset.sdiff_empty, duties_recv m c k hk, bigSep_singleton, payload_recv m c k hk]

end Tables

end Cert.KernelIdeal.Hand

end
-- ==== Proof.KernelIdeal.Data.lean ====
/-
What each device owes at launch, the levels that order the waits, the ghost state a device's body starts
from, and the pipeline's proof data.

Debts. Device `c` owes one unit to the barrier cell of each of the fifteen other devices (`sh d c`,
`d = 1 … 15`) and a row's credit to receive cell `d` of `sh d c`. They are paid in the order
`d = 1, 2, …`: first the fifteen signals, then the fifteen copies.

Levels. Staging and send cells at 0, barrier cells at 1, receive cells at 2. A device waits on its
barrier while it still owes receive credits (level 2 above 1); on everything else it waits owing nothing.
-/
import proofs.«900909_g7700000000000910_dist_max_ax0_shard0_i_m1536_n768_v7x_i16_f32_1_alg».proof.Proof.KernelIdeal.Sched
import Mathlib.Algebra.Order.Interval.Finset.SuccPred

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Debts -/

/-- The barrier units `c` still owes, for the signals numbered in `S`. -/
def debtB (c : Dev nD) (S : Finset ℕ) : CellTallies nD τ sig Unit := ∑ d ∈ S, tallyAt (barCell (sh d c)) () 1
/-- The receive credits `c` still owes, for the copies numbered in `S`. -/
def debtR (c : Dev nD) (S : Finset ℕ) : CellTallies nD τ sig Unit := ∑ d ∈ S, tallyAt (recvCell (sh d c) d) () N

/-- What `c` owes once signals `1 … j - 1` are out. -/
def oweB (c : Dev nD) (j : ℕ) : CellTallies nD τ sig Unit := debtR c (Finset.Icc 1 15) + debtB c (Finset.Icc j 15)
/-- What `c` owes once all signals and copies `1 … j - 1` are out. -/
def oweR (c : Dev nD) (j : ℕ) : CellTallies nD τ sig Unit := debtR c (Finset.Icc j 15)

def O₀ (c : Dev nD) : CellTallies nD τ sig Unit := oweB c 1

theorem oweB_peel (c : Dev nD) (j : ℕ) (hj : j ≤ 15) : oweB c j = oweB c (j + 1) + tallyAt (barCell (sh j c)) () 1 := by
  unfold oweB debtB
  rw [← Finset.insert_Icc_add_one_left_eq_Icc hj, Finset.sum_insert (by rw [Finset.mem_Icc]; omega), add_comm (tallyAt _ _ _), add_assoc]
theorem oweB_done (c : Dev nD) : oweB c 16 = oweR c 1 := by
  unfold oweB oweR debtB
  rw [show Finset.Icc 16 15 = (∅ : Finset ℕ) from Finset.Icc_eq_empty (by decide), Finset.sum_empty, add_zero]
theorem oweR_peel (c : Dev nD) (j : ℕ) (hj : j ≤ 15) : oweR c j = oweR c (j + 1) + tallyAt (recvCell (sh j c) j) () N := by
  unfold oweR debtR
  rw [← Finset.insert_Icc_add_one_left_eq_Icc hj, Finset.sum_insert (by rw [Finset.mem_Icc]; omega), add_comm]
theorem oweR_done (c : Dev nD) : oweR c 16 = 0 := by
  unfold oweR debtR
  rw [show Finset.Icc 16 15 = (∅ : Finset ℕ) from Finset.Icc_eq_empty (by decide), Finset.sum_empty]

/-- A receive debt is positive only at a receive cell of slot `1 … 15`. -/
theorem debtR_pos {c : Dev nD} {S : Finset ℕ} (hS : S ⊆ Finset.Icc 1 15) {g : GSem nD τ sig} {u : Unit} (h : 0 < debtR c S g u) :
    ∃ d, (1 ≤ d ∧ d ≤ 15) ∧ g = recvCell (sh d c) d := by
  obtain ⟨d, hd, hp⟩ := Pipeline.sum_pos_exists h
  exact ⟨d, Finset.mem_Icc.mp (hS hd), (Pipeline.tallyAt_pos hp).1⟩
theorem debtB_pos {c : Dev nD} {S : Finset ℕ} {g : GSem nD τ sig} {u : Unit} (h : 0 < debtB c S g u) :
    ∃ d, g = barCell (sh d c) := by
  obtain ⟨d, hd, hp⟩ := Pipeline.sum_pos_exists h
  exact ⟨d, (Pipeline.tallyAt_pos hp).1⟩

/-! ## Levels -/

def L (g : GSem nD τ sig) : Finset Unit := if g.1.2 = .tc then {()} else ∅
/-- Barrier cells at 1, receive cells (DMA semaphores above 18) at 2, everything else at 0. -/
def lv (g : GSem nD τ sig) (_ : Unit) : ℕ :=
  match g.2 with
  | .reg s => if s = barS then 1 else 0
  | .dma q => if 18 < q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (k : ℕ) (hk : 1 ≤ k ∧ k ≤ 15) (u : Unit) : lv (recvCell c k) u = 2 := by
  dsimp only [lv]; rw [if_pos (by rw [rq_val k (by omega)]; omega)]

omit [FloatOps F] in
/-- At its barrier wait a device owes receive credits only: receive cells sit above its barrier cell. -/
theorem mayWait_bar (c : Dev nD) :
    (levAts L lv : sProp 𝕄) ⊢ MayWait (c : Thread nD τ) (.reg barS) () (oweR c 1) :=
  Pipeline.mayWait_of_levAts (by rw [L_tc]; exact Finset.mem_singleton_self _) fun g u hg => by
    obtain ⟨d, hd, rfl⟩ := debtR_pos (Finset.Subset.refl _) hg
    refine ⟨by rw [L_tc]; exact Finset.mem_singleton_self _, ?_⟩
    rw [lv_bar c, lv_recv _ d hd]; decide

/-! ## The cells of one device, numbered: 0 the barrier, 1 … 16 the send cells of slots 0 … 15, 17 … 32 the receive cells -/

abbrev csem (k : Fin 33) : SemLoc sig := if h : k.val = 0 then .reg barS else .dma ⟨k.val + 1, (show k.val + 1 < 34 by omega)⟩
abbrev kcell (ck : Dev nD × Fin 33) : GSem nD τ sig := ((ck.1 : Thread nD τ), csem ck.2)
/-- The kernel's own (scoped) semaphores as the launch indexes them: DMA semaphores 2 … 33. -/
abbrev osem (j : Fin 32) : SemLoc sig := .dma ⟨j.val + 2, (show j.val + 2 < 34 by omega)⟩

def ksend (k : ℕ) : Fin 33 := ⟨(k + 1) % 33, Nat.mod_lt _ (by decide)⟩
def krecv (k : ℕ) : Fin 33 := ⟨(k + 17) % 33, Nat.mod_lt _ (by decide)⟩

theorem kcell_bar (c : Dev nD) : kcell (c, 0) = barCell c := rfl
theorem kcell_send (c : Dev nD) (k : ℕ) (hk : k < 16) : kcell (c, ksend k) = sendCell c k := by
  have h1 : (ksend k).val = k + 1 := Nat.mod_eq_of_lt (by omega)
  show ((c : Thread nD τ), csem (ksend k)) = ((c : Thread nD τ), SemLoc.dma (sq k))
  congr 1
  unfold csem
  rw [dif_neg (by omega)]
  congr 1
  apply Fin.ext
  show (ksend k).val + 1 = (sq k).val
  rw [h1, sq_val k hk]; omega
theorem kcell_recv (c : Dev nD) (k : ℕ) (hk : k < 16) : kcell (c, krecv k) = recvCell c k := by
  have h1 : (krecv k).val = k + 17 := Nat.mod_eq_of_lt (by omega)
  show ((c : Thread nD τ), csem (krecv k)) = ((c : Thread nD τ), SemLoc.dma (rq k))
  congr 1
  unfold csem
  rw [dif_neg (by omega)]
  congr 1
  apply Fin.ext
  show (krecv k).val + 1 = (rq k).val
  rw [h1, rq_val k hk]; omega

/-! ## The ghost state -/

/-- Every cell's invariant, under the names `K` the launch allocated them at, and that every cell is open at round 0. -/
def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

instance records_persistent (K : Dev nD × Fin 33 → ℕ) : BI.Persistent (records m K) := by unfold records; infer_instance

theorem inv_aux (K : Dev nD × Fin 33 → ℕ) (ck : Dev nD × Fin 33) :
    (bigSep Finset.univ fun ck : Dev nD × Fin 33 => (cellInv ER (sched m) (K ck) (kcell ck) : sProp 𝕄)) ⊢ cellInv ER (sched m) (K ck) (kcell ck) :=
  bigSep_elim (Finset.mem_univ ck)
omit [FloatOps F] in
theorem reached_aux (ck : Dev nD × Fin 33) :
    (bigSep Finset.univ fun ck : Dev nD × Fin 33 => (reached ER (kcell ck) 0 : sProp 𝕄)) ⊢ reached ER (kcell ck) 0 :=
  bigSep_elim (Finset.mem_univ ck)
theorem inv_at (K : Dev nD × Fin 33 → ℕ) (ck : Dev nD × Fin 33) : records m K ⊢ cellInv ER (sched m) (K ck) (kcell ck) := by
  unfold records; iintro ⟨H, -⟩; iapply (inv_aux m K ck); iexact H
theorem reached_at (K : Dev nD × Fin 33 → ℕ) (ck : Dev nD × Fin 33) : records m K ⊢ reached ER (kcell ck) 0 := by
  unfold records; iintro ⟨-, H⟩; iapply (reached_aux (F := F) ck); iexact H

/-- The duty tokens device `c` pays with: duty `d` of the barrier of `sh d c`, the landing in slot `d` of `sh d c`,
    and its own send duty `d`. -/
def payToks (c : Dev nD) : sProp 𝕄 :=
  iprop((bigSep (Finset.Icc 1 15) fun d => dutyTok ER (barCell (sh d c)) 0 d)
    ∗ (bigSep (Finset.Icc 1 15) fun d => dutyTok ER (recvCell (sh d c) d) 0 0)
    ∗ (bigSep (Finset.Icc 1 15) fun d => dutyTok ER (sendCell c d) 0 0))
/-- What stays with device `c`: its positions at round 0 of its own thirty-three cells, and the tokens it pays with. -/
def linear (c : Dev nD) : sProp 𝕄 :=
  iprop((bigSep Finset.univ fun k : Fin 33 => atPos ER (kcell (c, k)) 0 ∅ 0) ∗ payToks c)

def ghost (K : Dev nD × Fin 33 → ℕ) (c : Dev nD) : sProp 𝕄 := iprop(records m K ∗ linear c)

/-- What device `c`'s body starts from: the ghost state at some names, the credit of its barrier's fifteen units and
    of its fifteen landings, and the level facts. -/
def start (c : Dev nD) : sProp 𝕄 :=
  iprop((∃ K, ghost m K c) ∗ cred (tallyAt (barCell c) () 15)
    ∗ (bigSep (Finset.Icc 1 15) fun k => cred (tallyAt (recvCell c k) () N)) ∗ levAts L lv)

/-- Before the point: that, and the scratch at any contents. -/
def Φ₀ (c : Dev nD) : sProp 𝕄 := iprop(start m c ∗ ∃ f, scr c Finset.univ fullShare f)
/-- After the point: the scratch back whole, and the kernel's own thirty-two semaphores at zero. -/
def Φ₁ (c : Dev nD) : sProp 𝕄 :=
  iprop((∃ f, scr c Finset.univ fullShare f) ∗ bigSep Finset.univ fun j : Fin 32 => semVal ((c : Thread nD τ), osem j) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Hand

end
-- ==== Proof.KernelIdeal.Steps.lean ====
/-
The protocol's steps, each stated once for a symbolic shift `d` (or slot `k`) between 1 and 15:
a barrier signal, a remote copy of slot 0, a receive wait, a send wait.
-/
import proofs.«900909_g7700000000000910_dist_max_ax0_shard0_i_m1536_n768_v7x_i16_f32_1_alg».proof.Proof.KernelIdeal.Data

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps
variable (K : Dev nD × Fin 33 → ℕ)

/-- The invariant and the round-0 mark of a send or receive cell, in the cell's own spelling. -/
theorem inv_send (c : Dev nD) (k : ℕ) (hk : k < 16) : records m K ⊢ cellInv ER (sched m) (K (c, ksend k)) (sendCell c k) := by
  have h := inv_at m K (c, ksend k); rw [kcell_send c k hk] at h; exact h
theorem inv_recv (c : Dev nD) (k : ℕ) (hk : k < 16) : records m K ⊢ cellInv ER (sched m) (K (c, krecv k)) (recvCell c k) := by
  have h := inv_at m K (c, krecv k); rw [kcell_recv c k hk] at h; exact h
theorem reached_send (c : Dev nD) (k : ℕ) (hk : k < 16) : records m K ⊢ reached ER (sendCell c k) 0 := by
  have h := reached_at m K (c, ksend k); rw [kcell_send c k hk] at h; exact h
theorem reached_recv (c : Dev nD) (k : ℕ) (hk : k < 16) : records m K ⊢ reached ER (recvCell c k) 0 := by
  have h := reached_at m K (c, krecv k); rw [kcell_recv c k hk] at h; exact h

/-- Signal number `d`: device `c` pays duty `d` of the barrier cell of `sh d c`, handing over slot `16 - d` of its
    own scratch (the slot that device's copy lands in) and that its receive cell for that slot is open. -/
theorem wp_sig (c n : Dev nD) (d : ℕ) (hd : 1 ≤ d ∧ d ≤ 15) (hn : n = sh d c) (k' : ℕ) (hk' : 1 = k')
    {α : Type} {Q : α → sProp 𝕄} {k : PUnit → Prog (TpuEff nD τ sig (Elt F) Λ₀ .tc) α}
    (W : Waits sig Unit) (f : Vec F S16x1x768 .f32) :
    iprop(records m K ∗ owes (c : Thread nD τ) (oweB c d) W ∗ dutyTok ER (barCell (sh d c)) 0 d
        ∗ scr c (slotSet (16 - d)) fullShare f)
      ⊢ iprop((owes (c : Thread nD τ) (oweB c (d + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk'
  iintro ⟨#HR, HO, Htok, Hslot⟩
  iapply (Rounds.wp_signal 𝒱₀ ER (sched m) (c : Thread nD τ) none (dst := (sh d c : Thread nD τ)) (κ := K (sh d c, 0))
      (d := d) (by rw [duties_bar]; exact Finset.mem_Icc.mpr hd) (amount_bar m (sh d c) d) () (oweB c (d + 1)) (oweB_peel c d hd.2))
    $$ [HO Htok Hslot]
  · isplitr; · iapply (inv_at m K (sh d c, 0)); iexact HR
    isplitl [HO]; · iexact HO
    isplitl [Htok]; · iexact Htok
    isplitl [Hslot]
    · rw [payload_bar]; unfold barPay; rw [sh_sh_compl d (by omega) c]
      isplitl [Hslot]; · iexists f; iexact Hslot
      iapply (reached_recv m K c (16 - d) (by omega)); iexact HR
    · iapply (reached_at m K (sh d c, 0)); iexact HR

/-- Copy number `d`: slot 0 of `c` (its share `shr d`, holding `c`'s row) into slot `d` of `sh d c`, which `c` owns
    at any contents. The landing hands `sh d c` its slot holding `c`'s row — the row of the device `d` places before it. -/
theorem wp_snd (c n : Dev nD) (d : ℕ) (hd : 1 ≤ d ∧ d ≤ 15) (hn : n = sh d c) (qs qr : DmaSem sig) (hqs : qs = sq d) (hqr : qr = rq d)
    (h0 : ∀ a, (![0, 0, 0] : Fin 3 → ℕ) a + S1x1x768.size a ≤ S16x1x768.size a)
    (hI : ∀ a, (![d, 0, 0] : Fin 3 → ℕ) a + S1x1x768.size a ≤ S16x1x768.size a)
    {hsc : (slotM d hI : Memref sig (Dev.tc n : Thread nD τ).2.kind .vmem S1x768 .f32).view.ref.isScScratch = false}
    {hsrc : (slotM 0 h0 : Memref sig .tc .vmem S1x768 .f32).view.WordExact} {hdst : (slotM d hI : Memref sig .tc .vmem S1x768 .f32).view.WordExact}
    {hsem : DmaTarget.Typed .vmem (.dma qr) (.remote (Dev.tc n : Thread nD τ) (slotM d hI : Memref sig .tc .vmem S1x768 .f32) (.dma qs) hsc)}
    {α : Type} {Q : α → sProp 𝕄} {k : PUnit → Prog (TpuEff nD τ sig (Elt F) Λ₀ .tc) α}
    (fn : Vec F S16x1x768 .f32) (W : Waits sig Unit) :
    iprop(records m K ∗ scr c (slotSet 0) (shr d) (putAt 0 (locmax m c)) ∗ scr (sh d c) (slotSet d) fullShare fn
        ∗ owes (c : Thread nD τ) (oweR c d) W ∗ dutyTok ER (sendCell c d) 0 0 ∗ dutyTok ER (recvCell (sh d c) d) 0 0)
      ⊢ iprop(((cred (tallyAt (sendCell c d) () N) ∗ owes (c : Thread nD τ) (oweR c (d + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 h0) (.remote (Dev.tc n : Thread nD τ) (slotM d hI) (.dma qs) hsc) (.dma qr) hsrc hdst hsem) k) Q) := by
  subst hn; subst hqs; subst hqr
  iintro ⟨#HR, Hsrc, Hdst, HO, HtS, HtR⟩
  unfold scr
  rw [← slotM_set 0 h0, ← slotM_set d hI]
  iapply (Rounds.wp_send_pointsTo 𝒱₀ ER (sched m) (c : Thread nD τ) none (c' := (sh d c : Thread nD τ)) (src := slotM 0 h0) (dst := slotM d hI)
      (sS := .dma (sq d)) (sem := .dma (rq d)) (q := shr d) (fs := putAt 0 (locmax m c)) (κ₁ := K (c, ksend d)) (κ₂ := K (sh d c, krecv d))
      (r₁ := 0) (r₂ := 0) (d₁ := 0) (d₂ := 0) (fd := fn)
      (by rw [duties_send m c d hd]; exact Finset.mem_singleton_self _) (by rw [duties_recv m (sh d c) d hd]; exact Finset.mem_singleton_self _)
      () () N rfl (amount_send m c d 0) (amount_recv m (sh d c) d 0) (oweR c (d + 1)) (oweR_peel c d hd.2) (W := W)
      (by rw [payload_send m c d hd]; unfold sendPay scr; rw [slotM_set 0 h0])
      (by rw [payload_recv m (sh d c) d hd]; unfold recvPay scr rowAt; rw [sh_sh_compl d (by omega) c, slotM_set d hI]
          exact Entails.of_eq (BI.Region.is_congr (land_putAt d (by omega) h0 hI fn (locmax m c)))))
    $$ [Hsrc Hdst HO HtS HtR]
  isplitr; · iapply (inv_send m K c d (by omega)); iexact HR
  isplitr; · iapply (inv_recv m K (sh d c) d (by omega)); iexact HR
  isplitl [Hsrc]; · iexact Hsrc
  isplitl [Hdst]; · iexact Hdst
  isplitl [HO]; · iexact HO
  isplitl [HtS]; · iexact HtS
  isplitr; · iapply (reached_send m K c d (by omega)); iexact HR
  isplitl [HtR]; · iexact HtR
  iapply (reached_recv m K (sh d c) d (by omega)); iexact HR

/-- The wait for the landing in slot `k`: owing nothing, the device gets slot `k` holding the row of the device `k` places before it. -/
theorem wp_rcv (c : Dev nD) (k : ℕ) (hk : 1 ≤ k ∧ k ≤ 15) (q : DmaSem sig) (hq : q = rq k)
    {src dst : Memref sig .tc .vmem S1x768 .f32} (hN : dst.view.dmaCredit = N) {hsrc : src.view.WordExact} {hdst : dst.view.WordExact}
    {α : Type} {Q : α → sProp 𝕄} {kk : PUnit → Prog (TpuEff nD τ sig (Elt F) Λ₀ .tc) α} (W : Waits sig Unit) :
    iprop(records m K ∗ cred (tallyAt (recvCell c k) () N) ∗ owes (c : Thread nD τ) 0 W ∗ atPos ER (recvCell c k) 0 ∅ 0)
      ⊢ iprop(((owes (c : Thread nD τ) 0 (insert (SemLoc.dma (rq k), ()) W) ∗ atPos ER (recvCell c k) 1 ∅ 0 ∗ recvPay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  iintro ⟨#HR, Hc, HO, Hat⟩ Hk
  iapply (Rounds.wp_wait_rest_token 𝒱₀ ER (sched m) (c : Thread nD τ) none (κ := K (c, krecv k))
      (wpE_waitDma2_eq 𝒱₀ (c : Thread nD τ) none Set.univ) (Set.mem_univ _) () (O := 0) (W := W) (R := 0) (m := 0) (T := ∅)
      (by rw [Nat.zero_add, expect_recv m c k hk])) $$ [Hc HO Hat]
  · isplitr; · iapply (inv_recv m K c k (by omega)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c k hk)) $$ Hpay
  iapply Hk
  isplitl [HO]; · iexact HO
  isplitl [Hat]; · iexact Hat
  iexact Hp

/-- The wait for copy `k` read out: the device gets its share of slot 0 back. -/
theorem wp_sndw (c : Dev nD) (k : ℕ) (hk : 1 ≤ k ∧ k ≤ 15) (q : DmaSem sig) (hq : q = sq k)
    {src dst : Memref sig .tc .vmem S1x768 .f32} (hN : dst.view.dmaCredit = N) {hsrc : src.view.WordExact} {hdst : dst.view.WordExact}
    {α : Type} {Q : α → sProp 𝕄} {kk : PUnit → Prog (TpuEff nD τ sig (Elt F) Λ₀ .tc) α} (W : Waits sig Unit) :
    iprop(records m K ∗ cred (tallyAt (sendCell c k) () N) ∗ owes (c : Thread nD τ) 0 W ∗ atPos ER (sendCell c k) 0 ∅ 0)
      ⊢ iprop(((owes (c : Thread nD τ) 0 (insert (SemLoc.dma (sq k), ()) W) ∗ atPos ER (sendCell c k) 1 ∅ 0 ∗ sendPay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  iintro ⟨#HR, Hc, HO, Hat⟩ Hk
  iapply (Rounds.wp_wait_rest_token 𝒱₀ ER (sched m) (c : Thread nD τ) none (κ := K (c, ksend k))
      (wpE_waitDma2_eq 𝒱₀ (c : Thread nD τ) none Set.univ) (Set.mem_univ _) () (O := 0) (W := W) (R := 0) (m := 0) (T := ∅)
      (by rw [Nat.zero_add, expect_send m c k hk])) $$ [Hc HO Hat]
  · isplitr; · iapply (inv_send m K c k (by omega)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c k hk)) $$ Hpay
  iapply Hk
  isplitl [HO]; · iexact HO
  isplitl [Hat]; · iexact Hat
  iexact Hp

/-! The same four steps with their resources as separate premises, to be handed over by name. -/

theorem stepSig (c n : Dev nD) (d : ℕ) (hd : 1 ≤ d ∧ d ≤ 15) (hn : n = sh d c) (k' : ℕ) (hk' : 1 = k')
    {α : Type} {Q : α → sProp 𝕄} {k : PUnit → Prog (TpuEff nD τ sig (Elt F) Λ₀ .tc) α}
    (W : Waits sig Unit) (f : Vec F S16x1x768 .f32) :
    records m K ⊢ iprop(owes (c : Thread nD τ) (oweB c d) W -∗ dutyTok ER (barCell (sh d c)) 0 d -∗ scr c (slotSet (16 - d)) fullShare f
      -∗ (owes (c : Thread nD τ) (oweB c (d + 1)) W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS k') k) Q) := by
  iintro #HR HO Ht Hs
  iapply (wp_sig m K c n d hd hn k' hk' W f)
  isplitr; · iexact HR
  isplitl [HO]; · iexact HO
  isplitl [Ht]; · iexact Ht
  iexact Hs

theorem stepSend (c n : Dev nD) (d : ℕ) (hd : 1 ≤ d ∧ d ≤ 15) (hn : n = sh d c) (qs qr : DmaSem sig) (hqs : qs = sq d) (hqr : qr = rq d)
    (h0 : ∀ a, (![0, 0, 0] : Fin 3 → ℕ) a + S1x1x768.size a ≤ S16x1x768.size a)
    (hI : ∀ a, (![d, 0, 0] : Fin 3 → ℕ) a + S1x1x768.size a ≤ S16x1x768.size a)
    {hsc : (slotM d hI : Memref sig (Dev.tc n : Thread nD τ).2.kind .vmem S1x768 .f32).view.ref.isScScratch = false}
    {hsrc : (slotM 0 h0 : Memref sig .tc .vmem S1x768 .f32).view.WordExact} {hdst : (slotM d hI : Memref sig .tc .vmem S1x768 .f32).view.WordExact}
    {hsem : DmaTarget.Typed .vmem (.dma qr) (.remote (Dev.tc n : Thread nD τ) (slotM d hI : Memref sig .tc .vmem S1x768 .f32) (.dma qs) hsc)}
    {α : Type} {Q : α → sProp 𝕄} {k : PUnit → Prog (TpuEff nD τ sig (Elt F) Λ₀ .tc) α}
    (fn : Vec F S16x1x768 .f32) (W : Waits sig Unit) :
    records m K ⊢ iprop(scr c (slotSet 0) (shr d) (putAt 0 (locmax m c)) -∗ scr (sh d c) (slotSet d) fullShare fn
      -∗ owes (c : Thread nD τ) (oweR c d) W -∗ dutyTok ER (sendCell c d) 0 0 -∗ dutyTok ER (recvCell (sh d c) d) 0 0
      -∗ ((cred (tallyAt (sendCell c d) () N) ∗ owes (c : Thread nD τ) (oweR c (d + 1)) W) -∗ wp frame (wpE (defs₀ (F := F)) 𝒱₀ (c : Thread nD τ) none) Set.univ (k ⟨⟩) Q)
      -∗ wp frame (wpE (defs₀ (F := F)) 𝒱₀ (c : Thread nD τ) none) Set.univ
            (.op (.enqueueDma (slotM 0 h0) (.remote (Dev.tc n : Thread nD τ) (slotM d hI) (.dma qs) hsc) (.dma qr) hsrc hdst hsem) k) Q) := by
  iintro #HR Hsrc Hdst HO HtS HtR
  iapply (wp_snd m K c n d hd hn qs qr hqs hqr h0 hI fn W)
  isplitr; · iexact HR
  isplitl [Hsrc]; · iexact Hsrc
  isplitl [Hdst]; · iexact Hdst
  isplitl [HO]; · iexact HO
  isplitl [HtS]; · iexact HtS
  iexact HtR

theorem stepRecv (c : Dev nD) (k : ℕ) (hk : 1 ≤ k ∧ k ≤ 15) (q : DmaSem sig) (hq : q = rq k)
    {src dst : Memref sig .tc .vmem S1x768 .f32} (hN : dst.view.dmaCredit = N) {hsrc : src.view.WordExact} {hdst : dst.view.WordExact}
    {α : Type} {Q : α → sProp 𝕄} {kk : PUnit → Prog (TpuEff nD τ sig (Elt F) Λ₀ .tc) α} (W : Waits sig Unit) :
    records m K ⊢ iprop(cred (tallyAt (recvCell c k) () N) -∗ owes (c : Thread nD τ) 0 W -∗ atPos ER (recvCell c k) 0 ∅ 0
      -∗ ((owes (c : Thread nD τ) 0 (insert (SemLoc.dma (rq k), ()) W) ∗ atPos ER (recvCell c k) 1 ∅ 0 ∗ recvPay m c k)
            -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 q src dst hsrc hdst) kk) Q) := by
  iintro #HR Hc HO Hat
  iapply (wp_rcv m K c k hk q hq hN W)
  isplitr; · iexact HR
  isplitl [Hc]; · iexact Hc
  isplitl [HO]; · iexact HO
  iexact Hat

theorem stepSendWait (c : Dev nD) (k : ℕ) (hk : 1 ≤ k ∧ k ≤ 15) (q : DmaSem sig) (hq : q = sq k)
    {src dst : Memref sig .tc .vmem S1x768 .f32} (hN : dst.view.dmaCredit = N) {hsrc : src.view.WordExact} {hdst : dst.view.WordExact}
    {α : Type} {Q : α → sProp 𝕄} {kk : PUnit → Prog (TpuEff nD τ sig (Elt F) Λ₀ .tc) α} (W : Waits sig Unit) :
    records m K ⊢ iprop(cred (tallyAt (sendCell c k) () N) -∗ owes (c : Thread nD τ) 0 W -∗ atPos ER (sendCell c k) 0 ∅ 0
      -∗ ((owes (c : Thread nD τ) 0 (insert (SemLoc.dma (sq k), ()) W) ∗ atPos ER (sendCell c k) 1 ∅ 0 ∗ sendPay m c k)
            -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 q src dst hsrc hdst) kk) Q) := by
  iintro #HR Hc HO Hat
  iapply (wp_sndw m K c k hk q hq hN W)
  isplitr; · iexact HR
  isplitl [Hc]; · iexact Hc
  isplitl [HO]; · iexact HO
  iexact Hat

end Steps

end Cert.KernelIdeal.Hand

end
-- ==== Proof.KernelIdeal.BodyPrep.lean ====
/-
Cutting and rejoining the scratch. The scratch is its sixteen rows (slots), pairwise disjoint; slot 0's
ownership is cut into the fifteen copies' shares and a remainder, and put back once every copy has
been read out; at the end the sixteen slots, each holding its row, are one buffer again. Closing a cell
whose round is over gives its counter back at zero.
-/
import proofs.«900909_g7700000000000910_dist_max_ax0_shard0_i_m1536_n768_v7x_i16_f32_1_alg».proof.Proof.KernelIdeal.Steps

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem univ_eq_slots : (Finset.univ : Finset S16x1x768.Idx) = (Finset.range 16).biUnion slotSet := by
  ext i
  simp only [Finset.mem_univ, Finset.mem_biUnion, Finset.mem_range, mem_slotSet, true_iff]
  exact ⟨(i 0).val, (i 0).isLt, rfl⟩

omit [FloatOps F] in
/-- The scratch is its sixteen slots. -/
theorem scr_slots (c : Dev nD) (q : PosShare TreeShare) (f : Vec F S16x1x768 .f32) :
    (scr c Finset.univ q f : sProp 𝕄) = bigSep (Finset.range 16) fun k => scr c (slotSet k) q f := by
  unfold scr
  rw [univ_eq_slots]
  exact pointsTo_biUnion (ℓ := (c : Thread nD τ).loc cc0_scratch0) (q := q) (f := f) (Finset.range 16) slotSet
    (fun t _ t' _ h => slotSet_disjoint h)

/-- The row slot `k` holds at the end: the device's own in slot 0, else that of the device `k` places before it. -/
def finalRow (c : Dev nD) (k : ℕ) : Vec F S1x1x768 .f32 := if k = 0 then locmax m c else rowAt m c k

/-- Sixteen slots, each holding its row, are the scratch at some contents. -/
theorem scr_join (c : Dev nD) :
    (bigSep (Finset.range 16) fun k => scr c (slotSet k) fullShare (putAt k (finalRow m c k)) : sProp 𝕄)
      ⊢ iprop(∃ f, scr c Finset.univ fullShare f) := by
  unfold scr
  iintro H
  ihave H' := (pointsTo_biUnion_join (ℓ := (c : Thread nD τ).loc cc0_scratch0) (q := fullShare) (Finset.range 16) slotSet
    (fun k => putAt k (finalRow m c k)) (putAt 0 (locmax m c)) (fun t _ t' _ h => slotSet_disjoint h)) $$ H
  icases H' with ⟨%g, -, Hg⟩
  iexists g
  rw [univ_eq_slots]
  iexact Hg

omit [FloatOps F] in
/-- The copies' shares `shr 1 … shr n` and what was left after them make slot 0's ownership whole again. -/
theorem scr_unshare (c : Dev nD) (S : Finset S16x1x768.Idx) (f : Vec F S16x1x768 .f32) :
    ∀ n : ℕ, iprop(scr c S (rest n) f ∗ bigSep (Finset.Icc 1 n) fun d => scr c S (shr d) f) ⊢ (scr c S fullShare f : sProp 𝕄)
  | 0 => by
    rw [show Finset.Icc 1 0 = (∅ : Finset ℕ) from Finset.Icc_eq_empty (by decide), bigSep_empty]
    iintro ⟨H, -⟩; iexact H
  | n + 1 => by
    rw [← Finset.insert_Icc_right_eq_Icc_add_one (by omega : 1 ≤ n + 1), bigSep_insert (by rw [Finset.mem_Icc]; omega)]
    refine (show iprop(scr c S (rest (n + 1)) f ∗ (scr c S (shr (n + 1)) f ∗ bigSep (Finset.Icc 1 n) fun d => scr c S (shr d) f))
      ⊢ (scr c S fullShare f : sProp 𝕄) from ?_)
    iintro ⟨Hr, Hs, Hrest⟩
    iapply (scr_unshare c S f n)
    isplitl [Hr Hs]
    · iapply (scr_share c S n f).2
      isplitl [Hs]; · iexact Hs
      iexact Hr
    · iexact Hrest

section Close
variable (K : Dev nD × Fin 33 → ℕ)

/-- A send cell after its one round, a receive cell after its one round, and the two cells no copy uses: each gives
    its counter back at zero. -/
theorem close_send (c : Dev nD) (k : ℕ) (hk : 1 ≤ k ∧ k ≤ 15) :
    records m K ⊢ iprop(atPos ER (sendCell c k) 1 ∅ 0 -∗ |={Set.univ}=> semVal (sendCell c k) 0) := by
  iintro #HR Hat
  iapply (Rounds.cell_close ER (sched m) (Set.mem_univ (K (c, ksend k))) (fun h => h) (R := 1) (duties_later m (sendCell c k)))
  isplitr; · iapply (inv_send m K c k (by omega)); iexact HR
  iexact Hat
theorem close_recv (c : Dev nD) (k : ℕ) (hk : 1 ≤ k ∧ k ≤ 15) :
    records m K ⊢ iprop(atPos ER (recvCell c k) 1 ∅ 0 -∗ |={Set.univ}=> semVal (recvCell c k) 0) := by
  iintro #HR Hat
  iapply (Rounds.cell_close ER (sched m) (Set.mem_univ (K (c, krecv k))) (fun h => h) (R := 1) (duties_later m (recvCell c k)))
  isplitr; · iapply (inv_recv m K c k (by omega)); iexact HR
  iexact Hat
theorem close_send0 (c : Dev nD) :
    records m K ⊢ iprop(atPos ER (sendCell c 0) 0 ∅ 0 -∗ |={Set.univ}=> semVal (sendCell c 0) 0) := by
  iintro #HR Hat
  iapply (Rounds.cell_close ER (sched m) (Set.mem_univ (K (c, ksend 0))) (fun h => h) (R := 0) (duties_unused m c (sq 0) (Or.inl (by decide))))
  isplitr; · iapply (inv_send m K c 0 (by omega)); iexact HR
  iexact Hat
theorem close_recv0 (c : Dev nD) :
    records m K ⊢ iprop(atPos ER (recvCell c 0) 0 ∅ 0 -∗ |={Set.univ}=> semVal (recvCell c 0) 0) := by
  iintro #HR Hat
  iapply (Rounds.cell_close ER (sched m) (Set.mem_univ (K (c, krecv 0))) (fun h => h) (R := 0) (duties_unused m c (rq 0) (Or.inr (by decide))))
  isplitr; · iapply (inv_recv m K c 0 (by omega)); iexact HR
  iexact Hat

end Close

end Cert.KernelIdeal.Hand

end
-- ==== Proof.KernelIdeal.ChainTable.lean ====
import proofs.«900909_g7700000000000910_dist_max_ax0_shard0_i_m1536_n768_v7x_i16_f32_1_alg».proof.Proof.KernelIdeal.BodyPrep

set_option maxRecDepth 8000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem atPos_chain (c : Dev nD) :
    (bigSep Finset.univ fun k : Fin 33 => atPos ER (kcell (c, k)) 0 ∅ 0 : sProp 𝕄)
      = iprop(atPos ER (barCell c) 0 ∅ 0 ∗ atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0 ∗ atPos ER (sendCell c 8) 0 ∅ 0 ∗ atPos ER (sendCell c 9) 0 ∅ 0 ∗ atPos ER (sendCell c 10) 0 ∅ 0 ∗ atPos ER (sendCell c 11) 0 ∅ 0 ∗ atPos ER (sendCell c 12) 0 ∅ 0 ∗ atPos ER (sendCell c 13) 0 ∅ 0 ∗ atPos ER (sendCell c 14) 0 ∅ 0 ∗ atPos ER (sendCell c 15) 0 ∅ 0 ∗ atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0 ∗ atPos ER (recvCell c 7) 0 ∅ 0 ∗ atPos ER (recvCell c 8) 0 ∅ 0 ∗ atPos ER (recvCell c 9) 0 ∅ 0 ∗ atPos ER (recvCell c 10) 0 ∅ 0 ∗ atPos ER (recvCell c 11) 0 ∅ 0 ∗ atPos ER (recvCell c 12) 0 ∅ 0 ∗ atPos ER (recvCell c 13) 0 ∅ 0 ∗ atPos ER (recvCell c 14) 0 ∅ 0 ∗ atPos ER (recvCell c 15) 0 ∅ 0) := by
  rw [bigSep_univ_eq_bigSepL [0, 1, 2, 3, 4, 5, 6, 7, 8, 9, 10, 11, 12, 13, 14, 15, 16, 17, 18, 19, 20, 21, 22, 23, 24, 25, 26, 27, 28, 29, 30, 31, 32] (by decide) (by decide)]
  rfl

theorem tokB_chain (c : Dev nD) :
    (bigSep (Finset.Icc 1 15) fun d => dutyTok ER (barCell (sh d c)) 0 d : sProp 𝕄)
      = iprop(dutyTok ER (barCell (sh 1 c)) 0 1 ∗ dutyTok ER (barCell (sh 2 c)) 0 2 ∗ dutyTok ER (barCell (sh 3 c)) 0 3 ∗ dutyTok ER (barCell (sh 4 c)) 0 4 ∗ dutyTok ER (barCell (sh 5 c)) 0 5 ∗ dutyTok ER (barCell (sh 6 c)) 0 6 ∗ dutyTok ER (barCell (sh 7 c)) 0 7 ∗ dutyTok ER (barCell (sh 8 c)) 0 8 ∗ dutyTok ER (barCell (sh 9 c)) 0 9 ∗ dutyTok ER (barCell (sh 10 c)) 0 10 ∗ dutyTok ER (barCell (sh 11 c)) 0 11 ∗ dutyTok ER (barCell (sh 12 c)) 0 12 ∗ dutyTok ER (barCell (sh 13 c)) 0 13 ∗ dutyTok ER (barCell (sh 14 c)) 0 14 ∗ dutyTok ER (barCell (sh 15 c)) 0 15) := by
  rw [bigSep_eq_bigSepL_of_eq [1, 2, 3, 4, 5, 6, 7, 8, 9, 10, 11, 12, 13, 14, 15] (by decide) (by decide)]
  rfl

theorem tokR_chain (c : Dev nD) :
    (bigSep (Finset.Icc 1 15) fun d => dutyTok ER (recvCell (sh d c) d) 0 0 : sProp 𝕄)
      = iprop(dutyTok ER (recvCell (sh 1 c) 1) 0 0 ∗ dutyTok ER (recvCell (sh 2 c) 2) 0 0 ∗ dutyTok ER (recvCell (sh 3 c) 3) 0 0 ∗ dutyTok ER (recvCell (sh 4 c) 4) 0 0 ∗ dutyTok ER (recvCell (sh 5 c) 5) 0 0 ∗ dutyTok ER (recvCell (sh 6 c) 6) 0 0 ∗ dutyTok ER (recvCell (sh 7 c) 7) 0 0 ∗ dutyTok ER (recvCell (sh 8 c) 8) 0 0 ∗ dutyTok ER (recvCell (sh 9 c) 9) 0 0 ∗ dutyTok ER (recvCell (sh 10 c) 10) 0 0 ∗ dutyTok ER (recvCell (sh 11 c) 11) 0 0 ∗ dutyTok ER (recvCell (sh 12 c) 12) 0 0 ∗ dutyTok ER (recvCell (sh 13 c) 13) 0 0 ∗ dutyTok ER (recvCell (sh 14 c) 14) 0 0 ∗ dutyTok ER (recvCell (sh 15 c) 15) 0 0) := by
  rw [bigSep_eq_bigSepL_of_eq [1, 2, 3, 4, 5, 6, 7, 8, 9, 10, 11, 12, 13, 14, 15] (by decide) (by decide)]
  rfl

theorem tokS_chain (c : Dev nD) :
    (bigSep (Finset.Icc 1 15) fun d => dutyTok ER (sendCell c d) 0 0 : sProp 𝕄)
      = iprop(dutyTok ER (sendCell c 1) 0 0 ∗ dutyTok ER (sendCell c 2) 0 0 ∗ dutyTok ER (sendCell c 3) 0 0 ∗ dutyTok ER (sendCell c 4) 0 0 ∗ dutyTok ER (sendCell c 5) 0 0 ∗ dutyTok ER (sendCell c 6) 0 0 ∗ dutyTok ER (sendCell c 7) 0 0 ∗ dutyTok ER (sendCell c 8) 0 0 ∗ dutyTok ER (sendCell c 9) 0 0 ∗ dutyTok ER (sendCell c 10) 0 0 ∗ dutyTok ER (sendCell c 11) 0 0 ∗ dutyTok ER (sendCell c 12) 0 0 ∗ dutyTok ER (sendCell c 13) 0 0 ∗ dutyTok ER (sendCell c 14) 0 0 ∗ dutyTok ER (sendCell c 15) 0 0) := by
  rw [bigSep_eq_bigSepL_of_eq [1, 2, 3, 4, 5, 6, 7, 8, 9, 10, 11, 12, 13, 14, 15] (by decide) (by decide)]
  rfl

theorem credR_chain (c : Dev nD) :
    (bigSep (Finset.Icc 1 15) fun k => cred (tallyAt (recvCell c k) () N) : sProp 𝕄)
      = iprop(cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N) ∗ cred (tallyAt (recvCell c 8) () N) ∗ cred (tallyAt (recvCell c 9) () N) ∗ cred (tallyAt (recvCell c 10) () N) ∗ cred (tallyAt (recvCell c 11) () N) ∗ cred (tallyAt (recvCell c 12) () N) ∗ cred (tallyAt (recvCell c 13) () N) ∗ cred (tallyAt (recvCell c 14) () N) ∗ cred (tallyAt (recvCell c 15) () N)) := by
  rw [bigSep_eq_bigSepL_of_eq [1, 2, 3, 4, 5, 6, 7, 8, 9, 10, 11, 12, 13, 14, 15] (by decide) (by decide)]
  rfl

theorem slots_chain (c : Dev nD) (q : PosShare TreeShare) (f : Vec F S16x1x768 .f32) :
    (bigSep (Finset.range 16) fun k => scr c (slotSet k) q f : sProp 𝕄)
      = iprop(scr c (slotSet 0) q f ∗ scr c (slotSet 1) q f ∗ scr c (slotSet 2) q f ∗ scr c (slotSet 3) q f ∗ scr c (slotSet 4) q f ∗ scr c (slotSet 5) q f ∗ scr c (slotSet 6) q f ∗ scr c (slotSet 7) q f ∗ scr c (slotSet 8) q f ∗ scr c (slotSet 9) q f ∗ scr c (slotSet 10) q f ∗ scr c (slotSet 11) q f ∗ scr c (slotSet 12) q f ∗ scr c (slotSet 13) q f ∗ scr c (slotSet 14) q f ∗ scr c (slotSet 15) q f) := by
  rw [bigSep_eq_bigSepL_of_eq [0, 1, 2, 3, 4, 5, 6, 7, 8, 9, 10, 11, 12, 13, 14, 15] (by decide) (by decide)]
  rfl

theorem shares_chain (c : Dev nD) (S : Finset S16x1x768.Idx) (f : Vec F S16x1x768 .f32) :
    (bigSep (Finset.Icc 1 15) fun d => scr c S (shr d) f : sProp 𝕄)
      = iprop(scr c S (shr 1) f ∗ scr c S (shr 2) f ∗ scr c S (shr 3) f ∗ scr c S (shr 4) f ∗ scr c S (shr 5) f ∗ scr c S (shr 6) f ∗ scr c S (shr 7) f ∗ scr c S (shr 8) f ∗ scr c S (shr 9) f ∗ scr c S (shr 10) f ∗ scr c S (shr 11) f ∗ scr c S (shr 12) f ∗ scr c S (shr 13) f ∗ scr c S (shr 14) f ∗ scr c S (shr 15) f) := by
  rw [bigSep_eq_bigSepL_of_eq [1, 2, 3, 4, 5, 6, 7, 8, 9, 10, 11, 12, 13, 14, 15] (by decide) (by decide)]
  rfl

theorem final_chain (c : Dev nD) :
    (bigSep (Finset.range 16) fun k => scr c (slotSet k) fullShare (putAt k (finalRow m c k)) : sProp 𝕄)
      = iprop(scr c (slotSet 0) fullShare (putAt 0 (locmax m c)) ∗ scr c (slotSet 1) fullShare (putAt 1 (rowAt m c 1)) ∗ scr c (slotSet 2) fullShare (putAt 2 (rowAt m c 2)) ∗ scr c (slotSet 3) fullShare (putAt 3 (rowAt m c 3)) ∗ scr c (slotSet 4) fullShare (putAt 4 (rowAt m c 4)) ∗ scr c (slotSet 5) fullShare (putAt 5 (rowAt m c 5)) ∗ scr c (slotSet 6) fullShare (putAt 6 (rowAt m c 6)) ∗ scr c (slotSet 7) fullShare (putAt 7 (rowAt m c 7)) ∗ scr c (slotSet 8) fullShare (putAt 8 (rowAt m c 8)) ∗ scr c (slotSet 9) fullShare (putAt 9 (rowAt m c 9)) ∗ scr c (slotSet 10) fullShare (putAt 10 (rowAt m c 10)) ∗ scr c (slotSet 11) fullShare (putAt 11 (rowAt m c 11)) ∗ scr c (slotSet 12) fullShare (putAt 12 (rowAt m c 12)) ∗ scr c (slotSet 13) fullShare (putAt 13 (rowAt m c 13)) ∗ scr c (slotSet 14) fullShare (putAt 14 (rowAt m c 14)) ∗ scr c (slotSet 15) fullShare (putAt 15 (rowAt m c 15))) := by
  rw [bigSep_eq_bigSepL_of_eq [0, 1, 2, 3, 4, 5, 6, 7, 8, 9, 10, 11, 12, 13, 14, 15] (by decide) (by decide)]
  rfl

theorem semVal_chain (c : Dev nD) :
    (bigSep Finset.univ fun j : Fin 32 => semVal ((c : Thread nD τ), osem j) 0 : sProp 𝕄)
      = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0 ∗ semVal (sendCell c 12) 0 ∗ semVal (sendCell c 13) 0 ∗ semVal (sendCell c 14) 0 ∗ semVal (sendCell c 15) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (recvCell c 8) 0 ∗ semVal (recvCell c 9) 0 ∗ semVal (recvCell c 10) 0 ∗ semVal (recvCell c 11) 0 ∗ semVal (recvCell c 12) 0 ∗ semVal (recvCell c 13) 0 ∗ semVal (recvCell c 14) 0 ∗ semVal (recvCell c 15) 0) := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  rfl

end Cert.KernelIdeal.Hand

end
-- ==== Proof.KernelIdeal.MeshTable.lean ====
import proofs.«900909_g7700000000000910_dist_max_ax0_shard0_i_m1536_n768_v7x_i16_f32_1_alg».proof.Proof.KernelIdeal.Mesh

namespace Cert.KernelIdeal.Hand

open Cert.KernelIdeal Idealize.ShloMosaic Idealize.SL.Sem

theorem dev1_eq (c : Dev nD) (h : k0_dev1 c < nD) : (⟨k0_dev1 c, h⟩ : Dev nD) = sh 1 c :=
  Fin.ext ((by decide +kernel : ∀ c : Dev nD, k0_dev1 c = (c.val + 1) % 16) c)
theorem dev2_eq (c : Dev nD) (h : k0_dev2 c < nD) : (⟨k0_dev2 c, h⟩ : Dev nD) = sh 2 c :=
  Fin.ext ((by decide +kernel : ∀ c : Dev nD, k0_dev2 c = (c.val + 2) % 16) c)
theorem dev3_eq (c : Dev nD) (h : k0_dev3 c < nD) : (⟨k0_dev3 c, h⟩ : Dev nD) = sh 3 c :=
  Fin.ext ((by decide +kernel : ∀ c : Dev nD, k0_dev3 c = (c.val + 3) % 16) c)
theorem dev4_eq (c : Dev nD) (h : k0_dev4 c < nD) : (⟨k0_dev4 c, h⟩ : Dev nD) = sh 4 c :=
  Fin.ext ((by decide +kernel : ∀ c : Dev nD, k0_dev4 c = (c.val + 4) % 16) c)
theorem dev5_eq (c : Dev nD) (h : k0_dev5 c < nD) : (⟨k0_dev5 c, h⟩ : Dev nD) = sh 5 c :=
  Fin.ext ((by decide +kernel : ∀ c : Dev nD, k0_dev5 c = (c.val + 5) % 16) c)
theorem dev6_eq (c : Dev nD) (h : k0_dev6 c < nD) : (⟨k0_dev6 c, h⟩ : Dev nD) = sh 6 c :=
  Fin.ext ((by decide +kernel : ∀ c : Dev nD, k0_dev6 c = (c.val + 6) % 16) c)
theorem dev7_eq (c : Dev nD) (h : k0_dev7 c < nD) : (⟨k0_dev7 c, h⟩ : Dev nD) = sh 7 c :=
  Fin.ext ((by decide +kernel : ∀ c : Dev nD, k0_dev7 c = (c.val + 7) % 16) c)
theorem dev8_eq (c : Dev nD) (h : k0_dev8 c < nD) : (⟨k0_dev8 c, h⟩ : Dev nD) = sh 8 c :=
  Fin.ext ((by decide +kernel : ∀ c : Dev nD, k0_dev8 c = (c.val + 8) % 16) c)
theorem dev9_eq (c : Dev nD) (h : k0_dev9 c < nD) : (⟨k0_dev9 c, h⟩ : Dev nD) = sh 9 c :=
  Fin.ext ((by decide +kernel : ∀ c : Dev nD, k0_dev9 c = (c.val + 9) % 16) c)
theorem dev10_eq (c : Dev nD) (h : k0_dev10 c < nD) : (⟨k0_dev10 c, h⟩ : Dev nD) = sh 10 c :=
  Fin.ext ((by decide +kernel : ∀ c : Dev nD, k0_dev10 c = (c.val + 10) % 16) c)
theorem dev11_eq (c : Dev nD) (h : k0_dev11 c < nD) : (⟨k0_dev11 c, h⟩ : Dev nD) = sh 11 c :=
  Fin.ext ((by decide +kernel : ∀ c : Dev nD, k0_dev11 c = (c.val + 11) % 16) c)
theorem dev12_eq (c : Dev nD) (h : k0_dev12 c < nD) : (⟨k0_dev12 c, h⟩ : Dev nD) = sh 12 c :=
  Fin.ext ((by decide +kernel : ∀ c : Dev nD, k0_dev12 c = (c.val + 12) % 16) c)
theorem dev13_eq (c : Dev nD) (h : k0_dev13 c < nD) : (⟨k0_dev13 c, h⟩ : Dev nD) = sh 13 c :=
  Fin.ext ((by decide +kernel : ∀ c : Dev nD, k0_dev13 c = (c.val + 13) % 16) c)
theorem dev14_eq (c : Dev nD) (h : k0_dev14 c < nD) : (⟨k0_dev14 c, h⟩ : Dev nD) = sh 14 c :=
  Fin.ext ((by decide +kernel : ∀ c : Dev nD, k0_dev14 c = (c.val + 14) % 16) c)
theorem dev15_eq (c : Dev nD) (h : k0_dev15 c < nD) : (⟨k0_dev15 c, h⟩ : Dev nD) = sh 15 c :=
  Fin.ext ((by decide +kernel : ∀ c : Dev nD, k0_dev15 c = (c.val + 15) % 16) c)
theorem dev16_eq (c : Dev nD) (h : k0_dev16 c < nD) : (⟨k0_dev16 c, h⟩ : Dev nD) = sh 1 c :=
  Fin.ext ((by decide +kernel : ∀ c : Dev nD, k0_dev16 c = (c.val + 1) % 16) c)
theorem dev17_eq (c : Dev nD) (h : k0_dev17 c < nD) : (⟨k0_dev17 c, h⟩ : Dev nD) = sh 2 c :=
  Fin.ext ((by decide +kernel : ∀ c : Dev nD, k0_dev17 c = (c.val + 2) % 16) c)
theorem dev18_eq (c : Dev nD) (h : k0_dev18 c < nD) : (⟨k0_dev18 c, h⟩ : Dev nD) = sh 3 c :=
  Fin.ext ((by decide +kernel : ∀ c : Dev nD, k0_dev18 c = (c.val + 3) % 16) c)
theorem dev19_eq (c : Dev nD) (h : k0_dev19 c < nD) : (⟨k0_dev19 c, h⟩ : Dev nD) = sh 4 c :=
  Fin.ext ((by decide +kernel : ∀ c : Dev nD, k0_dev19 c = (c.val + 4) % 16) c)
theorem dev20_eq (c : Dev nD) (h : k0_dev20 c < nD) : (⟨k0_dev20 c, h⟩ : Dev nD) = sh 5 c :=
  Fin.ext ((by decide +kernel : ∀ c : Dev nD, k0_dev20 c = (c.val + 5) % 16) c)
theorem dev21_eq (c : Dev nD) (h : k0_dev21 c < nD) : (⟨k0_dev21 c, h⟩ : Dev nD) = sh 6 c :=
  Fin.ext ((by decide +kernel : ∀ c : Dev nD, k0_dev21 c = (c.val + 6) % 16) c)
theorem dev22_eq (c : Dev nD) (h : k0_dev22 c < nD) : (⟨k0_dev22 c, h⟩ : Dev nD) = sh 7 c :=
  Fin.ext ((by decide +kernel : ∀ c : Dev nD, k0_dev22 c = (c.val + 7) % 16) c)
theorem dev23_eq (c : Dev nD) (h : k0_dev23 c < nD) : (⟨k0_dev23 c, h⟩ : Dev nD) = sh 8 c :=
  Fin.ext ((by decide +kernel : ∀ c : Dev nD, k0_dev23 c = (c.val + 8) % 16) c)
theorem dev24_eq (c : Dev nD) (h : k0_dev24 c < nD) : (⟨k0_dev24 c, h⟩ : Dev nD) = sh 9 c :=
  Fin.ext ((by decide +kernel : ∀ c : Dev nD, k0_dev24 c = (c.val + 9) % 16) c)
theorem dev25_eq (c : Dev nD) (h : k0_dev25 c < nD) : (⟨k0_dev25 c, h⟩ : Dev nD) = sh 10 c :=
  Fin.ext ((by decide +kernel : ∀ c : Dev nD, k0_dev25 c = (c.val + 10) % 16) c)
theorem dev26_eq (c : Dev nD) (h : k0_dev26 c < nD) : (⟨k0_dev26 c, h⟩ : Dev nD) = sh 11 c :=
  Fin.ext ((by decide +kernel : ∀ c : Dev nD, k0_dev26 c = (c.val + 11) % 16) c)
theorem dev27_eq (c : Dev nD) (h : k0_dev27 c < nD) : (⟨k0_dev27 c, h⟩ : Dev nD) = sh 12 c :=
  Fin.ext ((by decide +kernel : ∀ c : Dev nD, k0_dev27 c = (c.val + 12) % 16) c)
theorem dev28_eq (c : Dev nD) (h : k0_dev28 c < nD) : (⟨k0_dev28 c, h⟩ : Dev nD) = sh 13 c :=
  Fin.ext ((by decide +kernel : ∀ c : Dev nD, k0_dev28 c = (c.val + 13) % 16) c)
theorem dev29_eq (c : Dev nD) (h : k0_dev29 c < nD) : (⟨k0_dev29 c, h⟩ : Dev nD) = sh 14 c :=
  Fin.ext ((by decide +kernel : ∀ c : Dev nD, k0_dev29 c = (c.val + 14) % 16) c)
theorem dev30_eq (c : Dev nD) (h : k0_dev30 c < nD) : (⟨k0_dev30 c, h⟩ : Dev nD) = sh 15 c :=
  Fin.ext ((by decide +kernel : ∀ c : Dev nD, k0_dev30 c = (c.val + 15) % 16) c)

end Cert.KernelIdeal.Hand
-- ==== Proof.KernelIdeal.Body.lean ====
/-
One device's body, stepped from the ghost state to the scratch whole again and the result stored.

In program order: the fifteen barrier signals (signal `d` hands slot `16 - d` of the scratch to the device `d`
places ahead); the column maxima of the block stored in slot 0; the wait for the fifteen units of the device's own
barrier, which brings slot `d` of the device `d` places ahead, for every `d`; the fifteen copies of slot 0, each
with its own share of it; the fold of the sixteen rows, each landing waited for before its slot is read; the
result stored; the fifteen send waits, which bring the shares of slot 0 back. Then every cell's round is over:
the cells close, the shares and the slots are put back together.
-/
import proofs.«900909_g7700000000000910_dist_max_ax0_shard0_i_m1536_n768_v7x_i16_f32_1_alg».proof.Proof.KernelIdeal.ChainTable
import proofs.«900909_g7700000000000910_dist_max_ax0_shard0_i_m1536_n768_v7x_i16_f32_1_alg».proof.Proof.KernelIdeal.MeshTable

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × Fin 33 → ℕ)

abbrev rx : Rect S1536x768 := Rect.unit (s := S1536x768) ![0, 0] S1536x768.size inb_S1536x768_S1536x768_0_0
abbrev ro : Rect S1x768 := Rect.unit (s := S1x768) ![0, 0] S1x768.size inb_S1x768_S1x768_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1536x768 .f32).view.readAt (Elt F) rx.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1x768 .f32).access ro : View sig .tc _ _ _).write (Elt F) f w Finset.univ = w :=
  Memref.write_access_unit_zero_univ (Elt F) cc0_stg1_0 hz _ f w
omit [FloatOps F] in
/-- A load through slot `k`'s rectangle reads the slot's row back. -/
theorem read_slot (k : ℕ) (hk : k < 16) (h) (v : Vec F S1x1x768 .f32) :
    ((rM : Memref sig .tc .vmem S16x1x768 .f32).access (slotR k h)).read (Elt F) (putAt k v) = v := by
  rw [putAt_eq k hk h]; exact View.read_write_univ _ _

omit [FloatOps F] in
/-- The elements a load of slot `k` touches, and those a store through it touches, are the slot's. -/
theorem setOn_slot (k : ℕ) (h) : (rM : Memref sig .tc .vmem S16x1x768 .f32).view.setOn (slotR k h).toLoadRect.set = slotSet k := by
  have h1 := View.set_slice (v := (rM : Memref sig .tc .vmem S16x1x768 .f32).view) (slotR k h)
  have h2 := access_set k h
  unfold View.setOn
  exact h1.symm.trans h2
omit [FloatOps F] in
theorem store_sub (k : ℕ) (h) : ((rM : Memref sig .tc .vmem S16x1x768 .f32).access (slotR k h)).setOn Finset.univ ⊆ slotSet k := by
  rw [View.setOn_univ]; exact (access_set k h).subset

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 15) ∗ (bigSep (Finset.Icc 1 15) fun k => cred (tallyAt (recvCell c k) () N))
      ∗ levAts L lv ∗ ∃ f, scr c Finset.univ fullShare f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xblk m c) ∗ stg c cc0_stg1_0 (outAt m c))

set_option maxHeartbeats 16000000 in
set_option maxRecDepth 65536 in
/-- The body, stepped in program order from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  unfold bodyPre ghost linear payToks
  iintro ⟨⟨⟨⟨#HR, Hat, HtB, HtR, HtS⟩, HcB, HcR, #Hlev, ⟨%f0, Hscr⟩⟩, Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = oweB c 1 from rfl]
  -- the bundles opened: positions, tokens, credits, and the scratch as its sixteen slots
  ihave Hat := (Entails.of_eq (atPos_chain c)) $$ Hat
  icases Hat with ⟨HaB, Has0, Has1, Has2, Has3, Has4, Has5, Has6, Has7, Has8, Has9, Has10, Has11, Has12, Has13, Has14, Has15,
    Har0, Har1, Har2, Har3, Har4, Har5, Har6, Har7, Har8, Har9, Har10, Har11, Har12, Har13, Har14, Har15⟩
  ihave HtB := (Entails.of_eq (tokB_chain c)) $$ HtB
  icases HtB with ⟨Hb1, Hb2, Hb3, Hb4, Hb5, Hb6, Hb7, Hb8, Hb9, Hb10, Hb11, Hb12, Hb13, Hb14, Hb15⟩
  ihave HtR := (Entails.of_eq (tokR_chain c)) $$ HtR
  icases HtR with ⟨Hr1, Hr2, Hr3, Hr4, Hr5, Hr6, Hr7, Hr8, Hr9, Hr10, Hr11, Hr12, Hr13, Hr14, Hr15⟩
  ihave HtS := (Entails.of_eq (tokS_chain c)) $$ HtS
  icases HtS with ⟨Hs1, Hs2, Hs3, Hs4, Hs5, Hs6, Hs7, Hs8, Hs9, Hs10, Hs11, Hs12, Hs13, Hs14, Hs15⟩
  ihave HcR := (Entails.of_eq (credR_chain c)) $$ HcR
  icases HcR with ⟨Hc1, Hc2, Hc3, Hc4, Hc5, Hc6, Hc7, Hc8, Hc9, Hc10, Hc11, Hc12, Hc13, Hc14, Hc15⟩
  ihave Hscr := (Entails.of_eq ((scr_slots c fullShare f0).trans (slots_chain c fullShare f0))) $$ Hscr
  icases Hscr with ⟨Hl0, Hl1, Hl2, Hl3, Hl4, Hl5, Hl6, Hl7, Hl8, Hl9, Hl10, Hl11, Hl12, Hl13, Hl14, Hl15⟩
  -- the fifteen signals: signal d hands over slot 16 - d
  iapply (stepSig m K c _ 1 ⟨by decide, by decide⟩ (dev1_eq c _) _ (by decide) W f0) $$ HR HO Hb1 Hl15; iintro HO
  iapply (stepSig m K c _ 2 ⟨by decide, by decide⟩ (dev2_eq c _) _ (by decide) W f0) $$ HR HO Hb2 Hl14; iintro HO
  iapply (stepSig m K c _ 3 ⟨by decide, by decide⟩ (dev3_eq c _) _ (by decide) W f0) $$ HR HO Hb3 Hl13; iintro HO
  iapply (stepSig m K c _ 4 ⟨by decide, by decide⟩ (dev4_eq c _) _ (by decide) W f0) $$ HR HO Hb4 Hl12; iintro HO
  iapply (stepSig m K c _ 5 ⟨by decide, by decide⟩ (dev5_eq c _) _ (by decide) W f0) $$ HR HO Hb5 Hl11; iintro HO
  iapply (stepSig m K c _ 6 ⟨by decide, by decide⟩ (dev6_eq c _) _ (by decide) W f0) $$ HR HO Hb6 Hl10; iintro HO
  iapply (stepSig m K c _ 7 ⟨by decide, by decide⟩ (dev7_eq c _) _ (by decide) W f0) $$ HR HO Hb7 Hl9; iintro HO
  iapply (stepSig m K c _ 8 ⟨by decide, by decide⟩ (dev8_eq c _) _ (by decide) W f0) $$ HR HO Hb8 Hl8; iintro HO
  iapply (stepSig m K c _ 9 ⟨by decide, by decide⟩ (dev9_eq c _) _ (by decide) W f0) $$ HR HO Hb9 Hl7; iintro HO
  iapply (stepSig m K c _ 10 ⟨by decide, by decide⟩ (dev10_eq c _) _ (by decide) W f0) $$ HR HO Hb10 Hl6; iintro HO
  iapply (stepSig m K c _ 11 ⟨by decide, by decide⟩ (dev11_eq c _) _ (by decide) W f0) $$ HR HO Hb11 Hl5; iintro HO
  iapply (stepSig m K c _ 12 ⟨by decide, by decide⟩ (dev12_eq c _) _ (by decide) W f0) $$ HR HO Hb12 Hl4; iintro HO
  iapply (stepSig m K c _ 13 ⟨by decide, by decide⟩ (dev13_eq c _) _ (by decide) W f0) $$ HR HO Hb13 Hl3; iintro HO
  iapply (stepSig m K c _ 14 ⟨by decide, by decide⟩ (dev14_eq c _) _ (by decide) W f0) $$ HR HO Hb14 Hl2; iintro HO
  iapply (stepSig m K c _ 15 ⟨by decide, by decide⟩ (dev15_eq c _) _ (by decide) W f0) $$ HR HO Hb15 Hl1; iintro HO
  ihave HO := (Entails.of_eq (congrArg (fun O => (owes (c : Thread nD τ) O W : sProp 𝕄)) (oweB_done c))) $$ HO
  -- the block's column maxima stored in slot 0
  iapply (wp_load 𝒱₀ (c : Thread nD τ) none Set.univ (m := xM) (Finset.subset_univ _)) $$ Hx; iintro Hx
  rw [read_x]
  iapply (wp_load 𝒱₀ (c : Thread nD τ) none Set.univ (m := rM) (S := slotSet 0) (setOn_slot 0 _).subset) $$ Hl0; iintro Hl0
  iapply (wp_store 𝒱₀ (c : Thread nD τ) none Set.univ (m := rM) (r := slotR 0 (slot_inb 0 (of_decide_eq_true rfl))) (Mk := Finset.univ) (S := slotSet 0)
      (store_sub 0 _)) $$ Hl0; iintro Hl0
  ihave Hl0 := (Entails.of_eq ((scr_congr c (slotSet 0) fullShare (write_putAt 0 (by decide) _ f0 (k0_pay1 (xblk m c)))).trans
    (show (scr c (slotSet 0) fullShare (putAt 0 (k0_pay1 (xblk m c))) : sProp 𝕄) = scr c (slotSet 0) (rest 0) (putAt 0 (locmax m c)) from rfl))) $$ Hl0
  -- the wait for the fifteen units of its own barrier, owing the fifteen landings: slot d of the device d places ahead comes with it
  iapply (Rounds.wp_wait_rest_token 𝒱₀ ER (sched m) (c : Thread nD τ) none (κ := K (c, 0))
      (wpE_semWait_eq 𝒱₀ (c : Thread nD τ) none Set.univ) (Set.mem_univ _) () (O := oweR c 1) (W := W) (R := 0) (m := 0) (T := ∅)
      (by rw [expect_bar]; decide)) $$ [HcB HO HaB]
  · isplitr; · iapply (inv_at m K (c, 0)); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  icases Hp with ⟨Hp1, Hp2, Hp3, Hp4, Hp5, Hp6, Hp7, Hp8, Hp9, Hp10, Hp11, Hp12, Hp13, Hp14, Hp15⟩
  unfold barPay
  icases Hp15 with ⟨⟨%fn1, Hd1⟩, -⟩
  icases Hp14 with ⟨⟨%fn2, Hd2⟩, -⟩
  icases Hp13 with ⟨⟨%fn3, Hd3⟩, -⟩
  icases Hp12 with ⟨⟨%fn4, Hd4⟩, -⟩
  icases Hp11 with ⟨⟨%fn5, Hd5⟩, -⟩
  icases Hp10 with ⟨⟨%fn6, Hd6⟩, -⟩
  icases Hp9 with ⟨⟨%fn7, Hd7⟩, -⟩
  icases Hp8 with ⟨⟨%fn8, Hd8⟩, -⟩
  icases Hp7 with ⟨⟨%fn9, Hd9⟩, -⟩
  icases Hp6 with ⟨⟨%fn10, Hd10⟩, -⟩
  icases Hp5 with ⟨⟨%fn11, Hd11⟩, -⟩
  icases Hp4 with ⟨⟨%fn12, Hd12⟩, -⟩
  icases Hp3 with ⟨⟨%fn13, Hd13⟩, -⟩
  icases Hp2 with ⟨⟨%fn14, Hd14⟩, -⟩
  icases Hp1 with ⟨⟨%fn15, Hd15⟩, -⟩
  -- the fifteen copies of slot 0, each with its share of it
  ihave Hsp := (scr_share c (slotSet 0) 0 (putAt 0 (locmax m c))).1 $$ Hl0; icases Hsp with ⟨Hq1, Hl0⟩
  iapply (stepSend m K c _ 1 ⟨by decide, by decide⟩ (dev16_eq c _) _ _ (by decide) (by decide) _ _ fn1 _) $$ HR Hq1 Hd1 HO Hs1 Hr1; iintro ⟨Hcs1, HO⟩
  ihave Hsp := (scr_share c (slotSet 0) 1 (putAt 0 (locmax m c))).1 $$ Hl0; icases Hsp with ⟨Hq2, Hl0⟩
  iapply (stepSend m K c _ 2 ⟨by decide, by decide⟩ (dev17_eq c _) _ _ (by decide) (by decide) _ _ fn2 _) $$ HR Hq2 Hd2 HO Hs2 Hr2; iintro ⟨Hcs2, HO⟩
  ihave Hsp := (scr_share c (slotSet 0) 2 (putAt 0 (locmax m c))).1 $$ Hl0; icases Hsp with ⟨Hq3, Hl0⟩
  iapply (stepSend m K c _ 3 ⟨by decide, by decide⟩ (dev18_eq c _) _ _ (by decide) (by decide) _ _ fn3 _) $$ HR Hq3 Hd3 HO Hs3 Hr3; iintro ⟨Hcs3, HO⟩
  ihave Hsp := (scr_share c (slotSet 0) 3 (putAt 0 (locmax m c))).1 $$ Hl0; icases Hsp with ⟨Hq4, Hl0⟩
  iapply (stepSend m K c _ 4 ⟨by decide, by decide⟩ (dev19_eq c _) _ _ (by decide) (by decide) _ _ fn4 _) $$ HR Hq4 Hd4 HO Hs4 Hr4; iintro ⟨Hcs4, HO⟩
  ihave Hsp := (scr_share c (slotSet 0) 4 (putAt 0 (locmax m c))).1 $$ Hl0; icases Hsp with ⟨Hq5, Hl0⟩
  iapply (stepSend m K c _ 5 ⟨by decide, by decide⟩ (dev20_eq c _) _ _ (by decide) (by decide) _ _ fn5 _) $$ HR Hq5 Hd5 HO Hs5 Hr5; iintro ⟨Hcs5, HO⟩
  ihave Hsp := (scr_share c (slotSet 0) 5 (putAt 0 (locmax m c))).1 $$ Hl0; icases Hsp with ⟨Hq6, Hl0⟩
  iapply (stepSend m K c _ 6 ⟨by decide, by decide⟩ (dev21_eq c _) _ _ (by decide) (by decide) _ _ fn6 _) $$ HR Hq6 Hd6 HO Hs6 Hr6; iintro ⟨Hcs6, HO⟩
  ihave Hsp := (scr_share c (slotSet 0) 6 (putAt 0 (locmax m c))).1 $$ Hl0; icases Hsp with ⟨Hq7, Hl0⟩
  iapply (stepSend m K c _ 7 ⟨by decide, by decide⟩ (dev22_eq c _) _ _ (by decide) (by decide) _ _ fn7 _) $$ HR Hq7 Hd7 HO Hs7 Hr7; iintro ⟨Hcs7, HO⟩
  ihave Hsp := (scr_share c (slotSet 0) 7 (putAt 0 (locmax m c))).1 $$ Hl0; icases Hsp with ⟨Hq8, Hl0⟩
  iapply (stepSend m K c _ 8 ⟨by decide, by decide⟩ (dev23_eq c _) _ _ (by decide) (by decide) _ _ fn8 _) $$ HR Hq8 Hd8 HO Hs8 Hr8; iintro ⟨Hcs8, HO⟩
  ihave Hsp := (scr_share c (slotSet 0) 8 (putAt 0 (locmax m c))).1 $$ Hl0; icases Hsp with ⟨Hq9, Hl0⟩
  iapply (stepSend m K c _ 9 ⟨by decide, by decide⟩ (dev24_eq c _) _ _ (by decide) (by decide) _ _ fn9 _) $$ HR Hq9 Hd9 HO Hs9 Hr9; iintro ⟨Hcs9, HO⟩
  ihave Hsp := (scr_share c (slotSet 0) 9 (putAt 0 (locmax m c))).1 $$ Hl0; icases Hsp with ⟨Hq10, Hl0⟩
  iapply (stepSend m K c _ 10 ⟨by decide, by decide⟩ (dev25_eq c _) _ _ (by decide) (by decide) _ _ fn10 _) $$ HR Hq10 Hd10 HO Hs10 Hr10; iintro ⟨Hcs10, HO⟩
  ihave Hsp := (scr_share c (slotSet 0) 10 (putAt 0 (locmax m c))).1 $$ Hl0; icases Hsp with ⟨Hq11, Hl0⟩
  iapply (stepSend m K c _ 11 ⟨by decide, by decide⟩ (dev26_eq c _) _ _ (by decide) (by decide) _ _ fn11 _) $$ HR Hq11 Hd11 HO Hs11 Hr11; iintro ⟨Hcs11, HO⟩
  ihave Hsp := (scr_share c (slotSet 0) 11 (putAt 0 (locmax m c))).1 $$ Hl0; icases Hsp with ⟨Hq12, Hl0⟩
  iapply (stepSend m K c _ 12 ⟨by decide, by decide⟩ (dev27_eq c _) _ _ (by decide) (by decide) _ _ fn12 _) $$ HR Hq12 Hd12 HO Hs12 Hr12; iintro ⟨Hcs12, HO⟩
  ihave Hsp := (scr_share c (slotSet 0) 12 (putAt 0 (locmax m c))).1 $$ Hl0; icases Hsp with ⟨Hq13, Hl0⟩
  iapply (stepSend m K c _ 13 ⟨by decide, by decide⟩ (dev28_eq c _) _ _ (by decide) (by decide) _ _ fn13 _) $$ HR Hq13 Hd13 HO Hs13 Hr13; iintro ⟨Hcs13, HO⟩
  ihave Hsp := (scr_share c (slotSet 0) 13 (putAt 0 (locmax m c))).1 $$ Hl0; icases Hsp with ⟨Hq14, Hl0⟩
  iapply (stepSend m K c _ 14 ⟨by decide, by decide⟩ (dev29_eq c _) _ _ (by decide) (by decide) _ _ fn14 _) $$ HR Hq14 Hd14 HO Hs14 Hr14; iintro ⟨Hcs14, HO⟩
  ihave Hsp := (scr_share c (slotSet 0) 14 (putAt 0 (locmax m c))).1 $$ Hl0; icases Hsp with ⟨Hq15, Hl0⟩
  iapply (stepSend m K c _ 15 ⟨by decide, by decide⟩ (dev30_eq c _) _ _ (by decide) (by decide) _ _ fn15 _) $$ HR Hq15 Hd15 HO Hs15 Hr15; iintro ⟨Hcs15, HO⟩
  ihave HO := (Entails.of_eq (congrArg (fun O => (owes (c : Thread nD τ) O (insert (SemLoc.reg barS, ()) W) : sProp 𝕄)) (oweR_done c))) $$ HO
  -- the fold: slot 0 first, then each landing waited for before its slot is read
  iapply (wp_load 𝒱₀ (c : Thread nD τ) none Set.univ (m := rM) (S := slotSet 0) (setOn_slot 0 _).subset) $$ Hl0; iintro Hl0
  rw [read_putAt 0 (by decide) _ (locmax m c)]
  iapply (stepRecv m K c 1 ⟨by decide, by decide⟩ _ (by decide) (by rfl) _) $$ HR Hc1 HO Har1; iintro ⟨HO, Har1, Hv1⟩; unfold recvPay
  iapply (wp_load 𝒱₀ (c : Thread nD τ) none Set.univ (m := rM) (S := slotSet 1) (setOn_slot 1 _).subset) $$ Hv1; iintro Hv1
  rw [read_putAt 1 (by decide) _ (rowAt m c 1)]
  iapply (stepRecv m K c 15 ⟨by decide, by decide⟩ _ (by decide) (by rfl) _) $$ HR Hc15 HO Har15; iintro ⟨HO, Har15, Hv15⟩; unfold recvPay
  iapply (wp_load 𝒱₀ (c : Thread nD τ) none Set.univ (m := rM) (S := slotSet 15) (setOn_slot 15 _).subset) $$ Hv15; iintro Hv15
  rw [read_putAt 15 (by decide) _ (rowAt m c 15)]
  iapply (stepRecv m K c 2 ⟨by decide, by decide⟩ _ (by decide) (by rfl) _) $$ HR Hc2 HO Har2; iintro ⟨HO, Har2, Hv2⟩; unfold recvPay
  iapply (wp_load 𝒱₀ (c : Thread nD τ) none Set.univ (m := rM) (S := slotSet 2) (setOn_slot 2 _).subset) $$ Hv2; iintro Hv2
  rw [read_putAt 2 (by decide) _ (rowAt m c 2)]
  iapply (stepRecv m K c 14 ⟨by decide, by decide⟩ _ (by decide) (by rfl) _) $$ HR Hc14 HO Har14; iintro ⟨HO, Har14, Hv14⟩; unfold recvPay
  iapply (wp_load 𝒱₀ (c : Thread nD τ) none Set.univ (m := rM) (S := slotSet 14) (setOn_slot 14 _).subset) $$ Hv14; iintro Hv14
  rw [read_putAt 14 (by decide) _ (rowAt m c 14)]
  iapply (stepRecv m K c 3 ⟨by decide, by decide⟩ _ (by decide) (by rfl) _) $$ HR Hc3 HO Har3; iintro ⟨HO, Har3, Hv3⟩; unfold recvPay
  iapply (wp_load 𝒱₀ (c : Thread nD τ) none Set.univ (m := rM) (S := slotSet 3) (setOn_slot 3 _).subset) $$ Hv3; iintro Hv3
  rw [read_putAt 3 (by decide) _ (rowAt m c 3)]
  iapply (stepRecv m K c 13 ⟨by decide, by decide⟩ _ (by decide) (by rfl) _) $$ HR Hc13 HO Har13; iintro ⟨HO, Har13, Hv13⟩; unfold recvPay
  iapply (wp_load 𝒱₀ (c : Thread nD τ) none Set.univ (m := rM) (S := slotSet 13) (setOn_slot 13 _).subset) $$ Hv13; iintro Hv13
  rw [read_putAt 13 (by decide) _ (rowAt m c 13)]
  iapply (stepRecv m K c 4 ⟨by decide, by decide⟩ _ (by decide) (by rfl) _) $$ HR Hc4 HO Har4; iintro ⟨HO, Har4, Hv4⟩; unfold recvPay
  iapply (wp_load 𝒱₀ (c : Thread nD τ) none Set.univ (m := rM) (S := slotSet 4) (setOn_slot 4 _).subset) $$ Hv4; iintro Hv4
  rw [read_putAt 4 (by decide) _ (rowAt m c 4)]
  iapply (stepRecv m K c 12 ⟨by decide, by decide⟩ _ (by decide) (by rfl) _) $$ HR Hc12 HO Har12; iintro ⟨HO, Har12, Hv12⟩; unfold recvPay
  iapply (wp_load 𝒱₀ (c : Thread nD τ) none Set.univ (m := rM) (S := slotSet 12) (setOn_slot 12 _).subset) $$ Hv12; iintro Hv12
  rw [read_putAt 12 (by decide) _ (rowAt m c 12)]
  iapply (stepRecv m K c 5 ⟨by decide, by decide⟩ _ (by decide) (by rfl) _) $$ HR Hc5 HO Har5; iintro ⟨HO, Har5, Hv5⟩; unfold recvPay
  iapply (wp_load 𝒱₀ (c : Thread nD τ) none Set.univ (m := rM) (S := slotSet 5) (setOn_slot 5 _).subset) $$ Hv5; iintro Hv5
  rw [read_putAt 5 (by decide) _ (rowAt m c 5)]
  iapply (stepRecv m K c 11 ⟨by decide, by decide⟩ _ (by decide) (by rfl) _) $$ HR Hc11 HO Har11; iintro ⟨HO, Har11, Hv11⟩; unfold recvPay
  iapply (wp_load 𝒱₀ (c : Thread nD τ) none Set.univ (m := rM) (S := slotSet 11) (setOn_slot 11 _).subset) $$ Hv11; iintro Hv11
  rw [read_putAt 11 (by decide) _ (rowAt m c 11)]
  iapply (stepRecv m K c 6 ⟨by decide, by decide⟩ _ (by decide) (by rfl) _) $$ HR Hc6 HO Har6; iintro ⟨HO, Har6, Hv6⟩; unfold recvPay
  iapply (wp_load 𝒱₀ (c : Thread nD τ) none Set.univ (m := rM) (S := slotSet 6) (setOn_slot 6 _).subset) $$ Hv6; iintro Hv6
  rw [read_putAt 6 (by decide) _ (rowAt m c 6)]
  iapply (stepRecv m K c 10 ⟨by decide, by decide⟩ _ (by decide) (by rfl) _) $$ HR Hc10 HO Har10; iintro ⟨HO, Har10, Hv10⟩; unfold recvPay
  iapply (wp_load 𝒱₀ (c : Thread nD τ) none Set.univ (m := rM) (S := slotSet 10) (setOn_slot 10 _).subset) $$ Hv10; iintro Hv10
  rw [read_putAt 10 (by decide) _ (rowAt m c 10)]
  iapply (stepRecv m K c 7 ⟨by decide, by decide⟩ _ (by decide) (by rfl) _) $$ HR Hc7 HO Har7; iintro ⟨HO, Har7, Hv7⟩; unfold recvPay
  iapply (wp_load 𝒱₀ (c : Thread nD τ) none Set.univ (m := rM) (S := slotSet 7) (setOn_slot 7 _).subset) $$ Hv7; iintro Hv7
  rw [read_putAt 7 (by decide) _ (rowAt m c 7)]
  iapply (stepRecv m K c 9 ⟨by decide, by decide⟩ _ (by decide) (by rfl) _) $$ HR Hc9 HO Har9; iintro ⟨HO, Har9, Hv9⟩; unfold recvPay
  iapply (wp_load 𝒱₀ (c : Thread nD τ) none Set.univ (m := rM) (S := slotSet 9) (setOn_slot 9 _).subset) $$ Hv9; iintro Hv9
  rw [read_putAt 9 (by decide) _ (rowAt m c 9)]
  iapply (stepRecv m K c 8 ⟨by decide, by decide⟩ _ (by decide) (by rfl) _) $$ HR Hc8 HO Har8; iintro ⟨HO, Har8, Hv8⟩; unfold recvPay
  iapply (wp_load 𝒱₀ (c : Thread nD τ) none Set.univ (m := rM) (S := slotSet 8) (setOn_slot 8 _).subset) $$ Hv8; iintro Hv8
  rw [read_putAt 8 (by decide) _ (rowAt m c 8)]
  -- the result stored
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out]
  -- the fifteen send waits: the shares of slot 0 come back
  iapply (stepSendWait m K c 1 ⟨by decide, by decide⟩ _ (by decide) (by rfl) _) $$ HR Hcs1 HO Has1; iintro ⟨HO, Has1, Hq1⟩
  iapply (stepSendWait m K c 2 ⟨by decide, by decide⟩ _ (by decide) (by rfl) _) $$ HR Hcs2 HO Has2; iintro ⟨HO, Has2, Hq2⟩
  iapply (stepSendWait m K c 3 ⟨by decide, by decide⟩ _ (by decide) (by rfl) _) $$ HR Hcs3 HO Has3; iintro ⟨HO, Has3, Hq3⟩
  iapply (stepSendWait m K c 4 ⟨by decide, by decide⟩ _ (by decide) (by rfl) _) $$ HR Hcs4 HO Has4; iintro ⟨HO, Has4, Hq4⟩
  iapply (stepSendWait m K c 5 ⟨by decide, by decide⟩ _ (by decide) (by rfl) _) $$ HR Hcs5 HO Has5; iintro ⟨HO, Has5, Hq5⟩
  iapply (stepSendWait m K c 6 ⟨by decide, by decide⟩ _ (by decide) (by rfl) _) $$ HR Hcs6 HO Has6; iintro ⟨HO, Has6, Hq6⟩
  iapply (stepSendWait m K c 7 ⟨by decide, by decide⟩ _ (by decide) (by rfl) _) $$ HR Hcs7 HO Has7; iintro ⟨HO, Has7, Hq7⟩
  iapply (stepSendWait m K c 8 ⟨by decide, by decide⟩ _ (by decide) (by rfl) _) $$ HR Hcs8 HO Has8; iintro ⟨HO, Has8, Hq8⟩
  iapply (stepSendWait m K c 9 ⟨by decide, by decide⟩ _ (by decide) (by rfl) _) $$ HR Hcs9 HO Has9; iintro ⟨HO, Has9, Hq9⟩
  iapply (stepSendWait m K c 10 ⟨by decide, by decide⟩ _ (by decide) (by rfl) _) $$ HR Hcs10 HO Has10; iintro ⟨HO, Has10, Hq10⟩
  iapply (stepSendWait m K c 11 ⟨by decide, by decide⟩ _ (by decide) (by rfl) _) $$ HR Hcs11 HO Has11; iintro ⟨HO, Has11, Hq11⟩
  iapply (stepSendWait m K c 12 ⟨by decide, by decide⟩ _ (by decide) (by rfl) _) $$ HR Hcs12 HO Has12; iintro ⟨HO, Has12, Hq12⟩
  iapply (stepSendWait m K c 13 ⟨by decide, by decide⟩ _ (by decide) (by rfl) _) $$ HR Hcs13 HO Has13; iintro ⟨HO, Has13, Hq13⟩
  iapply (stepSendWait m K c 14 ⟨by decide, by decide⟩ _ (by decide) (by rfl) _) $$ HR Hcs14 HO Has14; iintro ⟨HO, Has14, Hq14⟩
  iapply (stepSendWait m K c 15 ⟨by decide, by decide⟩ _ (by decide) (by rfl) _) $$ HR Hcs15 HO Has15; iintro ⟨HO, Has15, Hq15⟩
  -- every cell's round is over: the kernel's own thirty-two cells close, their counters back at zero
  imod (close_send0 m K c) $$ HR Has0 with Hzs0
  imod (close_send m K c 1 ⟨by decide, by decide⟩) $$ HR Has1 with Hzs1
  imod (close_send m K c 2 ⟨by decide, by decide⟩) $$ HR Has2 with Hzs2
  imod (close_send m K c 3 ⟨by decide, by decide⟩) $$ HR Has3 with Hzs3
  imod (close_send m K c 4 ⟨by decide, by decide⟩) $$ HR Has4 with Hzs4
  imod (close_send m K c 5 ⟨by decide, by decide⟩) $$ HR Has5 with Hzs5
  imod (close_send m K c 6 ⟨by decide, by decide⟩) $$ HR Has6 with Hzs6
  imod (close_send m K c 7 ⟨by decide, by decide⟩) $$ HR Has7 with Hzs7
  imod (close_send m K c 8 ⟨by decide, by decide⟩) $$ HR Has8 with Hzs8
  imod (close_send m K c 9 ⟨by decide, by decide⟩) $$ HR Has9 with Hzs9
  imod (close_send m K c 10 ⟨by decide, by decide⟩) $$ HR Has10 with Hzs10
  imod (close_send m K c 11 ⟨by decide, by decide⟩) $$ HR Has11 with Hzs11
  imod (close_send m K c 12 ⟨by decide, by decide⟩) $$ HR Has12 with Hzs12
  imod (close_send m K c 13 ⟨by decide, by decide⟩) $$ HR Has13 with Hzs13
  imod (close_send m K c 14 ⟨by decide, by decide⟩) $$ HR Has14 with Hzs14
  imod (close_send m K c 15 ⟨by decide, by decide⟩) $$ HR Has15 with Hzs15
  imod (close_recv0 m K c) $$ HR Har0 with Hzr0
  imod (close_recv m K c 1 ⟨by decide, by decide⟩) $$ HR Har1 with Hzr1
  imod (close_recv m K c 2 ⟨by decide, by decide⟩) $$ HR Har2 with Hzr2
  imod (close_recv m K c 3 ⟨by decide, by decide⟩) $$ HR Har3 with Hzr3
  imod (close_recv m K c 4 ⟨by decide, by decide⟩) $$ HR Har4 with Hzr4
  imod (close_recv m K c 5 ⟨by decide, by decide⟩) $$ HR Har5 with Hzr5
  imod (close_recv m K c 6 ⟨by decide, by decide⟩) $$ HR Har6 with Hzr6
  imod (close_recv m K c 7 ⟨by decide, by decide⟩) $$ HR Har7 with Hzr7
  imod (close_recv m K c 8 ⟨by decide, by decide⟩) $$ HR Har8 with Hzr8
  imod (close_recv m K c 9 ⟨by decide, by decide⟩) $$ HR Har9 with Hzr9
  imod (close_recv m K c 10 ⟨by decide, by decide⟩) $$ HR Har10 with Hzr10
  imod (close_recv m K c 11 ⟨by decide, by decide⟩) $$ HR Har11 with Hzr11
  imod (close_recv m K c 12 ⟨by decide, by decide⟩) $$ HR Har12 with Hzr12
  imod (close_recv m K c 13 ⟨by decide, by decide⟩) $$ HR Har13 with Hzr13
  imod (close_recv m K c 14 ⟨by decide, by decide⟩) $$ HR Har14 with Hzr14
  imod (close_recv m K c 15 ⟨by decide, by decide⟩) $$ HR Har15 with Hzr15
  -- slot 0's shares together again
  unfold sendPay
  ihave Hl0 := (scr_unshare c (slotSet 0) (putAt 0 (locmax m c)) 15) $$ [Hl0 Hq1 Hq2 Hq3 Hq4 Hq5 Hq6 Hq7 Hq8 Hq9 Hq10 Hq11 Hq12 Hq13 Hq14 Hq15]
  · isplitl [Hl0]; · iexact Hl0
    iapply (Entails.of_eq (shares_chain c (slotSet 0) (putAt 0 (locmax m c))).symm)
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  -- and the sixteen slots one buffer again
  ihave Hscr := (scr_join m c) $$ [Hl0 Hv1 Hv2 Hv3 Hv4 Hv5 Hv6 Hv7 Hv8 Hv9 Hv10 Hv11 Hv12 Hv13 Hv14 Hv15]
  · iapply (Entails.of_eq (final_chain m c).symm)
    isplitl [Hl0]; · iexact Hl0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    iexact Hv15
  rw [wp_ret]; imodintro
  iapply Hk
  unfold bodyPost Φ₁ Dat.owesAt Pipeline.owesWithin
  rw [show (dats m 0 c).owed t₀.succ = 0 from rfl]
  isplitr [HO Hx Hout]
  · isplitl [Hscr]; · iexact Hscr
    iapply (Entails.of_eq (semVal_chain (F := F) c).symm)
    isplitl [Hzs0]; · iexact Hzs0
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzs7]; · iexact Hzs7
    isplitl [Hzs8]; · iexact Hzs8
    isplitl [Hzs9]; · iexact Hzs9
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    isplitl [Hzr7]; · iexact Hzr7
    isplitl [Hzr8]; · iexact Hzr8
    isplitl [Hzr9]; · iexact Hzr9
    isplitl [Hzr10]; · iexact Hzr10
    isplitl [Hzr11]; · iexact Hzr11
    isplitl [Hzr12]; · iexact Hzr12
    isplitl [Hzr13]; · iexact Hzr13
    isplitl [Hzr14]; · iexact Hzr14
    iexact Hzr15
  isplitl [HO]
  · iexists _
    isplitr
    swap
    · iexact HO
    · ipureintro; exact fun _ _ => Or.inl trivial
  isplitl [Hx]
  · iexists _; isplitr; · (ipureintro; rfl)
    iexact Hx
  iexists _; isplitr; · (ipureintro; rfl)
  iexact Hout

end Body

set_option maxRecDepth 65536 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 65536 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.KernelIdeal.Hand

end
-- ==== Proof.KernelIdeal.Launch.lean ====
/-
The launch. The exchange's cells are the thirty-three cells of each of the sixteen devices. The launch
element funds every cell at round 0 and mints each cell's owner the tokens of its duties; one global step
allocates every cell's invariant and deals the tokens around the ring: the token of duty `d` of a barrier
cell goes to the device `d` places before its owner, the token of the landing in slot `d` likewise, and a
send token stays with its owner. The launch credit of a device is the fifteen units its barrier cell is
owed and a row's credit on each of its fifteen receive cells.
-/
import proofs.«900909_g7700000000000910_dist_max_ax0_shard0_i_m1536_n768_v7x_i16_f32_1_alg».proof.Proof.KernelIdeal.Body

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layout -/

theorem ownSemFacts : Pipeline.OwnSemFacts cfg0.spec osem := by decide

theorem share_eq (c : Dev nD) (w : Fin cfg0.W) : (dats m 0 c).share w = fullShare := by unfold Dat.share; split <;> rfl

/-- The numbering of one device's cells names each cell once. -/
theorem csem_injective : Function.Injective (csem : Fin 33 → SemLoc sig) := by
  intro k k' h
  by_cases hk : k.val = 0 <;> by_cases hk' : k'.val = 0
  · exact Fin.ext (hk.trans hk'.symm)
  · dsimp only [csem] at h; rw [dif_pos hk, dif_neg hk'] at h; cases h
  · dsimp only [csem] at h; rw [dif_neg hk, dif_pos hk'] at h; cases h
  · dsimp only [csem] at h; rw [dif_neg hk, dif_neg hk'] at h
    have h3 : k.val + 1 = k'.val + 1 := congrArg Fin.val (SemLoc.dma.inj h)
    exact Fin.ext (by omega)

theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def ringCells : Finset (GSem nD τ sig) := Finset.univ.map ⟨kcell, kcell_injective⟩

theorem sq_inj {j k : ℕ} (hj : j < 16) (hk : k < 16) (h : sq j = sq k) : j = k := by
  have := congrArg Fin.val h; rw [sq_val j hj, sq_val k hk] at this; omega
theorem rq_inj {j k : ℕ} (hj : j < 16) (hk : k < 16) (h : rq j = rq k) : j = k := by
  have := congrArg Fin.val h; rw [rq_val j hj, rq_val k hk] at this; omega
theorem sq_ne_rq {j k : ℕ} (hj : j < 16) (hk : k < 16) : sq j ≠ rq k := by
  intro h; have := congrArg Fin.val h; rw [sq_val j hj, rq_val k hk] at this; omega

/-- The duty tokens minted to the owner of a device's cells: its barrier's duties `1 … 15`, and the one duty of
    each of its send and receive cells `1 … 15`. -/
abbrev tokOf (x : Dev nD × Fin 3 × Fin 15) : GSem nD τ sig × ℕ × ℕ := match x.2.1 with
  | 0 => (barCell x.1, 0, x.2.2.val + 1)
  | 1 => (sendCell x.1 (x.2.2.val + 1), 0, 0)
  | 2 => (recvCell x.1 (x.2.2.val + 1), 0, 0)

theorem tokOf_injective : Function.Injective (tokOf : Dev nD × Fin 3 × Fin 15 → GSem nD τ sig × ℕ × ℕ) := by
  rintro ⟨c, a, j⟩ ⟨c', a', j'⟩ h
  have hj : j.val < 15 := j.isLt
  have hj' : j'.val < 15 := j'.isLt
  have h1 : c = c' := by
    have := congrArg (fun x : GSem nD τ sig × ℕ × ℕ => x.1.1.1) h
    fin_cases a <;> fin_cases a' <;> exact this
  subst h1
  have hs := congrArg (fun x : GSem nD τ sig × ℕ × ℕ => x.1.2) h
  have hd := congrArg (fun x : GSem nD τ sig × ℕ × ℕ => x.2.2) h
  fin_cases a <;> fin_cases a'
  · have hd' : j.val + 1 = j'.val + 1 := hd
    have : j = j' := Fin.ext (by omega)
    subst this; rfl
  · cases hs
  · cases hs
  · cases hs
  · have hs' : sq (j.val + 1) = sq (j'.val + 1) := SemLoc.dma.inj hs
    have : j = j' := Fin.ext (by have := sq_inj (by omega) (by omega) hs'; omega)
    subst this; rfl
  · have hs' : sq (j.val + 1) = rq (j'.val + 1) := SemLoc.dma.inj hs
    exact absurd hs' (sq_ne_rq (by omega) (by omega))
  · cases hs
  · have hs' : rq (j.val + 1) = sq (j'.val + 1) := SemLoc.dma.inj hs
    exact absurd hs'.symm (sq_ne_rq (by omega) (by omega))
  · have hs' : rq (j.val + 1) = rq (j'.val + 1) := SemLoc.dma.inj hs
    have : j = j' := Fin.ext (by have := rq_inj (by omega) (by omega) hs'; omega)
    subst this; rfl

def ringToks : Finset (GSem nD τ sig × ℕ × ℕ) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.Icc 1 15) fun e => dutyTok ER (barCell c) 0 e)
    ∗ (bigSep (Finset.Icc 1 15) fun k => dutyTok ER (sendCell c k) 0 0)
    ∗ (bigSep (Finset.Icc 1 15) fun k => dutyTok ER (recvCell c k) 0 0))

/-- What the launch element deals device `c`. -/
def G (c : Dev nD) : sProp 𝕄 :=
  iprop((bigSep Finset.univ fun k : Fin 33 => roundState ER (sched m) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- Fifteen summands numbered from 0 are the summands `1 … 15`. -/
theorem bigSep_fin15_Icc (Φ : ℕ → sProp 𝕄) : (bigSep Finset.univ fun j : Fin 15 => Φ (j.val + 1)) = bigSep (Finset.Icc 1 15) Φ := by
  have h : (Finset.univ : Finset (Fin 15)).map ⟨fun j => j.val + 1, fun a b h => Fin.ext (Nat.succ_injective h)⟩ = Finset.Icc 1 15 := by decide
  rw [← h, bigSep_map]; rfl

omit [FloatOps F] in
/-- Summands over devices and a set of numbers may be taken in either order. -/
theorem bigSep_swap (S : Finset ℕ) (Φ : Dev nD → ℕ → sProp 𝕄) :
    (bigSep Finset.univ fun c => bigSep S (Φ c)) = bigSep S fun d => bigSep Finset.univ fun c => Φ c d := by
  induction S using Finset.induction_on with
  | empty => simp only [bigSep_empty]; exact bigSep_emp_const _
  | insert a S ha ih =>
    have e1 : (bigSep (insert a S) fun d => bigSep Finset.univ fun c => Φ c d)
        = iprop((bigSep Finset.univ fun c => Φ c a) ∗ bigSep S fun d => bigSep Finset.univ fun c => Φ c d) := bigSep_insert ha
    have e2 : (bigSep Finset.univ fun c => bigSep (insert a S) (Φ c)) = bigSep Finset.univ fun c => iprop(Φ c a ∗ bigSep S (Φ c)) :=
      bigSep_congr fun c _ => bigSep_insert ha
    rw [e1, e2, bigSep_sep', ih]

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_prod, bigSep_fin3, ← bigSep_fin15_Icc, ← bigSep_fin15_Icc, ← bigSep_fin15_Icc]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Fin 32 => semVal ((c : Thread nD τ), osem j) 0 := rfl

omit [FloatOps F] in
/-- The barrier semaphore is the one semaphore the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Cell `j + 1` of a device is its own semaphore `j`. -/
theorem kcell_succ (c : Dev nD) (j : Fin 32) : kcell (c, j.succ) = ((c : Thread nD τ), osem j) := by
  show ((c : Thread nD τ), csem j.succ) = ((c : Thread nD τ), osem j)
  congr 1

theorem erase_zero33 : (Finset.univ.erase (0 : Fin 33)) = (Finset.univ : Finset (Fin 32)).map (Fin.succEmb 32) := by decide

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  have hS : (bigSep Finset.univ fun j : Fin 32 => (semVal ((c : Thread nD τ), osem j) 0 : sProp 𝕄))
      = bigSep Finset.univ fun j : Fin 32 => semVal (kcell (c, Fin.succEmb 32 j)) 0 :=
    bigSep_congr fun j _ => by rw [show Fin.succEmb 32 j = j.succ from rfl, kcell_succ]
  rw [ownSems0_eq, unscopedSems0_eq, bigSep_univ_at _ (0 : Fin 33), erase_zero33, bigSep_map, hS]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 33 → ℕ) (c : Dev nD) : iprop(records m K ∗ linear c) ⊢ G' m c := by
  unfold G' ghost
  iintro H
  iexists K
  iexact H

omit [FloatOps F] in
/-- Summand `d` of device `c` handed to the device `d` places before it, for every `d = 1 … 15`: each shift permutes the devices. -/
theorem around (Φ : Dev nD → ℕ → sProp 𝕄) :
    (bigSep Finset.univ fun c => bigSep (Finset.Icc 1 15) fun d => Φ c d)
      = bigSep Finset.univ fun c => bigSep (Finset.Icc 1 15) fun d => Φ (sh d c) d := by
  rw [bigSep_swap (Finset.Icc 1 15) Φ, bigSep_swap (Finset.Icc 1 15) fun c d => Φ (sh d c) d]
  exact bigSep_congr fun d hd => bigSep_univ_equiv (shEquiv d (by have := Finset.mem_Icc.mp hd; omega)) fun c => Φ c d

omit [FloatOps F] in
/-- The tokens dealt around the ring. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun c d => (dutyTok ER (barCell c) 0 d : sProp 𝕄)), around (fun c d => (dutyTok ER (recvCell c d) 0 0 : sProp 𝕄))]
  iintro ⟨H1, H2, H3⟩
  isplitl [H1]; · iexact H1
  isplitl [H3]; · iexact H3
  iexact H2

theorem regroup :
    (bigSep Finset.univ fun c : Dev nD => iprop((bigSep Finset.univ fun k => iprop(∃ κ : ℕ, cellInv ER (sched m) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- Units on one cell add up. -/
theorem sum_tallyAt_one (g : GSem nD τ sig) (S : Finset ℕ) : (∑ _d ∈ S, (tallyAt g () 1 : CellTallies nD τ sig Unit)) = tallyAt g () S.card := by
  induction S using Finset.induction_on with
  | empty => rw [Finset.sum_empty, Finset.card_empty, tallyAt_zero]
  | insert a S ha ih => rw [Finset.sum_insert ha, ih, Finset.card_insert_of_notMem ha, tallyAt_add, Nat.add_comm]

omit [FloatOps F] in
/-- The fifteen unit credits on a barrier cell are one credit of fifteen. -/
theorem bar_merge (c : Dev nD) :
    (bigSep (Finset.Icc 1 15) fun _ : ℕ => (cred (tallyAt (barCell c) () 1) : sProp 𝕄)) = cred (tallyAt (barCell c) () 15) := by
  rw [← Pipeline.cred_finsetSum, sum_tallyAt_one, Nat.card_Icc]

omit [FloatOps F] in
theorem creds (c : Dev nD) :
    (Pipeline.launchCred O₀ c : sProp 𝕄)
      ⊢ iprop(cred (tallyAt (barCell c) () 15) ∗ bigSep (Finset.Icc 1 15) fun k => cred (tallyAt (recvCell c k) () N)) := by
  have hO : (O₀ : Dev nD → CellTallies nD τ sig Unit)
      = fun d => (∑ r ∈ Finset.Icc 1 15, tallyAt (recvCell (sh r d) r) () N) + ∑ r ∈ Finset.Icc 1 15, tallyAt (barCell (sh r d)) () 1 := rfl
  have hB : (bigSep (Finset.Icc 1 15) fun r => (Pipeline.launchCred (fun d => tallyAt (barCell (sh r d)) () 1) c : sProp 𝕄))
      ⊢ cred (tallyAt (barCell c) () 15) := by
    rw [← bar_merge]
    exact bigSep_mono fun d hd => Pipeline.launchCred_tallyAt (SemLoc.reg barS) (sh d) (sh (16 - d))
      (sh_compl_sh d (by have := Finset.mem_Icc.mp hd; omega)) (sh_sh_compl d (by have := Finset.mem_Icc.mp hd; omega)) () 1 c
  have hR : (bigSep (Finset.Icc 1 15) fun r => (Pipeline.launchCred (fun d => tallyAt (recvCell (sh r d) r) () N) c : sProp 𝕄))
      ⊢ bigSep (Finset.Icc 1 15) fun k => cred (tallyAt (recvCell c k) () N) :=
    bigSep_mono fun d hd => Pipeline.launchCred_tallyAt (SemLoc.dma (rq d)) (sh d) (sh (16 - d))
      (sh_compl_sh d (by have := Finset.mem_Icc.mp hd; omega)) (sh_sh_compl d (by have := Finset.mem_Icc.mp hd; omega)) () N c
  rw [hO, Pipeline.launchCred_add, Pipeline.launchCred_sum, Pipeline.launchCred_sum]
  iintro ⟨HR, HB⟩
  isplitl [HB]
  · iapply hB; iexact HB
  · iapply hR; iexact HR

/-! ### The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scr
  iintro ⟨⟨%f, Hr⟩, Hz⟩
  isplitr; · iempintro
  isplitl [Hz]; · iexact Hz
  iexists f; iexact Hr

omit [FloatOps F] in
/-- A staging or send cell sits at level 0, below every cell a device owes at launch. -/
theorem mayWait_stage (c : Dev nD) (q : DmaSem sig) (hq : ¬ 18 < q.val) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _) fun g u hg => by
      have hlv : lv ((c : Thread nD τ), SemLoc.dma q) () = 0 := by dsimp only [lv]; rw [if_neg hq]
      have hg' : 0 < (debtR c (Finset.Icc 1 15) + debtB c (Finset.Icc 1 15)) g u := hg
      rcases Pipeline.add_pos_cases hg' with h | h
      · obtain ⟨d, hd, rfl⟩ := debtR_pos (Finset.Subset.refl _) h
        refine ⟨by rw [L_tc]; exact Finset.mem_singleton_self _, ?_⟩
        rw [hlv, lv_recv _ d hd]; decide
      · obtain ⟨d, rfl⟩ := debtB_pos h
        refine ⟨by rw [L_tc]; exact Finset.mem_singleton_self _, ?_⟩
        rw [hlv, lv_bar]; decide
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

set_option maxRecDepth 8000 in
/-- At the compiled mesh of sixteen devices, for any float values, from any memory with zero counters: every weakly
    fair execution of @main terminates, and every final state has each device's arrays at the computed contents. -/
theorem run_main (ρ : Dev nD → PrngReg) : θ_run defs (onTc (τ := τ) (main (F := F))) ⟨m, fun _ => 0, ρ⟩
    (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m c (0 : Fin 2) = m ((c : Thread nD τ).loc main_arg0) :=
  (dats (F := F) m 0 c).arrAt_in (0 : Fin 2) rfl _

/-- The result array is one block, written back whole after the one point: it holds what the body left. -/
theorem finalA_out (c : Dev nD) : finalA m c (1 : Fin 2) = outAt m c := by
  unfold finalA
  rw [show cfg0.N = t₀.val + 1 from rfl, (dats m 0 c).arrAt_succ (1 : Fin 2) t₀,
    if_pos (show (cfg0.win (1 : Fin 2)).flush t₀ = true from by decide)]
  have hz : (fun a => (win0_1.index t₀) a * main_v1.ty.shape.size a) = fun _ => 0 := funext fun a => by fin_cases a <;> decide
  rw [Memref.write_access_unit_zero_univ (Elt F) main_v1 hz]
  rfl

/-- The run read at the two arrays: the result holds the maximum of the sixteen rows, the argument what it held. -/
theorem run_values (ρ : Dev nD → PrngReg) : θ_run defs (onTc (τ := τ) (main (F := F))) ⟨m, fun _ => 0, ρ⟩
    (fun r => ∀ c : Dev nD, r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_out m c), (h c (0 : Fin 2)).trans (finalA_x m c)⟩)
    (run_main m ρ)

/-- info: 'Cert.KernelIdeal.Hand.run_values' depends on axioms: [propext, Classical.choice, Quot.sound] -/
#guard_msgs in #print axioms run_values

end Cert.KernelIdeal.Hand

end
-- ==== Proof.Kernel.Mesh.lean ====
/-
The sixteen devices form the cyclic group ℤ/16: `sh d c` is the device `d` places after `c`.
Every device id the kernel computes — for the fifteen barrier signals and the fifteen remote
copies — is `sh d c` for some `d = 1 … 15`. A shift is a permutation of the devices, a shift by
`d` is undone by a shift by `16 - d`, and two different shifts below sixteen never meet.
-/
import proofs.«900909_g7700000000000910_dist_max_ax0_shard0_i_m1536_n768_v7x_i16_f32_1_alg».proof.Proof.Gen.Kernel

namespace Cert.Kernel.Hand

open Cert.Kernel Idealize.ShloMosaic Idealize.SL.Sem

/-- The device `d` places after `c` on the ring of sixteen. -/
def sh (d : ℕ) (c : Dev nD) : Dev nD := ⟨(c.val + d) % 16, Nat.mod_lt _ (by decide)⟩

theorem sh_val (d : ℕ) (c : Dev nD) : (sh d c).val = (c.val + d) % 16 := rfl

/-- Going `d` places forward and then `16 - d` places forward is a full turn. -/
theorem sh_sh_compl (d : ℕ) (hd : d ≤ 16) (c : Dev nD) : sh (16 - d) (sh d c) = c := by
  apply Fin.ext; have hc : c.val < 16 := c.isLt; simp only [sh_val]; omega
theorem sh_compl_sh (d : ℕ) (hd : d ≤ 16) (c : Dev nD) : sh d (sh (16 - d) c) = c := by
  apply Fin.ext; have hc : c.val < 16 := c.isLt; simp only [sh_val]; omega

/-- A shift is a permutation of the devices. -/
def shEquiv (d : ℕ) (hd : d ≤ 16) : Dev nD ≃ Dev nD := ⟨sh d, sh (16 - d), sh_sh_compl d hd, sh_compl_sh d hd⟩

theorem sh_inj (d : ℕ) (hd : d ≤ 16) {a b : Dev nD} (h : sh d a = sh d b) : a = b := (shEquiv d hd).injective h

/-- Two different shifts below sixteen never meet. -/
theorem sh_ne (d e : ℕ) (hd : d < 16) (he : e < 16) (hde : d ≠ e) (c : Dev nD) : sh d c ≠ sh e c := by
  intro h; have h' := congrArg Fin.val h; have hc : c.val < 16 := c.isLt; simp only [sh_val] at h'; omega

end Cert.Kernel.Hand
-- ==== Proof.Kernel.Contents.lean ====
/-
What the buffers hold. Device `c` holds block `c` of `x` (1536 rows of 768 columns). Its
column maxima form one row `locmax c` of 768 entries. After the exchange, slot `d` of device
`c`'s sixteen-row scratch holds the row of the device `d` places before it, `locmax (sh (16 - d) c)`,
and slot 0 holds its own. The result on `c` is the entrywise maximum of the sixteen rows, taken in
the order the kernel takes them: slot 0, then slots 1, 15, 2, 14, 3, 13, 4, 12, 5, 11, 6, 10, 7, 9, 8.
-/
import proofs.«900909_g7700000000000910_dist_max_ax0_shard0_i_m1536_n768_v7x_i16_f32_1_alg».proof.Proof.Gen.Kernel.Skeleton
import proofs.«900909_g7700000000000910_dist_max_ax0_shard0_i_m1536_n768_v7x_i16_f32_1_alg».proof.Proof.Kernel.Mesh
import Idealize.ShloMosaic.Lib.ValueIdx

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Device `c`'s block of `x`, as its staging buffer holds it at the kernel's one grid point. -/
def xblk (c : Dev nD) : Vec F S1536x768 .f32 :=
  (win0_0.blk (0 : Fin 1)).view.read (Elt F) (m ((c : Thread nD τ).loc main_arg0))

/-- The column maxima of device `c`'s block: one row of 768 entries. -/
def locmax (c : Dev nD) : Vec F S1x1x768 .f32 := k0_pay1 (xblk m c)

/-- The row that lands in slot `d` of device `c`'s scratch: that of the device `d` places before `c`. -/
def rowAt (c : Dev nD) (d : ℕ) : Vec F S1x1x768 .f32 := locmax m (sh (16 - d) c)

/-- The result on device `c`: the entrywise maximum of the sixteen rows in the kernel's order. -/
def outAt (c : Dev nD) : Vec F S1x768 .f32 :=
  k0_pay8 (k0_pay7 (k0_pay6 (k0_pay5 (k0_pay4 (k0_pay3 (k0_pay2 (locmax m c) (rowAt m c 1))
    (rowAt m c 15) (rowAt m c 2) (rowAt m c 14)) (rowAt m c 3) (rowAt m c 13))
    (rowAt m c 4) (rowAt m c 12) (rowAt m c 5)) (rowAt m c 11) (rowAt m c 6)) (rowAt m c 10) (rowAt m c 7))
    (rowAt m c 9) (rowAt m c 8)

end Cert.Kernel.Hand

end
-- ==== Proof.Kernel.Sched.lean ====
/-
The exchange protocol, as a schedule of rounds. Every device has one barrier cell, fifteen send cells
and fifteen receive cells (slots 1 … 15), each with ONE round.

* Barrier cell of `c`: fifteen duties `e = 1 … 15` of one unit, duty `e` paid by the device `e`
  places before `c` (its signal number `e` names `c`). That device is `sh (16 - e) c`; what its unit
  hands `c` is slot `16 - e` of ITS scratch — the slot `c`'s copy number `16 - e` lands in — and
  that its receive cell for that slot is open.
* Receive cell `k` of `c`: one duty, the landing of the copy from the device `k` places before `c`;
  it hands `c` slot `k` of its scratch holding that device's row of column maxima.
* Send cell `k` of `c`: one duty, the source of copy `k` read out; it hands back the share of slot 0
  the copy was given.

Slot 0 is read by all fifteen copies at once and by the kernel's own load, so its ownership is cut
into sixteen shares: `shr 1 … shr 15` for the copies and `rest 15` kept.
-/
import proofs.«900909_g7700000000000910_dist_max_ax0_shard0_i_m1536_n768_v7x_i16_f32_1_alg».proof.Proof.Gen.Kernel.Skeleton
import proofs.«900909_g7700000000000910_dist_max_ax0_shard0_i_m1536_n768_v7x_i16_f32_1_alg».proof.Proof.Gen.Kernel.Launch
import proofs.«900909_g7700000000000910_dist_max_ax0_shard0_i_m1536_n768_v7x_i16_f32_1_alg».proof.Proof.Kernel.Contents
import Idealize.ShloMosaic.Lib.Pipeline.Launch
import Idealize.ShloMosaic.Lib.Pipeline.Kit
import Idealize.ShloMosaic.Lib.Tactic
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties numbered by ℕ) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Memrefs, semaphores, cells -/

abbrev xM : Memref sig .tc .vmem S1536x768 .f32 := Memref.whole cc0_stg0_0
abbrev oM : Memref sig .tc .vmem S1x768 .f32 := Memref.whole cc0_stg1_0
abbrev rM : Memref sig .tc .vmem S16x1x768 .f32 := Memref.whole cc0_scratch0

/-- Row `k` of the scratch as a rectangle, and as the memref a copy names. -/
abbrev slotR (k : ℕ) (h : ∀ a, (![k, 0, 0] : Fin 3 → ℕ) a + S1x1x768.size a ≤ S16x1x768.size a) : Rect S16x1x768 :=
  Rect.unit (s := S16x1x768) ![k, 0, 0] S1x1x768.size h
abbrev slotM (k : ℕ) (h : ∀ a, (![k, 0, 0] : Fin 3 → ℕ) a + S1x1x768.size a ≤ S16x1x768.size a) : Memref sig .tc .vmem S1x768 .f32 :=
  (rM.slice (slotR k h) (fun _ => rfl)).squeeze S1x768 squeezes_S1x1x768_S1x768

theorem slot_inb (k : ℕ) (hk : k < 16) : ∀ a, (![k, 0, 0] : Fin 3 → ℕ) a + S1x1x768.size a ≤ S16x1x768.size a := by
  intro a; fin_cases a
  · show k + 1 ≤ 16; omega
  · show 0 + 1 ≤ 1; omega
  · show 0 + 768 ≤ 768; omega

/-- The runtime's barrier semaphore; the send and receive DMA semaphores of slot `k` (numbers `2 + k`, `18 + k`). -/
abbrev barS : Sem sig := (SemArray.scalar (sig.barrier 0 rfl) : Sems sig S_).sem
def sq (k : ℕ) : DmaSem sig := ⟨(2 + k) % 34, Nat.mod_lt _ (by decide)⟩
def rq (k : ℕ) : DmaSem sig := ⟨(18 + k) % 34, Nat.mod_lt _ (by decide)⟩

theorem sq_val (k : ℕ) (hk : k < 16) : (sq k).val = 2 + k := Nat.mod_eq_of_lt (by omega)
theorem rq_val (k : ℕ) (hk : k < 16) : (rq k).val = 18 + k := Nat.mod_eq_of_lt (by omega)

abbrev barCell (c : Dev nD) : GSem nD τ sig := ((c : Thread nD τ), .reg barS)
abbrev sendCell (c : Dev nD) (k : ℕ) : GSem nD τ sig := ((c : Thread nD τ), .dma (sq k))
abbrev recvCell (c : Dev nD) (k : ℕ) : GSem nD τ sig := ((c : Thread nD τ), .dma (rq k))

/-- The units one copy of a row credits. -/
abbrev N : ℕ := (slotM 1 (slot_inb 1 (by decide))).view.dmaCredit
theorem N_pos : 0 < N := View.dmaCredit_pos _ (by decide)

/-! ## Slots of the scratch, and the shares of slot 0 -/

/-- The elements of row `k` of the scratch. -/
def slotSet (k : ℕ) : Finset S16x1x768.Idx := Finset.univ.filter fun i => (i 0).val = k

theorem mem_slotSet {k : ℕ} {i : S16x1x768.Idx} : i ∈ slotSet k ↔ (i 0).val = k := by
  unfold slotSet; rw [Finset.mem_filter]; exact ⟨fun h => h.2, fun h => ⟨Finset.mem_univ _, h⟩⟩

theorem slotR_set (k : ℕ) (h) : (slotR k h).set = slotSet k := by
  ext i
  rw [Rect.mem_set_unit, mem_slotSet]
  constructor
  · intro hi; have := hi 0; simp only [Matrix.cons_val_zero] at this
    have h2 : S1x1x768.size 0 = 1 := rfl
    omega
  · intro hi a; fin_cases a
    · show k ≤ (i 0).val ∧ (i 0).val < k + 1; omega
    · show 0 ≤ (i 1).val ∧ (i 1).val < 0 + 1; have h1 : (i 1).val < 1 := (i 1).isLt; exact ⟨Nat.zero_le _, by omega⟩
    · show 0 ≤ (i 2).val ∧ (i 2).val < 0 + 768; have h2 : (i 2).val < 768 := (i 2).isLt; exact ⟨Nat.zero_le _, by omega⟩

theorem slotM_set (k : ℕ) (h) : (slotM k h).view.set = slotSet k := by
  simp only [Memref.view_squeeze, Memref.view_slice, Memref.view_whole, View.set_reshape, View.set_slice_whole]
  exact slotR_set k h

theorem slotSet_disjoint {j k : ℕ} (h : j ≠ k) : Disjoint (slotSet j) (slotSet k) := by
  rw [Finset.disjoint_left]; intro i hj hk; exact h ((mem_slotSet.mp hj).symm.trans (mem_slotSet.mp hk))

/-- The scratch with the row `v` written at slot `k` (elsewhere anything): the contents a slot's points-to names. -/
def putAt (k : ℕ) (v : Vec F S1x1x768 .f32) : Vec F S16x1x768 .f32 :=
  if hk : k < 16 then (rM.access (slotR k (slot_inb k hk))).write (Elt F) (fun _ => v (ValueIdx.ix3 0 0 0)) v Finset.univ
  else fun _ => v (ValueIdx.ix3 0 0 0)

omit [FloatOps F] in
theorem putAt_eq (k : ℕ) (hk : k < 16) (h) (v : Vec F S1x1x768 .f32) :
    putAt k v = (rM.access (slotR k h)).write (Elt F) (fun _ => v (ValueIdx.ix3 0 0 0)) v Finset.univ := by
  unfold putAt; rw [dif_pos hk]

omit [FloatOps F] in
/-- A load of slot `k` reads the row back. -/
theorem read_putAt (k : ℕ) (hk : k < 16) (h) (v : Vec F S1x1x768 .f32) :
    (rM : Memref sig .tc .vmem S16x1x768 .f32).view.readAt (Elt F) (slotR k h).toLoadRect (putAt k v) = v := by
  rw [putAt_eq k hk h]
  exact View.read_write_univ _ _

omit [FloatOps F] in
theorem access_set (k : ℕ) (h) : ((rM : Memref sig .tc .vmem S16x1x768 .f32).access (slotR k h)).set = slotSet k := by
  show ((View.whole cc0_scratch0).slice (slotR k h)).set = slotSet k
  rw [View.set_slice_whole]; exact slotR_set k h

omit [FloatOps F] in
/-- A store of the row `w` through slot `k` leaves the slot at `putAt k w`, whatever it held. -/
theorem write_putAt (k : ℕ) (hk : k < 16) (h) (f : Vec F S16x1x768 .f32) (w : Vec F S1x1x768 .f32) :
    ∀ i ∈ slotSet k, ((rM : Memref sig .tc .vmem S16x1x768 .f32).access (slotR k h)).write (Elt F) f w Finset.univ i = putAt k w i := by
  intro i hi
  rw [← access_set k h] at hi
  obtain ⟨y, rfl⟩ := View.exists_emb_of_mem_set _ hi
  rw [putAt_eq k hk h, View.write_emb_of_mem _ _ (Finset.mem_univ y), View.write_emb_of_mem _ _ (Finset.mem_univ y)]

omit [FloatOps F] in
/-- A copy of slot 0 (holding the row `v`) into slot `k` leaves slot `k` holding `v`, whatever it held. -/
theorem land_putAt (k : ℕ) (hk : k < 16) (h0) (h) (fd : Vec F S16x1x768 .f32) (v : Vec F S1x1x768 .f32) :
    ∀ i ∈ slotSet k, (slotM k h).view.write (Elt F) fd ((slotM 0 h0).view.read (Elt F) (putAt 0 v)) Finset.univ i = putAt k v i := by
  intro i hi
  rw [← slotM_set k h] at hi
  obtain ⟨y, rfl⟩ := View.exists_emb_of_mem_set _ hi
  rw [View.write_emb_of_mem _ _ (Finset.mem_univ y), View.read_apply]
  have e0 : (slotM 0 h0).view.emb y = ((rM : Memref sig .tc .vmem S16x1x768 .f32).access (slotR 0 h0)).emb (Shape.reshapeEquiv (Shape.Squeezes.numel_eq squeezes_S1x1x768_S1x768) y) := rfl
  have ek : (slotM k h).view.emb y = ((rM : Memref sig .tc .vmem S16x1x768 .f32).access (slotR k h)).emb (Shape.reshapeEquiv (Shape.Squeezes.numel_eq squeezes_S1x1x768_S1x768) y) := rfl
  rw [e0, ek, putAt_eq 0 (by decide) h0, putAt_eq k hk h, View.write_emb_of_mem _ _ (Finset.mem_univ _), View.write_emb_of_mem _ _ (Finset.mem_univ _)]
  rfl

/-- What is left of slot 0's ownership after the first `n` copies have taken their shares; copy `n + 1` takes `shr (n + 1)`. -/
def rest : ℕ → PosShare TreeShare
  | 0 => fullShare
  | n + 1 => (rest n).right
def shr (n : ℕ) : PosShare TreeShare := (rest (n - 1)).left

/-- Device `c`'s scratch elements `S` at share `q` holding `f`. -/
abbrev scr (c : Dev nD) (S : Finset S16x1x768.Idx) (q : PosShare TreeShare) (f : Vec F S16x1x768 .f32) : sProp 𝕄 :=
  ((c : Thread nD τ).loc cc0_scratch0) ↦[S]{q} f

omit [FloatOps F] in
instance scr_storable (c : Dev nD) (S q f) : BI.Storable (upEmb : UEmb _ 𝕄) (scr (F := F) c S q f) := by unfold scr; infer_instance

omit [FloatOps F] in
theorem scr_congr (c : Dev nD) (S : Finset S16x1x768.Idx) (q) {f g : Vec F S16x1x768 .f32} (h : ∀ i ∈ S, f i = g i) :
    scr c S q f = scr c S q g := by unfold scr; exact BI.Region.is_congr h

omit [FloatOps F] in
/-- Cutting the next copy's share off what is left of slot 0. -/
theorem scr_share (c : Dev nD) (S : Finset S16x1x768.Idx) (n : ℕ) (f : Vec F S16x1x768 .f32) :
    scr c S (rest n) f ⊣⊢ iprop(scr c S (shr (n + 1)) f ∗ scr c S (rest (n + 1)) f) := by
  unfold scr
  exact BI.Region.is_share (IsOp.posShare_halves (rest n)).1

/-! ## The payloads -/

/-- What the unit of duty `e` of `c`'s barrier cell hands `c`: slot `16 - e` of the scratch of the device
    `16 - e` places after `c` (at any contents), and that device's receive cell for that slot open. -/
def barPay (c : Dev nD) (e : ℕ) : sProp 𝕄 :=
  iprop((∃ f, scr (sh (16 - e) c) (slotSet (16 - e)) fullShare f) ∗ reached ER (recvCell (sh (16 - e) c) (16 - e)) 0)
/-- The landing in slot `k` of `c`: the slot, holding the row of the device `k` places before `c`. -/
def recvPay (c : Dev nD) (k : ℕ) : sProp 𝕄 := scr c (slotSet k) fullShare (putAt k (rowAt m c k))
/-- Copy `k` read out: its share of slot 0, holding `c`'s own row. -/
def sendPay (c : Dev nD) (k : ℕ) : sProp 𝕄 := scr c (slotSet 0) (shr k) (putAt 0 (locmax m c))

/-! ## The schedule -/

/-- One round. A barrier cell: duties `1 … 15`, one unit each. Send cell `k`, receive cell `k` (`k = 1 … 15`):
    the one duty `0`, of a row's credit. Every other cell (the two unused semaphores, the staging cells): none. -/
def sched : Rounds.Schedule (GSem nD τ sig) ℕ 𝕄 where
  duties g r := if r = 0 ∧ g.1.2 = .tc then
      (match g.2 with
        | .reg s => if s = barS then Finset.Icc 1 15 else ∅
        | .dma q => if (2 < q.val ∧ q.val < 18) ∨ 18 < q.val then {0} else ∅)
    else ∅
  unitless _ := False
  amount g _ _ := match g.2 with | .reg _ => 1 | .dma _ => N
  payload g _ e := match g.2 with
    | .reg _ => barPay g.1.1 e
    | .dma q => if 18 < q.val then recvPay m g.1.1 (q.val - 18) else sendPay m g.1.1 (q.val - 2)
  amount_pos g _ _ _ := by
    cases g.2 with
    | reg _ => exact Nat.one_pos
    | dma _ => exact N_pos

instance sched_payload_storable (g : GSem nD τ sig) (r : ℕ) (d : ℕ) :
    BI.Storable (upEmb : UEmb _ 𝕄) ((sched (F := F) m).payload g r d) := by
  show BI.Storable upEmb (match g.2 with
    | .reg _ => barPay g.1.1 d
    | .dma q => if 18 < q.val then recvPay m g.1.1 (q.val - 18) else sendPay m g.1.1 (q.val - 2))
  unfold barPay recvPay sendPay
  (repeat' split) <;> infer_instance

section Tables
variable (c : Dev nD)

theorem duties_bar : (sched (F := F) m).duties (barCell c) 0 = Finset.Icc 1 15 := by
  dsimp only [sched]; rw [if_pos ⟨rfl, rfl⟩, if_pos rfl]
theorem duties_send (k : ℕ) (hk : 1 ≤ k ∧ k ≤ 15) : (sched (F := F) m).duties (sendCell c k) 0 = {0} := by
  dsimp only [sched]; rw [if_pos ⟨rfl, rfl⟩, if_pos (Or.inl (by rw [sq_val k (by omega)]; omega))]
theorem duties_recv (k : ℕ) (hk : 1 ≤ k ∧ k ≤ 15) : (sched (F := F) m).duties (recvCell c k) 0 = {0} := by
  dsimp only [sched]; rw [if_pos ⟨rfl, rfl⟩, if_pos (Or.inr (by rw [rq_val k (by omega)]; omega))]
theorem duties_later (g : GSem nD τ sig) : ∀ r, 1 ≤ r → (sched (F := F) m).duties g r = ∅ :=
  fun r hr => by dsimp only [sched]; rw [if_neg fun h => by omega]
/-- The two semaphores no copy uses have no duty at all. -/
theorem duties_unused (q : DmaSem sig) (hq : q.val = 2 ∨ q.val = 18) : ∀ r, 0 ≤ r → (sched (F := F) m).duties ((c : Thread nD τ), .dma q) r = ∅ :=
  fun r _ => by
    dsimp only [sched]
    by_cases h : r = 0 ∧ ((c : Thread nD τ)).2 = .tc
    · rw [if_pos h, if_neg (by omega)]
    · rw [if_neg h]

theorem amount_bar (d : ℕ) : (sched (F := F) m).amount (barCell c) 0 d = 1 := rfl
theorem amount_send (k d : ℕ) : (sched (F := F) m).amount (sendCell c k) 0 d = N := rfl
theorem amount_recv (k d : ℕ) : (sched (F := F) m).amount (recvCell c k) 0 d = N := rfl

theorem expect_bar : (sched (F := F) m).expect (barCell c) 0 = 15 := by
  unfold Schedule.expect Schedule.amountOf
  rw [duties_bar, Finset.sum_congr rfl fun d _ => amount_bar m c d, Finset.sum_const, smul_eq_mul]; decide
theorem expect_send (k : ℕ) (hk : 1 ≤ k ∧ k ≤ 15) : (sched (F := F) m).expect (sendCell c k) 0 = N := by
  unfold Schedule.expect Schedule.amountOf; rw [duties_send m c k hk, Finset.sum_singleton]; rfl
theorem expect_recv (k : ℕ) (hk : 1 ≤ k ∧ k ≤ 15) : (sched (F := F) m).expect (recvCell c k) 0 = N := by
  unfold Schedule.expect Schedule.amountOf; rw [duties_recv m c k hk, Finset.sum_singleton]; rfl

theorem payload_bar (e : ℕ) : (sched (F := F) m).payload (barCell c) 0 e = barPay c e := rfl
theorem payload_send (k : ℕ) (hk : 1 ≤ k ∧ k ≤ 15) (d : ℕ) : (sched (F := F) m).payload (sendCell c k) 0 d = sendPay m c k := by
  dsimp only [sched]; rw [if_neg (by rw [sq_val k (by omega)]; omega), sq_val k (by omega), Nat.add_sub_cancel_left]
theorem payload_recv (k : ℕ) (hk : 1 ≤ k ∧ k ≤ 15) (d : ℕ) : (sched (F := F) m).payload (recvCell c k) 0 d = recvPay m c k := by
  dsimp only [sched]; rw [if_pos (by rw [rq_val k (by omega)]; omega), rq_val k (by omega), Nat.add_sub_cancel_left]

/-- The whole of the barrier cell's round: the fifteen hand-overs, in the order of the slots `15, 14, … 1`
    of duties `1, 2, … 15`. -/
theorem rest_bar : bigSep ((sched (F := F) m).duties (barCell c) 0 \ ∅) (fun d => (sched (F := F) m).payload (barCell c) 0 d)
    = iprop(barPay c 1 ∗ barPay c 2 ∗ barPay c 3 ∗ barPay c 4 ∗ barPay c 5 ∗ barPay c 6 ∗ barPay c 7 ∗ barPay c 8
        ∗ barPay c 9 ∗ barPay c 10 ∗ barPay c 11 ∗ barPay c 12 ∗ barPay c 13 ∗ barPay c 14 ∗ barPay c 15) := by
  rw [Finset.sdiff_empty, duties_bar,
    bigSep_eq_bigSepL_of_eq [1, 2, 3, 4, 5, 6, 7, 8, 9, 10, 11, 12, 13, 14, 15] (by decide) (by decide)]
  rfl
theorem rest_send (k : ℕ) (hk : 1 ≤ k ∧ k ≤ 15) :
    bigSep ((sched (F := F) m).duties (sendCell c k) 0 \ ∅) (fun d => (sched (F := F) m).payload (sendCell c k) 0 d) = sendPay m c k := by
  rw [Finset.sdiff_empty, duties_send m c k hk, bigSep_singleton, payload_send m c k hk]
theorem rest_recv (k : ℕ) (hk : 1 ≤ k ∧ k ≤ 15) :
    bigSep ((sched (F := F) m).duties (recvCell c k) 0 \ ∅) (fun d => (sched (F := F) m).payload (recvCell c k) 0 d) = recvPay m c k := by
  rw [Finset.sdiff_empty, duties_recv m c k hk, bigSep_singleton, payload_recv m c k hk]

end Tables

end Cert.Kernel.Hand

end
-- ==== Proof.Kernel.Data.lean ====
/-
What each device owes at launch, the levels that order the waits, the ghost state a device's body starts
from, and the pipeline's proof data.

Debts. Device `c` owes one unit to the barrier cell of each of the fifteen other devices (`sh d c`,
`d = 1 … 15`) and a row's credit to receive cell `d` of `sh d c`. They are paid in the order
`d = 1, 2, …`: first the fifteen signals, then the fifteen copies.

Levels. Staging and send cells at 0, barrier cells at 1, receive cells at 2. A device waits on its
barrier while it still owes receive credits (level 2 above 1); on everything else it waits owing nothing.
-/
import proofs.«900909_g7700000000000910_dist_max_ax0_shard0_i_m1536_n768_v7x_i16_f32_1_alg».proof.Proof.Kernel.Sched
import Mathlib.Algebra.Order.Interval.Finset.SuccPred

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Debts -/

/-- The barrier units `c` still owes, for the signals numbered in `S`. -/
def debtB (c : Dev nD) (S : Finset ℕ) : CellTallies nD τ sig Unit := ∑ d ∈ S, tallyAt (barCell (sh d c)) () 1
/-- The receive credits `c` still owes, for the copies numbered in `S`. -/
def debtR (c : Dev nD) (S : Finset ℕ) : CellTallies nD τ sig Unit := ∑ d ∈ S, tallyAt (recvCell (sh d c) d) () N

/-- What `c` owes once signals `1 … j - 1` are out. -/
def oweB (c : Dev nD) (j : ℕ) : CellTallies nD τ sig Unit := debtR c (Finset.Icc 1 15) + debtB c (Finset.Icc j 15)
/-- What `c` owes once all signals and copies `1 … j - 1` are out. -/
def oweR (c : Dev nD) (j : ℕ) : CellTallies nD τ sig Unit := debtR c (Finset.Icc j 15)

def O₀ (c : Dev nD) : CellTallies nD τ sig Unit := oweB c 1

theorem oweB_peel (c : Dev nD) (j : ℕ) (hj : j ≤ 15) : oweB c j = oweB c (j + 1) + tallyAt (barCell (sh j c)) () 1 := by
  unfold oweB debtB
  rw [← Finset.insert_Icc_add_one_left_eq_Icc hj, Finset.sum_insert (by rw [Finset.mem_Icc]; omega), add_comm (tallyAt _ _ _), add_assoc]
theorem oweB_done (c : Dev nD) : oweB c 16 = oweR c 1 := by
  unfold oweB oweR debtB
  rw [show Finset.Icc 16 15 = (∅ : Finset ℕ) from Finset.Icc_eq_empty (by decide), Finset.sum_empty, add_zero]
theorem oweR_peel (c : Dev nD) (j : ℕ) (hj : j ≤ 15) : oweR c j = oweR c (j + 1) + tallyAt (recvCell (sh j c) j) () N := by
  unfold oweR debtR
  rw [← Finset.insert_Icc_add_one_left_eq_Icc hj, Finset.sum_insert (by rw [Finset.mem_Icc]; omega), add_comm]
theorem oweR_done (c : Dev nD) : oweR c 16 = 0 := by
  unfold oweR debtR
  rw [show Finset.Icc 16 15 = (∅ : Finset ℕ) from Finset.Icc_eq_empty (by decide), Finset.sum_empty]

/-- A receive debt is positive only at a receive cell of slot `1 … 15`. -/
theorem debtR_pos {c : Dev nD} {S : Finset ℕ} (hS : S ⊆ Finset.Icc 1 15) {g : GSem nD τ sig} {u : Unit} (h : 0 < debtR c S g u) :
    ∃ d, (1 ≤ d ∧ d ≤ 15) ∧ g = recvCell (sh d c) d := by
  obtain ⟨d, hd, hp⟩ := Pipeline.sum_pos_exists h
  exact ⟨d, Finset.mem_Icc.mp (hS hd), (Pipeline.tallyAt_pos hp).1⟩
theorem debtB_pos {c : Dev nD} {S : Finset ℕ} {g : GSem nD τ sig} {u : Unit} (h : 0 < debtB c S g u) :
    ∃ d, g = barCell (sh d c) := by
  obtain ⟨d, hd, hp⟩ := Pipeline.sum_pos_exists h
  exact ⟨d, (Pipeline.tallyAt_pos hp).1⟩

/-! ## Levels -/

def L (g : GSem nD τ sig) : Finset Unit := if g.1.2 = .tc then {()} else ∅
/-- Barrier cells at 1, receive cells (DMA semaphores above 18) at 2, everything else at 0. -/
def lv (g : GSem nD τ sig) (_ : Unit) : ℕ :=
  match g.2 with
  | .reg s => if s = barS then 1 else 0
  | .dma q => if 18 < q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (k : ℕ) (hk : 1 ≤ k ∧ k ≤ 15) (u : Unit) : lv (recvCell c k) u = 2 := by
  dsimp only [lv]; rw [if_pos (by rw [rq_val k (by omega)]; omega)]

omit [FloatOps F] in
/-- At its barrier wait a device owes receive credits only: receive cells sit above its barrier cell. -/
theorem mayWait_bar (c : Dev nD) :
    (levAts L lv : sProp 𝕄) ⊢ MayWait (c : Thread nD τ) (.reg barS) () (oweR c 1) :=
  Pipeline.mayWait_of_levAts (by rw [L_tc]; exact Finset.mem_singleton_self _) fun g u hg => by
    obtain ⟨d, hd, rfl⟩ := debtR_pos (Finset.Subset.refl _) hg
    refine ⟨by rw [L_tc]; exact Finset.mem_singleton_self _, ?_⟩
    rw [lv_bar c, lv_recv _ d hd]; decide

/-! ## The cells of one device, numbered: 0 the barrier, 1 … 16 the send cells of slots 0 … 15, 17 … 32 the receive cells -/

abbrev csem (k : Fin 33) : SemLoc sig := if h : k.val = 0 then .reg barS else .dma ⟨k.val + 1, (show k.val + 1 < 34 by omega)⟩
abbrev kcell (ck : Dev nD × Fin 33) : GSem nD τ sig := ((ck.1 : Thread nD τ), csem ck.2)
/-- The kernel's own (scoped) semaphores as the launch indexes them: DMA semaphores 2 … 33. -/
abbrev osem (j : Fin 32) : SemLoc sig := .dma ⟨j.val + 2, (show j.val + 2 < 34 by omega)⟩

def ksend (k : ℕ) : Fin 33 := ⟨(k + 1) % 33, Nat.mod_lt _ (by decide)⟩
def krecv (k : ℕ) : Fin 33 := ⟨(k + 17) % 33, Nat.mod_lt _ (by decide)⟩

theorem kcell_bar (c : Dev nD) : kcell (c, 0) = barCell c := rfl
theorem kcell_send (c : Dev nD) (k : ℕ) (hk : k < 16) : kcell (c, ksend k) = sendCell c k := by
  have h1 : (ksend k).val = k + 1 := Nat.mod_eq_of_lt (by omega)
  show ((c : Thread nD τ), csem (ksend k)) = ((c : Thread nD τ), SemLoc.dma (sq k))
  congr 1
  unfold csem
  rw [dif_neg (by omega)]
  congr 1
  apply Fin.ext
  show (ksend k).val + 1 = (sq k).val
  rw [h1, sq_val k hk]; omega
theorem kcell_recv (c : Dev nD) (k : ℕ) (hk : k < 16) : kcell (c, krecv k) = recvCell c k := by
  have h1 : (krecv k).val = k + 17 := Nat.mod_eq_of_lt (by omega)
  show ((c : Thread nD τ), csem (krecv k)) = ((c : Thread nD τ), SemLoc.dma (rq k))
  congr 1
  unfold csem
  rw [dif_neg (by omega)]
  congr 1
  apply Fin.ext
  show (krecv k).val + 1 = (rq k).val
  rw [h1, rq_val k hk]; omega

/-! ## The ghost state -/

/-- Every cell's invariant, under the names `K` the launch allocated them at, and that every cell is open at round 0. -/
def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

instance records_persistent (K : Dev nD × Fin 33 → ℕ) : BI.Persistent (records m K) := by unfold records; infer_instance

theorem inv_aux (K : Dev nD × Fin 33 → ℕ) (ck : Dev nD × Fin 33) :
    (bigSep Finset.univ fun ck : Dev nD × Fin 33 => (cellInv ER (sched m) (K ck) (kcell ck) : sProp 𝕄)) ⊢ cellInv ER (sched m) (K ck) (kcell ck) :=
  bigSep_elim (Finset.mem_univ ck)
omit [FloatOps F] in
theorem reached_aux (ck : Dev nD × Fin 33) :
    (bigSep Finset.univ fun ck : Dev nD × Fin 33 => (reached ER (kcell ck) 0 : sProp 𝕄)) ⊢ reached ER (kcell ck) 0 :=
  bigSep_elim (Finset.mem_univ ck)
theorem inv_at (K : Dev nD × Fin 33 → ℕ) (ck : Dev nD × Fin 33) : records m K ⊢ cellInv ER (sched m) (K ck) (kcell ck) := by
  unfold records; iintro ⟨H, -⟩; iapply (inv_aux m K ck); iexact H
theorem reached_at (K : Dev nD × Fin 33 → ℕ) (ck : Dev nD × Fin 33) : records m K ⊢ reached ER (kcell ck) 0 := by
  unfold records; iintro ⟨-, H⟩; iapply (reached_aux (F := F) ck); iexact H

/-- The duty tokens device `c` pays with: duty `d` of the barrier of `sh d c`, the landing in slot `d` of `sh d c`,
    and its own send duty `d`. -/
def payToks (c : Dev nD) : sProp 𝕄 :=
  iprop((bigSep (Finset.Icc 1 15) fun d => dutyTok ER (barCell (sh d c)) 0 d)
    ∗ (bigSep (Finset.Icc 1 15) fun d => dutyTok ER (recvCell (sh d c) d) 0 0)
    ∗ (bigSep (Finset.Icc 1 15) fun d => dutyTok ER (sendCell c d) 0 0))
/-- What stays with device `c`: its positions at round 0 of its own thirty-three cells, and the tokens it pays with. -/
def linear (c : Dev nD) : sProp 𝕄 :=
  iprop((bigSep Finset.univ fun k : Fin 33 => atPos ER (kcell (c, k)) 0 ∅ 0) ∗ payToks c)

def ghost (K : Dev nD × Fin 33 → ℕ) (c : Dev nD) : sProp 𝕄 := iprop(records m K ∗ linear c)

/-- What device `c`'s body starts from: the ghost state at some names, the credit of its barrier's fifteen units and
    of its fifteen landings, and the level facts. -/
def start (c : Dev nD) : sProp 𝕄 :=
  iprop((∃ K, ghost m K c) ∗ cred (tallyAt (barCell c) () 15)
    ∗ (bigSep (Finset.Icc 1 15) fun k => cred (tallyAt (recvCell c k) () N)) ∗ levAts L lv)

/-- Before the point: that, and the scratch at any contents. -/
def Φ₀ (c : Dev nD) : sProp 𝕄 := iprop(start m c ∗ ∃ f, scr c Finset.univ fullShare f)
/-- After the point: the scratch back whole, and the kernel's own thirty-two semaphores at zero. -/
def Φ₁ (c : Dev nD) : sProp 𝕄 :=
  iprop((∃ f, scr c Finset.univ fullShare f) ∗ bigSep Finset.univ fun j : Fin 32 => semVal ((c : Thread nD τ), osem j) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Hand

end
-- ==== Proof.Kernel.Steps.lean ====
/-
The protocol's steps, each stated once for a symbolic shift `d` (or slot `k`) between 1 and 15:
a barrier signal, a remote copy of slot 0, a receive wait, a send wait.
-/
import proofs.«900909_g7700000000000910_dist_max_ax0_shard0_i_m1536_n768_v7x_i16_f32_1_alg».proof.Proof.Kernel.Data

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps
variable (K : Dev nD × Fin 33 → ℕ)

/-- The invariant and the round-0 mark of a send or receive cell, in the cell's own spelling. -/
theorem inv_send (c : Dev nD) (k : ℕ) (hk : k < 16) : records m K ⊢ cellInv ER (sched m) (K (c, ksend k)) (sendCell c k) := by
  have h := inv_at m K (c, ksend k); rw [kcell_send c k hk] at h; exact h
theorem inv_recv (c : Dev nD) (k : ℕ) (hk : k < 16) : records m K ⊢ cellInv ER (sched m) (K (c, krecv k)) (recvCell c k) := by
  have h := inv_at m K (c, krecv k); rw [kcell_recv c k hk] at h; exact h
theorem reached_send (c : Dev nD) (k : ℕ) (hk : k < 16) : records m K ⊢ reached ER (sendCell c k) 0 := by
  have h := reached_at m K (c, ksend k); rw [kcell_send c k hk] at h; exact h
theorem reached_recv (c : Dev nD) (k : ℕ) (hk : k < 16) : records m K ⊢ reached ER (recvCell c k) 0 := by
  have h := reached_at m K (c, krecv k); rw [kcell_recv c k hk] at h; exact h

/-- Signal number `d`: device `c` pays duty `d` of the barrier cell of `sh d c`, handing over slot `16 - d` of its
    own scratch (the slot that device's copy lands in) and that its receive cell for that slot is open. -/
theorem wp_sig (c n : Dev nD) (d : ℕ) (hd : 1 ≤ d ∧ d ≤ 15) (hn : n = sh d c) (k' : ℕ) (hk' : 1 = k')
    {α : Type} {Q : α → sProp 𝕄} {k : PUnit → Prog (TpuEff nD τ sig (Elt F) Λ₀ .tc) α}
    (W : Waits sig Unit) (f : Vec F S16x1x768 .f32) :
    iprop(records m K ∗ owes (c : Thread nD τ) (oweB c d) W ∗ dutyTok ER (barCell (sh d c)) 0 d
        ∗ scr c (slotSet (16 - d)) fullShare f)
      ⊢ iprop((owes (c : Thread nD τ) (oweB c (d + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk'
  iintro ⟨#HR, HO, Htok, Hslot⟩
  iapply (Rounds.wp_signal 𝒱₀ ER (sched m) (c : Thread nD τ) none (dst := (sh d c : Thread nD τ)) (κ := K (sh d c, 0))
      (d := d) (by rw [duties_bar]; exact Finset.mem_Icc.mpr hd) (amount_bar m (sh d c) d) () (oweB c (d + 1)) (oweB_peel c d hd.2))
    $$ [HO Htok Hslot]
  · isplitr; · iapply (inv_at m K (sh d c, 0)); iexact HR
    isplitl [HO]; · iexact HO
    isplitl [Htok]; · iexact Htok
    isplitl [Hslot]
    · rw [payload_bar]; unfold barPay; rw [sh_sh_compl d (by omega) c]
      isplitl [Hslot]; · iexists f; iexact Hslot
      iapply (reached_recv m K c (16 - d) (by omega)); iexact HR
    · iapply (reached_at m K (sh d c, 0)); iexact HR

/-- Copy number `d`: slot 0 of `c` (its share `shr d`, holding `c`'s row) into slot `d` of `sh d c`, which `c` owns
    at any contents. The landing hands `sh d c` its slot holding `c`'s row — the row of the device `d` places before it. -/
theorem wp_snd (c n : Dev nD) (d : ℕ) (hd : 1 ≤ d ∧ d ≤ 15) (hn : n = sh d c) (qs qr : DmaSem sig) (hqs : qs = sq d) (hqr : qr = rq d)
    (h0 : ∀ a, (![0, 0, 0] : Fin 3 → ℕ) a + S1x1x768.size a ≤ S16x1x768.size a)
    (hI : ∀ a, (![d, 0, 0] : Fin 3 → ℕ) a + S1x1x768.size a ≤ S16x1x768.size a)
    {hsc : (slotM d hI : Memref sig (Dev.tc n : Thread nD τ).2.kind .vmem S1x768 .f32).view.ref.isScScratch = false}
    {hsrc : (slotM 0 h0 : Memref sig .tc .vmem S1x768 .f32).view.WordExact} {hdst : (slotM d hI : Memref sig .tc .vmem S1x768 .f32).view.WordExact}
    {hsem : DmaTarget.Typed .vmem (.dma qr) (.remote (Dev.tc n : Thread nD τ) (slotM d hI : Memref sig .tc .vmem S1x768 .f32) (.dma qs) hsc)}
    {α : Type} {Q : α → sProp 𝕄} {k : PUnit → Prog (TpuEff nD τ sig (Elt F) Λ₀ .tc) α}
    (fn : Vec F S16x1x768 .f32) (W : Waits sig Unit) :
    iprop(records m K ∗ scr c (slotSet 0) (shr d) (putAt 0 (locmax m c)) ∗ scr (sh d c) (slotSet d) fullShare fn
        ∗ owes (c : Thread nD τ) (oweR c d) W ∗ dutyTok ER (sendCell c d) 0 0 ∗ dutyTok ER (recvCell (sh d c) d) 0 0)
      ⊢ iprop(((cred (tallyAt (sendCell c d) () N) ∗ owes (c : Thread nD τ) (oweR c (d + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 h0) (.remote (Dev.tc n : Thread nD τ) (slotM d hI) (.dma qs) hsc) (.dma qr) hsrc hdst hsem) k) Q) := by
  subst hn; subst hqs; subst hqr
  iintro ⟨#HR, Hsrc, Hdst, HO, HtS, HtR⟩
  unfold scr
  rw [← slotM_set 0 h0, ← slotM_set d hI]
  iapply (Rounds.wp_send_pointsTo 𝒱₀ ER (sched m) (c : Thread nD τ) none (c' := (sh d c : Thread nD τ)) (src := slotM 0 h0) (dst := slotM d hI)
      (sS := .dma (sq d)) (sem := .dma (rq d)) (q := shr d) (fs := putAt 0 (locmax m c)) (κ₁ := K (c, ksend d)) (κ₂ := K (sh d c, krecv d))
      (r₁ := 0) (r₂ := 0) (d₁ := 0) (d₂ := 0) (fd := fn)
      (by rw [duties_send m c d hd]; exact Finset.mem_singleton_self _) (by rw [duties_recv m (sh d c) d hd]; exact Finset.mem_singleton_self _)
      () () N rfl (amount_send m c d 0) (amount_recv m (sh d c) d 0) (oweR c (d + 1)) (oweR_peel c d hd.2) (W := W)
      (by rw [payload_send m c d hd]; unfold sendPay scr; rw [slotM_set 0 h0])
      (by rw [payload_recv m (sh d c) d hd]; unfold recvPay scr rowAt; rw [sh_sh_compl d (by omega) c, slotM_set d hI]
          exact Entails.of_eq (BI.Region.is_congr (land_putAt d (by omega) h0 hI fn (locmax m c)))))
    $$ [Hsrc Hdst HO HtS HtR]
  isplitr; · iapply (inv_send m K c d (by omega)); iexact HR
  isplitr; · iapply (inv_recv m K (sh d c) d (by omega)); iexact HR
  isplitl [Hsrc]; · iexact Hsrc
  isplitl [Hdst]; · iexact Hdst
  isplitl [HO]; · iexact HO
  isplitl [HtS]; · iexact HtS
  isplitr; · iapply (reached_send m K c d (by omega)); iexact HR
  isplitl [HtR]; · iexact HtR
  iapply (reached_recv m K (sh d c) d (by omega)); iexact HR

/-- The wait for the landing in slot `k`: owing nothing, the device gets slot `k` holding the row of the device `k` places before it. -/
theorem wp_rcv (c : Dev nD) (k : ℕ) (hk : 1 ≤ k ∧ k ≤ 15) (q : DmaSem sig) (hq : q = rq k)
    {src dst : Memref sig .tc .vmem S1x768 .f32} (hN : dst.view.dmaCredit = N) {hsrc : src.view.WordExact} {hdst : dst.view.WordExact}
    {α : Type} {Q : α → sProp 𝕄} {kk : PUnit → Prog (TpuEff nD τ sig (Elt F) Λ₀ .tc) α} (W : Waits sig Unit) :
    iprop(records m K ∗ cred (tallyAt (recvCell c k) () N) ∗ owes (c : Thread nD τ) 0 W ∗ atPos ER (recvCell c k) 0 ∅ 0)
      ⊢ iprop(((owes (c : Thread nD τ) 0 (insert (SemLoc.dma (rq k), ()) W) ∗ atPos ER (recvCell c k) 1 ∅ 0 ∗ recvPay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  iintro ⟨#HR, Hc, HO, Hat⟩ Hk
  iapply (Rounds.wp_wait_rest_token 𝒱₀ ER (sched m) (c : Thread nD τ) none (κ := K (c, krecv k))
      (wpE_waitDma2_eq 𝒱₀ (c : Thread nD τ) none Set.univ) (Set.mem_univ _) () (O := 0) (W := W) (R := 0) (m := 0) (T := ∅)
      (by rw [Nat.zero_add, expect_recv m c k hk])) $$ [Hc HO Hat]
  · isplitr; · iapply (inv_recv m K c k (by omega)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c k hk)) $$ Hpay
  iapply Hk
  isplitl [HO]; · iexact HO
  isplitl [Hat]; · iexact Hat
  iexact Hp

/-- The wait for copy `k` read out: the device gets its share of slot 0 back. -/
theorem wp_sndw (c : Dev nD) (k : ℕ) (hk : 1 ≤ k ∧ k ≤ 15) (q : DmaSem sig) (hq : q = sq k)
    {src dst : Memref sig .tc .vmem S1x768 .f32} (hN : dst.view.dmaCredit = N) {hsrc : src.view.WordExact} {hdst : dst.view.WordExact}
    {α : Type} {Q : α → sProp 𝕄} {kk : PUnit → Prog (TpuEff nD τ sig (Elt F) Λ₀ .tc) α} (W : Waits sig Unit) :
    iprop(records m K ∗ cred (tallyAt (sendCell c k) () N) ∗ owes (c : Thread nD τ) 0 W ∗ atPos ER (sendCell c k) 0 ∅ 0)
      ⊢ iprop(((owes (c : Thread nD τ) 0 (insert (SemLoc.dma (sq k), ()) W) ∗ atPos ER (sendCell c k) 1 ∅ 0 ∗ sendPay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  iintro ⟨#HR, Hc, HO, Hat⟩ Hk
  iapply (Rounds.wp_wait_rest_token 𝒱₀ ER (sched m) (c : Thread nD τ) none (κ := K (c, ksend k))
      (wpE_waitDma2_eq 𝒱₀ (c : Thread nD τ) none Set.univ) (Set.mem_univ _) () (O := 0) (W := W) (R := 0) (m := 0) (T := ∅)
      (by rw [Nat.zero_add, expect_send m c k hk])) $$ [Hc HO Hat]
  · isplitr; · iapply (inv_send m K c k (by omega)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c k hk)) $$ Hpay
  iapply Hk
  isplitl [HO]; · iexact HO
  isplitl [Hat]; · iexact Hat
  iexact Hp

/-! The same four steps with their resources as separate premises, to be handed over by name. -/

theorem stepSig (c n : Dev nD) (d : ℕ) (hd : 1 ≤ d ∧ d ≤ 15) (hn : n = sh d c) (k' : ℕ) (hk' : 1 = k')
    {α : Type} {Q : α → sProp 𝕄} {k : PUnit → Prog (TpuEff nD τ sig (Elt F) Λ₀ .tc) α}
    (W : Waits sig Unit) (f : Vec F S16x1x768 .f32) :
    records m K ⊢ iprop(owes (c : Thread nD τ) (oweB c d) W -∗ dutyTok ER (barCell (sh d c)) 0 d -∗ scr c (slotSet (16 - d)) fullShare f
      -∗ (owes (c : Thread nD τ) (oweB c (d + 1)) W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS k') k) Q) := by
  iintro #HR HO Ht Hs
  iapply (wp_sig m K c n d hd hn k' hk' W f)
  isplitr; · iexact HR
  isplitl [HO]; · iexact HO
  isplitl [Ht]; · iexact Ht
  iexact Hs

theorem stepSend (c n : Dev nD) (d : ℕ) (hd : 1 ≤ d ∧ d ≤ 15) (hn : n = sh d c) (qs qr : DmaSem sig) (hqs : qs = sq d) (hqr : qr = rq d)
    (h0 : ∀ a, (![0, 0, 0] : Fin 3 → ℕ) a + S1x1x768.size a ≤ S16x1x768.size a)
    (hI : ∀ a, (![d, 0, 0] : Fin 3 → ℕ) a + S1x1x768.size a ≤ S16x1x768.size a)
    {hsc : (slotM d hI : Memref sig (Dev.tc n : Thread nD τ).2.kind .vmem S1x768 .f32).view.ref.isScScratch = false}
    {hsrc : (slotM 0 h0 : Memref sig .tc .vmem S1x768 .f32).view.WordExact} {hdst : (slotM d hI : Memref sig .tc .vmem S1x768 .f32).view.WordExact}
    {hsem : DmaTarget.Typed .vmem (.dma qr) (.remote (Dev.tc n : Thread nD τ) (slotM d hI : Memref sig .tc .vmem S1x768 .f32) (.dma qs) hsc)}
    {α : Type} {Q : α → sProp 𝕄} {k : PUnit → Prog (TpuEff nD τ sig (Elt F) Λ₀ .tc) α}
    (fn : Vec F S16x1x768 .f32) (W : Waits sig Unit) :
    records m K ⊢ iprop(scr c (slotSet 0) (shr d) (putAt 0 (locmax m c)) -∗ scr (sh d c) (slotSet d) fullShare fn
      -∗ owes (c : Thread nD τ) (oweR c d) W -∗ dutyTok ER (sendCell c d) 0 0 -∗ dutyTok ER (recvCell (sh d c) d) 0 0
      -∗ ((cred (tallyAt (sendCell c d) () N) ∗ owes (c : Thread nD τ) (oweR c (d + 1)) W) -∗ wp frame (wpE (defs₀ (F := F)) 𝒱₀ (c : Thread nD τ) none) Set.univ (k ⟨⟩) Q)
      -∗ wp frame (wpE (defs₀ (F := F)) 𝒱₀ (c : Thread nD τ) none) Set.univ
            (.op (.enqueueDma (slotM 0 h0) (.remote (Dev.tc n : Thread nD τ) (slotM d hI) (.dma qs) hsc) (.dma qr) hsrc hdst hsem) k) Q) := by
  iintro #HR Hsrc Hdst HO HtS HtR
  iapply (wp_snd m K c n d hd hn qs qr hqs hqr h0 hI fn W)
  isplitr; · iexact HR
  isplitl [Hsrc]; · iexact Hsrc
  isplitl [Hdst]; · iexact Hdst
  isplitl [HO]; · iexact HO
  isplitl [HtS]; · iexact HtS
  iexact HtR

theorem stepRecv (c : Dev nD) (k : ℕ) (hk : 1 ≤ k ∧ k ≤ 15) (q : DmaSem sig) (hq : q = rq k)
    {src dst : Memref sig .tc .vmem S1x768 .f32} (hN : dst.view.dmaCredit = N) {hsrc : src.view.WordExact} {hdst : dst.view.WordExact}
    {α : Type} {Q : α → sProp 𝕄} {kk : PUnit → Prog (TpuEff nD τ sig (Elt F) Λ₀ .tc) α} (W : Waits sig Unit) :
    records m K ⊢ iprop(cred (tallyAt (recvCell c k) () N) -∗ owes (c : Thread nD τ) 0 W -∗ atPos ER (recvCell c k) 0 ∅ 0
      -∗ ((owes (c : Thread nD τ) 0 (insert (SemLoc.dma (rq k), ()) W) ∗ atPos ER (recvCell c k) 1 ∅ 0 ∗ recvPay m c k)
            -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 q src dst hsrc hdst) kk) Q) := by
  iintro #HR Hc HO Hat
  iapply (wp_rcv m K c k hk q hq hN W)
  isplitr; · iexact HR
  isplitl [Hc]; · iexact Hc
  isplitl [HO]; · iexact HO
  iexact Hat

theorem stepSendWait (c : Dev nD) (k : ℕ) (hk : 1 ≤ k ∧ k ≤ 15) (q : DmaSem sig) (hq : q = sq k)
    {src dst : Memref sig .tc .vmem S1x768 .f32} (hN : dst.view.dmaCredit = N) {hsrc : src.view.WordExact} {hdst : dst.view.WordExact}
    {α : Type} {Q : α → sProp 𝕄} {kk : PUnit → Prog (TpuEff nD τ sig (Elt F) Λ₀ .tc) α} (W : Waits sig Unit) :
    records m K ⊢ iprop(cred (tallyAt (sendCell c k) () N) -∗ owes (c : Thread nD τ) 0 W -∗ atPos ER (sendCell c k) 0 ∅ 0
      -∗ ((owes (c : Thread nD τ) 0 (insert (SemLoc.dma (sq k), ()) W) ∗ atPos ER (sendCell c k) 1 ∅ 0 ∗ sendPay m c k)
            -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 q src dst hsrc hdst) kk) Q) := by
  iintro #HR Hc HO Hat
  iapply (wp_sndw m K c k hk q hq hN W)
  isplitr; · iexact HR
  isplitl [Hc]; · iexact Hc
  isplitl [HO]; · iexact HO
  iexact Hat

end Steps

end Cert.Kernel.Hand

end
-- ==== Proof.Kernel.BodyPrep.lean ====
/-
Cutting and rejoining the scratch. The scratch is its sixteen rows (slots), pairwise disjoint; slot 0's
ownership is cut into the fifteen copies' shares and a remainder, and put back once every copy has
been read out; at the end the sixteen slots, each holding its row, are one buffer again. Closing a cell
whose round is over gives its counter back at zero.
-/
import proofs.«900909_g7700000000000910_dist_max_ax0_shard0_i_m1536_n768_v7x_i16_f32_1_alg».proof.Proof.Kernel.Steps

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem univ_eq_slots : (Finset.univ : Finset S16x1x768.Idx) = (Finset.range 16).biUnion slotSet := by
  ext i
  simp only [Finset.mem_univ, Finset.mem_biUnion, Finset.mem_range, mem_slotSet, true_iff]
  exact ⟨(i 0).val, (i 0).isLt, rfl⟩

omit [FloatOps F] in
/-- The scratch is its sixteen slots. -/
theorem scr_slots (c : Dev nD) (q : PosShare TreeShare) (f : Vec F S16x1x768 .f32) :
    (scr c Finset.univ q f : sProp 𝕄) = bigSep (Finset.range 16) fun k => scr c (slotSet k) q f := by
  unfold scr
  rw [univ_eq_slots]
  exact pointsTo_biUnion (ℓ := (c : Thread nD τ).loc cc0_scratch0) (q := q) (f := f) (Finset.range 16) slotSet
    (fun t _ t' _ h => slotSet_disjoint h)

/-- The row slot `k` holds at the end: the device's own in slot 0, else that of the device `k` places before it. -/
def finalRow (c : Dev nD) (k : ℕ) : Vec F S1x1x768 .f32 := if k = 0 then locmax m c else rowAt m c k

/-- Sixteen slots, each holding its row, are the scratch at some contents. -/
theorem scr_join (c : Dev nD) :
    (bigSep (Finset.range 16) fun k => scr c (slotSet k) fullShare (putAt k (finalRow m c k)) : sProp 𝕄)
      ⊢ iprop(∃ f, scr c Finset.univ fullShare f) := by
  unfold scr
  iintro H
  ihave H' := (pointsTo_biUnion_join (ℓ := (c : Thread nD τ).loc cc0_scratch0) (q := fullShare) (Finset.range 16) slotSet
    (fun k => putAt k (finalRow m c k)) (putAt 0 (locmax m c)) (fun t _ t' _ h => slotSet_disjoint h)) $$ H
  icases H' with ⟨%g, -, Hg⟩
  iexists g
  rw [univ_eq_slots]
  iexact Hg

omit [FloatOps F] in
/-- The copies' shares `shr 1 … shr n` and what was left after them make slot 0's ownership whole again. -/
theorem scr_unshare (c : Dev nD) (S : Finset S16x1x768.Idx) (f : Vec F S16x1x768 .f32) :
    ∀ n : ℕ, iprop(scr c S (rest n) f ∗ bigSep (Finset.Icc 1 n) fun d => scr c S (shr d) f) ⊢ (scr c S fullShare f : sProp 𝕄)
  | 0 => by
    rw [show Finset.Icc 1 0 = (∅ : Finset ℕ) from Finset.Icc_eq_empty (by decide), bigSep_empty]
    iintro ⟨H, -⟩; iexact H
  | n + 1 => by
    rw [← Finset.insert_Icc_right_eq_Icc_add_one (by omega : 1 ≤ n + 1), bigSep_insert (by rw [Finset.mem_Icc]; omega)]
    refine (show iprop(scr c S (rest (n + 1)) f ∗ (scr c S (shr (n + 1)) f ∗ bigSep (Finset.Icc 1 n) fun d => scr c S (shr d) f))
      ⊢ (scr c S fullShare f : sProp 𝕄) from ?_)
    iintro ⟨Hr, Hs, Hrest⟩
    iapply (scr_unshare c S f n)
    isplitl [Hr Hs]
    · iapply (scr_share c S n f).2
      isplitl [Hs]; · iexact Hs
      iexact Hr
    · iexact Hrest

section Close
variable (K : Dev nD × Fin 33 → ℕ)

/-- A send cell after its one round, a receive cell after its one round, and the two cells no copy uses: each gives
    its counter back at zero. -/
theorem close_send (c : Dev nD) (k : ℕ) (hk : 1 ≤ k ∧ k ≤ 15) :
    records m K ⊢ iprop(atPos ER (sendCell c k) 1 ∅ 0 -∗ |={Set.univ}=> semVal (sendCell c k) 0) := by
  iintro #HR Hat
  iapply (Rounds.cell_close ER (sched m) (Set.mem_univ (K (c, ksend k))) (fun h => h) (R := 1) (duties_later m (sendCell c k)))
  isplitr; · iapply (inv_send m K c k (by omega)); iexact HR
  iexact Hat
theorem close_recv (c : Dev nD) (k : ℕ) (hk : 1 ≤ k ∧ k ≤ 15) :
    records m K ⊢ iprop(atPos ER (recvCell c k) 1 ∅ 0 -∗ |={Set.univ}=> semVal (recvCell c k) 0) := by
  iintro #HR Hat
  iapply (Rounds.cell_close ER (sched m) (Set.mem_univ (K (c, krecv k))) (fun h => h) (R := 1) (duties_later m (recvCell c k)))
  isplitr; · iapply (inv_recv m K c k (by omega)); iexact HR
  iexact Hat
theorem close_send0 (c : Dev nD) :
    records m K ⊢ iprop(atPos ER (sendCell c 0) 0 ∅ 0 -∗ |={Set.univ}=> semVal (sendCell c 0) 0) := by
  iintro #HR Hat
  iapply (Rounds.cell_close ER (sched m) (Set.mem_univ (K (c, ksend 0))) (fun h => h) (R := 0) (duties_unused m c (sq 0) (Or.inl (by decide))))
  isplitr; · iapply (inv_send m K c 0 (by omega)); iexact HR
  iexact Hat
theorem close_recv0 (c : Dev nD) :
    records m K ⊢ iprop(atPos ER (recvCell c 0) 0 ∅ 0 -∗ |={Set.univ}=> semVal (recvCell c 0) 0) := by
  iintro #HR Hat
  iapply (Rounds.cell_close ER (sched m) (Set.mem_univ (K (c, krecv 0))) (fun h => h) (R := 0) (duties_unused m c (rq 0) (Or.inr (by decide))))
  isplitr; · iapply (inv_recv m K c 0 (by omega)); iexact HR
  iexact Hat

end Close

end Cert.Kernel.Hand

end
-- ==== Proof.Kernel.ChainTable.lean ====
import proofs.«900909_g7700000000000910_dist_max_ax0_shard0_i_m1536_n768_v7x_i16_f32_1_alg».proof.Proof.Kernel.BodyPrep

set_option maxRecDepth 8000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem atPos_chain (c : Dev nD) :
    (bigSep Finset.univ fun k : Fin 33 => atPos ER (kcell (c, k)) 0 ∅ 0 : sProp 𝕄)
      = iprop(atPos ER (barCell c) 0 ∅ 0 ∗ atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0 ∗ atPos ER (sendCell c 8) 0 ∅ 0 ∗ atPos ER (sendCell c 9) 0 ∅ 0 ∗ atPos ER (sendCell c 10) 0 ∅ 0 ∗ atPos ER (sendCell c 11) 0 ∅ 0 ∗ atPos ER (sendCell c 12) 0 ∅ 0 ∗ atPos ER (sendCell c 13) 0 ∅ 0 ∗ atPos ER (sendCell c 14) 0 ∅ 0 ∗ atPos ER (sendCell c 15) 0 ∅ 0 ∗ atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0 ∗ atPos ER (recvCell c 7) 0 ∅ 0 ∗ atPos ER (recvCell c 8) 0 ∅ 0 ∗ atPos ER (recvCell c 9) 0 ∅ 0 ∗ atPos ER (recvCell c 10) 0 ∅ 0 ∗ atPos ER (recvCell c 11) 0 ∅ 0 ∗ atPos ER (recvCell c 12) 0 ∅ 0 ∗ atPos ER (recvCell c 13) 0 ∅ 0 ∗ atPos ER (recvCell c 14) 0 ∅ 0 ∗ atPos ER (recvCell c 15) 0 ∅ 0) := by
  rw [bigSep_univ_eq_bigSepL [0, 1, 2, 3, 4, 5, 6, 7, 8, 9, 10, 11, 12, 13, 14, 15, 16, 17, 18, 19, 20, 21, 22, 23, 24, 25, 26, 27, 28, 29, 30, 31, 32] (by decide) (by decide)]
  rfl

theorem tokB_chain (c : Dev nD) :
    (bigSep (Finset.Icc 1 15) fun d => dutyTok ER (barCell (sh d c)) 0 d : sProp 𝕄)
      = iprop(dutyTok ER (barCell (sh 1 c)) 0 1 ∗ dutyTok ER (barCell (sh 2 c)) 0 2 ∗ dutyTok ER (barCell (sh 3 c)) 0 3 ∗ dutyTok ER (barCell (sh 4 c)) 0 4 ∗ dutyTok ER (barCell (sh 5 c)) 0 5 ∗ dutyTok ER (barCell (sh 6 c)) 0 6 ∗ dutyTok ER (barCell (sh 7 c)) 0 7 ∗ dutyTok ER (barCell (sh 8 c)) 0 8 ∗ dutyTok ER (barCell (sh 9 c)) 0 9 ∗ dutyTok ER (barCell (sh 10 c)) 0 10 ∗ dutyTok ER (barCell (sh 11 c)) 0 11 ∗ dutyTok ER (barCell (sh 12 c)) 0 12 ∗ dutyTok ER (barCell (sh 13 c)) 0 13 ∗ dutyTok ER (barCell (sh 14 c)) 0 14 ∗ dutyTok ER (barCell (sh 15 c)) 0 15) := by
  rw [bigSep_eq_bigSepL_of_eq [1, 2, 3, 4, 5, 6, 7, 8, 9, 10, 11, 12, 13, 14, 15] (by decide) (by decide)]
  rfl

theorem tokR_chain (c : Dev nD) :
    (bigSep (Finset.Icc 1 15) fun d => dutyTok ER (recvCell (sh d c) d) 0 0 : sProp 𝕄)
      = iprop(dutyTok ER (recvCell (sh 1 c) 1) 0 0 ∗ dutyTok ER (recvCell (sh 2 c) 2) 0 0 ∗ dutyTok ER (recvCell (sh 3 c) 3) 0 0 ∗ dutyTok ER (recvCell (sh 4 c) 4) 0 0 ∗ dutyTok ER (recvCell (sh 5 c) 5) 0 0 ∗ dutyTok ER (recvCell (sh 6 c) 6) 0 0 ∗ dutyTok ER (recvCell (sh 7 c) 7) 0 0 ∗ dutyTok ER (recvCell (sh 8 c) 8) 0 0 ∗ dutyTok ER (recvCell (sh 9 c) 9) 0 0 ∗ dutyTok ER (recvCell (sh 10 c) 10) 0 0 ∗ dutyTok ER (recvCell (sh 11 c) 11) 0 0 ∗ dutyTok ER (recvCell (sh 12 c) 12) 0 0 ∗ dutyTok ER (recvCell (sh 13 c) 13) 0 0 ∗ dutyTok ER (recvCell (sh 14 c) 14) 0 0 ∗ dutyTok ER (recvCell (sh 15 c) 15) 0 0) := by
  rw [bigSep_eq_bigSepL_of_eq [1, 2, 3, 4, 5, 6, 7, 8, 9, 10, 11, 12, 13, 14, 15] (by decide) (by decide)]
  rfl

theorem tokS_chain (c : Dev nD) :
    (bigSep (Finset.Icc 1 15) fun d => dutyTok ER (sendCell c d) 0 0 : sProp 𝕄)
      = iprop(dutyTok ER (sendCell c 1) 0 0 ∗ dutyTok ER (sendCell c 2) 0 0 ∗ dutyTok ER (sendCell c 3) 0 0 ∗ dutyTok ER (sendCell c 4) 0 0 ∗ dutyTok ER (sendCell c 5) 0 0 ∗ dutyTok ER (sendCell c 6) 0 0 ∗ dutyTok ER (sendCell c 7) 0 0 ∗ dutyTok ER (sendCell c 8) 0 0 ∗ dutyTok ER (sendCell c 9) 0 0 ∗ dutyTok ER (sendCell c 10) 0 0 ∗ dutyTok ER (sendCell c 11) 0 0 ∗ dutyTok ER (sendCell c 12) 0 0 ∗ dutyTok ER (sendCell c 13) 0 0 ∗ dutyTok ER (sendCell c 14) 0 0 ∗ dutyTok ER (sendCell c 15) 0 0) := by
  rw [bigSep_eq_bigSepL_of_eq [1, 2, 3, 4, 5, 6, 7, 8, 9, 10, 11, 12, 13, 14, 15] (by decide) (by decide)]
  rfl

theorem credR_chain (c : Dev nD) :
    (bigSep (Finset.Icc 1 15) fun k => cred (tallyAt (recvCell c k) () N) : sProp 𝕄)
      = iprop(cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N) ∗ cred (tallyAt (recvCell c 8) () N) ∗ cred (tallyAt (recvCell c 9) () N) ∗ cred (tallyAt (recvCell c 10) () N) ∗ cred (tallyAt (recvCell c 11) () N) ∗ cred (tallyAt (recvCell c 12) () N) ∗ cred (tallyAt (recvCell c 13) () N) ∗ cred (tallyAt (recvCell c 14) () N) ∗ cred (tallyAt (recvCell c 15) () N)) := by
  rw [bigSep_eq_bigSepL_of_eq [1, 2, 3, 4, 5, 6, 7, 8, 9, 10, 11, 12, 13, 14, 15] (by decide) (by decide)]
  rfl

theorem slots_chain (c : Dev nD) (q : PosShare TreeShare) (f : Vec F S16x1x768 .f32) :
    (bigSep (Finset.range 16) fun k => scr c (slotSet k) q f : sProp 𝕄)
      = iprop(scr c (slotSet 0) q f ∗ scr c (slotSet 1) q f ∗ scr c (slotSet 2) q f ∗ scr c (slotSet 3) q f ∗ scr c (slotSet 4) q f ∗ scr c (slotSet 5) q f ∗ scr c (slotSet 6) q f ∗ scr c (slotSet 7) q f ∗ scr c (slotSet 8) q f ∗ scr c (slotSet 9) q f ∗ scr c (slotSet 10) q f ∗ scr c (slotSet 11) q f ∗ scr c (slotSet 12) q f ∗ scr c (slotSet 13) q f ∗ scr c (slotSet 14) q f ∗ scr c (slotSet 15) q f) := by
  rw [bigSep_eq_bigSepL_of_eq [0, 1, 2, 3, 4, 5, 6, 7, 8, 9, 10, 11, 12, 13, 14, 15] (by decide) (by decide)]
  rfl

theorem shares_chain (c : Dev nD) (S : Finset S16x1x768.Idx) (f : Vec F S16x1x768 .f32) :
    (bigSep (Finset.Icc 1 15) fun d => scr c S (shr d) f : sProp 𝕄)
      = iprop(scr c S (shr 1) f ∗ scr c S (shr 2) f ∗ scr c S (shr 3) f ∗ scr c S (shr 4) f ∗ scr c S (shr 5) f ∗ scr c S (shr 6) f ∗ scr c S (shr 7) f ∗ scr c S (shr 8) f ∗ scr c S (shr 9) f ∗ scr c S (shr 10) f ∗ scr c S (shr 11) f ∗ scr c S (shr 12) f ∗ scr c S (shr 13) f ∗ scr c S (shr 14) f ∗ scr c S (shr 15) f) := by
  rw [bigSep_eq_bigSepL_of_eq [1, 2, 3, 4, 5, 6, 7, 8, 9, 10, 11, 12, 13, 14, 15] (by decide) (by decide)]
  rfl

theorem final_chain (c : Dev nD) :
    (bigSep (Finset.range 16) fun k => scr c (slotSet k) fullShare (putAt k (finalRow m c k)) : sProp 𝕄)
      = iprop(scr c (slotSet 0) fullShare (putAt 0 (locmax m c)) ∗ scr c (slotSet 1) fullShare (putAt 1 (rowAt m c 1)) ∗ scr c (slotSet 2) fullShare (putAt 2 (rowAt m c 2)) ∗ scr c (slotSet 3) fullShare (putAt 3 (rowAt m c 3)) ∗ scr c (slotSet 4) fullShare (putAt 4 (rowAt m c 4)) ∗ scr c (slotSet 5) fullShare (putAt 5 (rowAt m c 5)) ∗ scr c (slotSet 6) fullShare (putAt 6 (rowAt m c 6)) ∗ scr c (slotSet 7) fullShare (putAt 7 (rowAt m c 7)) ∗ scr c (slotSet 8) fullShare (putAt 8 (rowAt m c 8)) ∗ scr c (slotSet 9) fullShare (putAt 9 (rowAt m c 9)) ∗ scr c (slotSet 10) fullShare (putAt 10 (rowAt m c 10)) ∗ scr c (slotSet 11) fullShare (putAt 11 (rowAt m c 11)) ∗ scr c (slotSet 12) fullShare (putAt 12 (rowAt m c 12)) ∗ scr c (slotSet 13) fullShare (putAt 13 (rowAt m c 13)) ∗ scr c (slotSet 14) fullShare (putAt 14 (rowAt m c 14)) ∗ scr c (slotSet 15) fullShare (putAt 15 (rowAt m c 15))) := by
  rw [bigSep_eq_bigSepL_of_eq [0, 1, 2, 3, 4, 5, 6, 7, 8, 9, 10, 11, 12, 13, 14, 15] (by decide) (by decide)]
  rfl

theorem semVal_chain (c : Dev nD) :
    (bigSep Finset.univ fun j : Fin 32 => semVal ((c : Thread nD τ), osem j) 0 : sProp 𝕄)
      = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0 ∗ semVal (sendCell c 12) 0 ∗ semVal (sendCell c 13) 0 ∗ semVal (sendCell c 14) 0 ∗ semVal (sendCell c 15) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (recvCell c 8) 0 ∗ semVal (recvCell c 9) 0 ∗ semVal (recvCell c 10) 0 ∗ semVal (recvCell c 11) 0 ∗ semVal (recvCell c 12) 0 ∗ semVal (recvCell c 13) 0 ∗ semVal (recvCell c 14) 0 ∗ semVal (recvCell c 15) 0) := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  rfl

end Cert.Kernel.Hand

end
-- ==== Proof.Kernel.MeshTable.lean ====
import proofs.«900909_g7700000000000910_dist_max_ax0_shard0_i_m1536_n768_v7x_i16_f32_1_alg».proof.Proof.Kernel.Mesh

namespace Cert.Kernel.Hand

open Cert.Kernel Idealize.ShloMosaic Idealize.SL.Sem

theorem dev1_eq (c : Dev nD) (h : k0_dev1 c < nD) : (⟨k0_dev1 c, h⟩ : Dev nD) = sh 1 c :=
  Fin.ext ((by decide +kernel : ∀ c : Dev nD, k0_dev1 c = (c.val + 1) % 16) c)
theorem dev2_eq (c : Dev nD) (h : k0_dev2 c < nD) : (⟨k0_dev2 c, h⟩ : Dev nD) = sh 2 c :=
  Fin.ext ((by decide +kernel : ∀ c : Dev nD, k0_dev2 c = (c.val + 2) % 16) c)
theorem dev3_eq (c : Dev nD) (h : k0_dev3 c < nD) : (⟨k0_dev3 c, h⟩ : Dev nD) = sh 3 c :=
  Fin.ext ((by decide +kernel : ∀ c : Dev nD, k0_dev3 c = (c.val + 3) % 16) c)
theorem dev4_eq (c : Dev nD) (h : k0_dev4 c < nD) : (⟨k0_dev4 c, h⟩ : Dev nD) = sh 4 c :=
  Fin.ext ((by decide +kernel : ∀ c : Dev nD, k0_dev4 c = (c.val + 4) % 16) c)
theorem dev5_eq (c : Dev nD) (h : k0_dev5 c < nD) : (⟨k0_dev5 c, h⟩ : Dev nD) = sh 5 c :=
  Fin.ext ((by decide +kernel : ∀ c : Dev nD, k0_dev5 c = (c.val + 5) % 16) c)
theorem dev6_eq (c : Dev nD) (h : k0_dev6 c < nD) : (⟨k0_dev6 c, h⟩ : Dev nD) = sh 6 c :=
  Fin.ext ((by decide +kernel : ∀ c : Dev nD, k0_dev6 c = (c.val + 6) % 16) c)
theorem dev7_eq (c : Dev nD) (h : k0_dev7 c < nD) : (⟨k0_dev7 c, h⟩ : Dev nD) = sh 7 c :=
  Fin.ext ((by decide +kernel : ∀ c : Dev nD, k0_dev7 c = (c.val + 7) % 16) c)
theorem dev8_eq (c : Dev nD) (h : k0_dev8 c < nD) : (⟨k0_dev8 c, h⟩ : Dev nD) = sh 8 c :=
  Fin.ext ((by decide +kernel : ∀ c : Dev nD, k0_dev8 c = (c.val + 8) % 16) c)
theorem dev9_eq (c : Dev nD) (h : k0_dev9 c < nD) : (⟨k0_dev9 c, h⟩ : Dev nD) = sh 9 c :=
  Fin.ext ((by decide +kernel : ∀ c : Dev nD, k0_dev9 c = (c.val + 9) % 16) c)
theorem dev10_eq (c : Dev nD) (h : k0_dev10 c < nD) : (⟨k0_dev10 c, h⟩ : Dev nD) = sh 10 c :=
  Fin.ext ((by decide +kernel : ∀ c : Dev nD, k0_dev10 c = (c.val + 10) % 16) c)
theorem dev11_eq (c : Dev nD) (h : k0_dev11 c < nD) : (⟨k0_dev11 c, h⟩ : Dev nD) = sh 11 c :=
  Fin.ext ((by decide +kernel : ∀ c : Dev nD, k0_dev11 c = (c.val + 11) % 16) c)
theorem dev12_eq (c : Dev nD) (h : k0_dev12 c < nD) : (⟨k0_dev12 c, h⟩ : Dev nD) = sh 12 c :=
  Fin.ext ((by decide +kernel : ∀ c : Dev nD, k0_dev12 c = (c.val + 12) % 16) c)
theorem dev13_eq (c : Dev nD) (h : k0_dev13 c < nD) : (⟨k0_dev13 c, h⟩ : Dev nD) = sh 13 c :=
  Fin.ext ((by decide +kernel : ∀ c : Dev nD, k0_dev13 c = (c.val + 13) % 16) c)
theorem dev14_eq (c : Dev nD) (h : k0_dev14 c < nD) : (⟨k0_dev14 c, h⟩ : Dev nD) = sh 14 c :=
  Fin.ext ((by decide +kernel : ∀ c : Dev nD, k0_dev14 c = (c.val + 14) % 16) c)
theorem dev15_eq (c : Dev nD) (h : k0_dev15 c < nD) : (⟨k0_dev15 c, h⟩ : Dev nD) = sh 15 c :=
  Fin.ext ((by decide +kernel : ∀ c : Dev nD, k0_dev15 c = (c.val + 15) % 16) c)
theorem dev16_eq (c : Dev nD) (h : k0_dev16 c < nD) : (⟨k0_dev16 c, h⟩ : Dev nD) = sh 1 c :=
  Fin.ext ((by decide +kernel : ∀ c : Dev nD, k0_dev16 c = (c.val + 1) % 16) c)
theorem dev17_eq (c : Dev nD) (h : k0_dev17 c < nD) : (⟨k0_dev17 c, h⟩ : Dev nD) = sh 2 c :=
  Fin.ext ((by decide +kernel : ∀ c : Dev nD, k0_dev17 c = (c.val + 2) % 16) c)
theorem dev18_eq (c : Dev nD) (h : k0_dev18 c < nD) : (⟨k0_dev18 c, h⟩ : Dev nD) = sh 3 c :=
  Fin.ext ((by decide +kernel : ∀ c : Dev nD, k0_dev18 c = (c.val + 3) % 16) c)
theorem dev19_eq (c : Dev nD) (h : k0_dev19 c < nD) : (⟨k0_dev19 c, h⟩ : Dev nD) = sh 4 c :=
  Fin.ext ((by decide +kernel : ∀ c : Dev nD, k0_dev19 c = (c.val + 4) % 16) c)
theorem dev20_eq (c : Dev nD) (h : k0_dev20 c < nD) : (⟨k0_dev20 c, h⟩ : Dev nD) = sh 5 c :=
  Fin.ext ((by decide +kernel : ∀ c : Dev nD, k0_dev20 c = (c.val + 5) % 16) c)
theorem dev21_eq (c : Dev nD) (h : k0_dev21 c < nD) : (⟨k0_dev21 c, h⟩ : Dev nD) = sh 6 c :=
  Fin.ext ((by decide +kernel : ∀ c : Dev nD, k0_dev21 c = (c.val + 6) % 16) c)
theorem dev22_eq (c : Dev nD) (h : k0_dev22 c < nD) : (⟨k0_dev22 c, h⟩ : Dev nD) = sh 7 c :=
  Fin.ext ((by decide +kernel : ∀ c : Dev nD, k0_dev22 c = (c.val + 7) % 16) c)
theorem dev23_eq (c : Dev nD) (h : k0_dev23 c < nD) : (⟨k0_dev23 c, h⟩ : Dev nD) = sh 8 c :=
  Fin.ext ((by decide +kernel : ∀ c : Dev nD, k0_dev23 c = (c.val + 8) % 16) c)
theorem dev24_eq (c : Dev nD) (h : k0_dev24 c < nD) : (⟨k0_dev24 c, h⟩ : Dev nD) = sh 9 c :=
  Fin.ext ((by decide +kernel : ∀ c : Dev nD, k0_dev24 c = (c.val + 9) % 16) c)
theorem dev25_eq (c : Dev nD) (h : k0_dev25 c < nD) : (⟨k0_dev25 c, h⟩ : Dev nD) = sh 10 c :=
  Fin.ext ((by decide +kernel : ∀ c : Dev nD, k0_dev25 c = (c.val + 10) % 16) c)
theorem dev26_eq (c : Dev nD) (h : k0_dev26 c < nD) : (⟨k0_dev26 c, h⟩ : Dev nD) = sh 11 c :=
  Fin.ext ((by decide +kernel : ∀ c : Dev nD, k0_dev26 c = (c.val + 11) % 16) c)
theorem dev27_eq (c : Dev nD) (h : k0_dev27 c < nD) : (⟨k0_dev27 c, h⟩ : Dev nD) = sh 12 c :=
  Fin.ext ((by decide +kernel : ∀ c : Dev nD, k0_dev27 c = (c.val + 12) % 16) c)
theorem dev28_eq (c : Dev nD) (h : k0_dev28 c < nD) : (⟨k0_dev28 c, h⟩ : Dev nD) = sh 13 c :=
  Fin.ext ((by decide +kernel : ∀ c : Dev nD, k0_dev28 c = (c.val + 13) % 16) c)
theorem dev29_eq (c : Dev nD) (h : k0_dev29 c < nD) : (⟨k0_dev29 c, h⟩ : Dev nD) = sh 14 c :=
  Fin.ext ((by decide +kernel : ∀ c : Dev nD, k0_dev29 c = (c.val + 14) % 16) c)
theorem dev30_eq (c : Dev nD) (h : k0_dev30 c < nD) : (⟨k0_dev30 c, h⟩ : Dev nD) = sh 15 c :=
  Fin.ext ((by decide +kernel : ∀ c : Dev nD, k0_dev30 c = (c.val + 15) % 16) c)

end Cert.Kernel.Hand
-- ==== Proof.Kernel.Body.lean ====
/-
One device's body, stepped from the ghost state to the scratch whole again and the result stored.

In program order: the fifteen barrier signals (signal `d` hands slot `16 - d` of the scratch to the device `d`
places ahead); the column maxima of the block stored in slot 0; the wait for the fifteen units of the device's own
barrier, which brings slot `d` of the device `d` places ahead, for every `d`; the fifteen copies of slot 0, each
with its own share of it; the fold of the sixteen rows, each landing waited for before its slot is read; the
result stored; the fifteen send waits, which bring the shares of slot 0 back. Then every cell's round is over:
the cells close, the shares and the slots are put back together.
-/
import proofs.«900909_g7700000000000910_dist_max_ax0_shard0_i_m1536_n768_v7x_i16_f32_1_alg».proof.Proof.Kernel.ChainTable
import proofs.«900909_g7700000000000910_dist_max_ax0_shard0_i_m1536_n768_v7x_i16_f32_1_alg».proof.Proof.Kernel.MeshTable

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × Fin 33 → ℕ)

abbrev rx : Rect S1536x768 := Rect.unit (s := S1536x768) ![0, 0] S1536x768.size inb_S1536x768_S1536x768_0_0
abbrev ro : Rect S1x768 := Rect.unit (s := S1x768) ![0, 0] S1x768.size inb_S1x768_S1x768_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1536x768 .f32).view.readAt (Elt F) rx.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1x768 .f32).access ro : View sig .tc _ _ _).write (Elt F) f w Finset.univ = w :=
  Memref.write_access_unit_zero_univ (Elt F) cc0_stg1_0 hz _ f w
omit [FloatOps F] in
/-- A load through slot `k`'s rectangle reads the slot's row back. -/
theorem read_slot (k : ℕ) (hk : k < 16) (h) (v : Vec F S1x1x768 .f32) :
    ((rM : Memref sig .tc .vmem S16x1x768 .f32).access (slotR k h)).read (Elt F) (putAt k v) = v := by
  rw [putAt_eq k hk h]; exact View.read_write_univ _ _

omit [FloatOps F] in
/-- The elements a load of slot `k` touches, and those a store through it touches, are the slot's. -/
theorem setOn_slot (k : ℕ) (h) : (rM : Memref sig .tc .vmem S16x1x768 .f32).view.setOn (slotR k h).toLoadRect.set = slotSet k := by
  have h1 := View.set_slice (v := (rM : Memref sig .tc .vmem S16x1x768 .f32).view) (slotR k h)
  have h2 := access_set k h
  unfold View.setOn
  exact h1.symm.trans h2
omit [FloatOps F] in
theorem store_sub (k : ℕ) (h) : ((rM : Memref sig .tc .vmem S16x1x768 .f32).access (slotR k h)).setOn Finset.univ ⊆ slotSet k := by
  rw [View.setOn_univ]; exact (access_set k h).subset

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 15) ∗ (bigSep (Finset.Icc 1 15) fun k => cred (tallyAt (recvCell c k) () N))
      ∗ levAts L lv ∗ ∃ f, scr c Finset.univ fullShare f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xblk m c) ∗ stg c cc0_stg1_0 (outAt m c))

set_option maxHeartbeats 16000000 in
set_option maxRecDepth 65536 in
/-- The body, stepped in program order from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  unfold bodyPre ghost linear payToks
  iintro ⟨⟨⟨⟨#HR, Hat, HtB, HtR, HtS⟩, HcB, HcR, #Hlev, ⟨%f0, Hscr⟩⟩, Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = oweB c 1 from rfl]
  -- the bundles opened: positions, tokens, credits, and the scratch as its sixteen slots
  ihave Hat := (Entails.of_eq (atPos_chain c)) $$ Hat
  icases Hat with ⟨HaB, Has0, Has1, Has2, Has3, Has4, Has5, Has6, Has7, Has8, Has9, Has10, Has11, Has12, Has13, Has14, Has15,
    Har0, Har1, Har2, Har3, Har4, Har5, Har6, Har7, Har8, Har9, Har10, Har11, Har12, Har13, Har14, Har15⟩
  ihave HtB := (Entails.of_eq (tokB_chain c)) $$ HtB
  icases HtB with ⟨Hb1, Hb2, Hb3, Hb4, Hb5, Hb6, Hb7, Hb8, Hb9, Hb10, Hb11, Hb12, Hb13, Hb14, Hb15⟩
  ihave HtR := (Entails.of_eq (tokR_chain c)) $$ HtR
  icases HtR with ⟨Hr1, Hr2, Hr3, Hr4, Hr5, Hr6, Hr7, Hr8, Hr9, Hr10, Hr11, Hr12, Hr13, Hr14, Hr15⟩
  ihave HtS := (Entails.of_eq (tokS_chain c)) $$ HtS
  icases HtS with ⟨Hs1, Hs2, Hs3, Hs4, Hs5, Hs6, Hs7, Hs8, Hs9, Hs10, Hs11, Hs12, Hs13, Hs14, Hs15⟩
  ihave HcR := (Entails.of_eq (credR_chain c)) $$ HcR
  icases HcR with ⟨Hc1, Hc2, Hc3, Hc4, Hc5, Hc6, Hc7, Hc8, Hc9, Hc10, Hc11, Hc12, Hc13, Hc14, Hc15⟩
  ihave Hscr := (Entails.of_eq ((scr_slots c fullShare f0).trans (slots_chain c fullShare f0))) $$ Hscr
  icases Hscr with ⟨Hl0, Hl1, Hl2, Hl3, Hl4, Hl5, Hl6, Hl7, Hl8, Hl9, Hl10, Hl11, Hl12, Hl13, Hl14, Hl15⟩
  -- the fifteen signals: signal d hands over slot 16 - d
  iapply (stepSig m K c _ 1 ⟨by decide, by decide⟩ (dev1_eq c _) _ (by decide) W f0) $$ HR HO Hb1 Hl15; iintro HO
  iapply (stepSig m K c _ 2 ⟨by decide, by decide⟩ (dev2_eq c _) _ (by decide) W f0) $$ HR HO Hb2 Hl14; iintro HO
  iapply (stepSig m K c _ 3 ⟨by decide, by decide⟩ (dev3_eq c _) _ (by decide) W f0) $$ HR HO Hb3 Hl13; iintro HO
  iapply (stepSig m K c _ 4 ⟨by decide, by decide⟩ (dev4_eq c _) _ (by decide) W f0) $$ HR HO Hb4 Hl12; iintro HO
  iapply (stepSig m K c _ 5 ⟨by decide, by decide⟩ (dev5_eq c _) _ (by decide) W f0) $$ HR HO Hb5 Hl11; iintro HO
  iapply (stepSig m K c _ 6 ⟨by decide, by decide⟩ (dev6_eq c _) _ (by decide) W f0) $$ HR HO Hb6 Hl10; iintro HO
  iapply (stepSig m K c _ 7 ⟨by decide, by decide⟩ (dev7_eq c _) _ (by decide) W f0) $$ HR HO Hb7 Hl9; iintro HO
  iapply (stepSig m K c _ 8 ⟨by decide, by decide⟩ (dev8_eq c _) _ (by decide) W f0) $$ HR HO Hb8 Hl8; iintro HO
  iapply (stepSig m K c _ 9 ⟨by decide, by decide⟩ (dev9_eq c _) _ (by decide) W f0) $$ HR HO Hb9 Hl7; iintro HO
  iapply (stepSig m K c _ 10 ⟨by decide, by decide⟩ (dev10_eq c _) _ (by decide) W f0) $$ HR HO Hb10 Hl6; iintro HO
  iapply (stepSig m K c _ 11 ⟨by decide, by decide⟩ (dev11_eq c _) _ (by decide) W f0) $$ HR HO Hb11 Hl5; iintro HO
  iapply (stepSig m K c _ 12 ⟨by decide, by decide⟩ (dev12_eq c _) _ (by decide) W f0) $$ HR HO Hb12 Hl4; iintro HO
  iapply (stepSig m K c _ 13 ⟨by decide, by decide⟩ (dev13_eq c _) _ (by decide) W f0) $$ HR HO Hb13 Hl3; iintro HO
  iapply (stepSig m K c _ 14 ⟨by decide, by decide⟩ (dev14_eq c _) _ (by decide) W f0) $$ HR HO Hb14 Hl2; iintro HO
  iapply (stepSig m K c _ 15 ⟨by decide, by decide⟩ (dev15_eq c _) _ (by decide) W f0) $$ HR HO Hb15 Hl1; iintro HO
  ihave HO := (Entails.of_eq (congrArg (fun O => (owes (c : Thread nD τ) O W : sProp 𝕄)) (oweB_done c))) $$ HO
  -- the block's column maxima stored in slot 0
  iapply (wp_load 𝒱₀ (c : Thread nD τ) none Set.univ (m := xM) (Finset.subset_univ _)) $$ Hx; iintro Hx
  rw [read_x]
  iapply (wp_load 𝒱₀ (c : Thread nD τ) none Set.univ (m := rM) (S := slotSet 0) (setOn_slot 0 _).subset) $$ Hl0; iintro Hl0
  iapply (wp_store 𝒱₀ (c : Thread nD τ) none Set.univ (m := rM) (r := slotR 0 (slot_inb 0 (of_decide_eq_true rfl))) (Mk := Finset.univ) (S := slotSet 0)
      (store_sub 0 _)) $$ Hl0; iintro Hl0
  ihave Hl0 := (Entails.of_eq ((scr_congr c (slotSet 0) fullShare (write_putAt 0 (by decide) _ f0 (k0_pay1 (xblk m c)))).trans
    (show (scr c (slotSet 0) fullShare (putAt 0 (k0_pay1 (xblk m c))) : sProp 𝕄) = scr c (slotSet 0) (rest 0) (putAt 0 (locmax m c)) from rfl))) $$ Hl0
  -- the wait for the fifteen units of its own barrier, owing the fifteen landings: slot d of the device d places ahead comes with it
  iapply (Rounds.wp_wait_rest_token 𝒱₀ ER (sched m) (c : Thread nD τ) none (κ := K (c, 0))
      (wpE_semWait_eq 𝒱₀ (c : Thread nD τ) none Set.univ) (Set.mem_univ _) () (O := oweR c 1) (W := W) (R := 0) (m := 0) (T := ∅)
      (by rw [expect_bar]; decide)) $$ [HcB HO HaB]
  · isplitr; · iapply (inv_at m K (c, 0)); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  icases Hp with ⟨Hp1, Hp2, Hp3, Hp4, Hp5, Hp6, Hp7, Hp8, Hp9, Hp10, Hp11, Hp12, Hp13, Hp14, Hp15⟩
  unfold barPay
  icases Hp15 with ⟨⟨%fn1, Hd1⟩, -⟩
  icases Hp14 with ⟨⟨%fn2, Hd2⟩, -⟩
  icases Hp13 with ⟨⟨%fn3, Hd3⟩, -⟩
  icases Hp12 with ⟨⟨%fn4, Hd4⟩, -⟩
  icases Hp11 with ⟨⟨%fn5, Hd5⟩, -⟩
  icases Hp10 with ⟨⟨%fn6, Hd6⟩, -⟩
  icases Hp9 with ⟨⟨%fn7, Hd7⟩, -⟩
  icases Hp8 with ⟨⟨%fn8, Hd8⟩, -⟩
  icases Hp7 with ⟨⟨%fn9, Hd9⟩, -⟩
  icases Hp6 with ⟨⟨%fn10, Hd10⟩, -⟩
  icases Hp5 with ⟨⟨%fn11, Hd11⟩, -⟩
  icases Hp4 with ⟨⟨%fn12, Hd12⟩, -⟩
  icases Hp3 with ⟨⟨%fn13, Hd13⟩, -⟩
  icases Hp2 with ⟨⟨%fn14, Hd14⟩, -⟩
  icases Hp1 with ⟨⟨%fn15, Hd15⟩, -⟩
  -- the fifteen copies of slot 0, each with its share of it
  ihave Hsp := (scr_share c (slotSet 0) 0 (putAt 0 (locmax m c))).1 $$ Hl0; icases Hsp with ⟨Hq1, Hl0⟩
  iapply (stepSend m K c _ 1 ⟨by decide, by decide⟩ (dev16_eq c _) _ _ (by decide) (by decide) _ _ fn1 _) $$ HR Hq1 Hd1 HO Hs1 Hr1; iintro ⟨Hcs1, HO⟩
  ihave Hsp := (scr_share c (slotSet 0) 1 (putAt 0 (locmax m c))).1 $$ Hl0; icases Hsp with ⟨Hq2, Hl0⟩
  iapply (stepSend m K c _ 2 ⟨by decide, by decide⟩ (dev17_eq c _) _ _ (by decide) (by decide) _ _ fn2 _) $$ HR Hq2 Hd2 HO Hs2 Hr2; iintro ⟨Hcs2, HO⟩
  ihave Hsp := (scr_share c (slotSet 0) 2 (putAt 0 (locmax m c))).1 $$ Hl0; icases Hsp with ⟨Hq3, Hl0⟩
  iapply (stepSend m K c _ 3 ⟨by decide, by decide⟩ (dev18_eq c _) _ _ (by decide) (by decide) _ _ fn3 _) $$ HR Hq3 Hd3 HO Hs3 Hr3; iintro ⟨Hcs3, HO⟩
  ihave Hsp := (scr_share c (slotSet 0) 3 (putAt 0 (locmax m c))).1 $$ Hl0; icases Hsp with ⟨Hq4, Hl0⟩
  iapply (stepSend m K c _ 4 ⟨by decide, by decide⟩ (dev19_eq c _) _ _ (by decide) (by decide) _ _ fn4 _) $$ HR Hq4 Hd4 HO Hs4 Hr4; iintro ⟨Hcs4, HO⟩
  ihave Hsp := (scr_share c (slotSet 0) 4 (putAt 0 (locmax m c))).1 $$ Hl0; icases Hsp with ⟨Hq5, Hl0⟩
  iapply (stepSend m K c _ 5 ⟨by decide, by decide⟩ (dev20_eq c _) _ _ (by decide) (by decide) _ _ fn5 _) $$ HR Hq5 Hd5 HO Hs5 Hr5; iintro ⟨Hcs5, HO⟩
  ihave Hsp := (scr_share c (slotSet 0) 5 (putAt 0 (locmax m c))).1 $$ Hl0; icases Hsp with ⟨Hq6, Hl0⟩
  iapply (stepSend m K c _ 6 ⟨by decide, by decide⟩ (dev21_eq c _) _ _ (by decide) (by decide) _ _ fn6 _) $$ HR Hq6 Hd6 HO Hs6 Hr6; iintro ⟨Hcs6, HO⟩
  ihave Hsp := (scr_share c (slotSet 0) 6 (putAt 0 (locmax m c))).1 $$ Hl0; icases Hsp with ⟨Hq7, Hl0⟩
  iapply (stepSend m K c _ 7 ⟨by decide, by decide⟩ (dev22_eq c _) _ _ (by decide) (by decide) _ _ fn7 _) $$ HR Hq7 Hd7 HO Hs7 Hr7; iintro ⟨Hcs7, HO⟩
  ihave Hsp := (scr_share c (slotSet 0) 7 (putAt 0 (locmax m c))).1 $$ Hl0; icases Hsp with ⟨Hq8, Hl0⟩
  iapply (stepSend m K c _ 8 ⟨by decide, by decide⟩ (dev23_eq c _) _ _ (by decide) (by decide) _ _ fn8 _) $$ HR Hq8 Hd8 HO Hs8 Hr8; iintro ⟨Hcs8, HO⟩
  ihave Hsp := (scr_share c (slotSet 0) 8 (putAt 0 (locmax m c))).1 $$ Hl0; icases Hsp with ⟨Hq9, Hl0⟩
  iapply (stepSend m K c _ 9 ⟨by decide, by decide⟩ (dev24_eq c _) _ _ (by decide) (by decide) _ _ fn9 _) $$ HR Hq9 Hd9 HO Hs9 Hr9; iintro ⟨Hcs9, HO⟩
  ihave Hsp := (scr_share c (slotSet 0) 9 (putAt 0 (locmax m c))).1 $$ Hl0; icases Hsp with ⟨Hq10, Hl0⟩
  iapply (stepSend m K c _ 10 ⟨by decide, by decide⟩ (dev25_eq c _) _ _ (by decide) (by decide) _ _ fn10 _) $$ HR Hq10 Hd10 HO Hs10 Hr10; iintro ⟨Hcs10, HO⟩
  ihave Hsp := (scr_share c (slotSet 0) 10 (putAt 0 (locmax m c))).1 $$ Hl0; icases Hsp with ⟨Hq11, Hl0⟩
  iapply (stepSend m K c _ 11 ⟨by decide, by decide⟩ (dev26_eq c _) _ _ (by decide) (by decide) _ _ fn11 _) $$ HR Hq11 Hd11 HO Hs11 Hr11; iintro ⟨Hcs11, HO⟩
  ihave Hsp := (scr_share c (slotSet 0) 11 (putAt 0 (locmax m c))).1 $$ Hl0; icases Hsp with ⟨Hq12, Hl0⟩
  iapply (stepSend m K c _ 12 ⟨by decide, by decide⟩ (dev27_eq c _) _ _ (by decide) (by decide) _ _ fn12 _) $$ HR Hq12 Hd12 HO Hs12 Hr12; iintro ⟨Hcs12, HO⟩
  ihave Hsp := (scr_share c (slotSet 0) 12 (putAt 0 (locmax m c))).1 $$ Hl0; icases Hsp with ⟨Hq13, Hl0⟩
  iapply (stepSend m K c _ 13 ⟨by decide, by decide⟩ (dev28_eq c _) _ _ (by decide) (by decide) _ _ fn13 _) $$ HR Hq13 Hd13 HO Hs13 Hr13; iintro ⟨Hcs13, HO⟩
  ihave Hsp := (scr_share c (slotSet 0) 13 (putAt 0 (locmax m c))).1 $$ Hl0; icases Hsp with ⟨Hq14, Hl0⟩
  iapply (stepSend m K c _ 14 ⟨by decide, by decide⟩ (dev29_eq c _) _ _ (by decide) (by decide) _ _ fn14 _) $$ HR Hq14 Hd14 HO Hs14 Hr14; iintro ⟨Hcs14, HO⟩
  ihave Hsp := (scr_share c (slotSet 0) 14 (putAt 0 (locmax m c))).1 $$ Hl0; icases Hsp with ⟨Hq15, Hl0⟩
  iapply (stepSend m K c _ 15 ⟨by decide, by decide⟩ (dev30_eq c _) _ _ (by decide) (by decide) _ _ fn15 _) $$ HR Hq15 Hd15 HO Hs15 Hr15; iintro ⟨Hcs15, HO⟩
  ihave HO := (Entails.of_eq (congrArg (fun O => (owes (c : Thread nD τ) O (insert (SemLoc.reg barS, ()) W) : sProp 𝕄)) (oweR_done c))) $$ HO
  -- the fold: slot 0 first, then each landing waited for before its slot is read
  iapply (wp_load 𝒱₀ (c : Thread nD τ) none Set.univ (m := rM) (S := slotSet 0) (setOn_slot 0 _).subset) $$ Hl0; iintro Hl0
  rw [read_putAt 0 (by decide) _ (locmax m c)]
  iapply (stepRecv m K c 1 ⟨by decide, by decide⟩ _ (by decide) (by rfl) _) $$ HR Hc1 HO Har1; iintro ⟨HO, Har1, Hv1⟩; unfold recvPay
  iapply (wp_load 𝒱₀ (c : Thread nD τ) none Set.univ (m := rM) (S := slotSet 1) (setOn_slot 1 _).subset) $$ Hv1; iintro Hv1
  rw [read_putAt 1 (by decide) _ (rowAt m c 1)]
  iapply (stepRecv m K c 15 ⟨by decide, by decide⟩ _ (by decide) (by rfl) _) $$ HR Hc15 HO Har15; iintro ⟨HO, Har15, Hv15⟩; unfold recvPay
  iapply (wp_load 𝒱₀ (c : Thread nD τ) none Set.univ (m := rM) (S := slotSet 15) (setOn_slot 15 _).subset) $$ Hv15; iintro Hv15
  rw [read_putAt 15 (by decide) _ (rowAt m c 15)]
  iapply (stepRecv m K c 2 ⟨by decide, by decide⟩ _ (by decide) (by rfl) _) $$ HR Hc2 HO Har2; iintro ⟨HO, Har2, Hv2⟩; unfold recvPay
  iapply (wp_load 𝒱₀ (c : Thread nD τ) none Set.univ (m := rM) (S := slotSet 2) (setOn_slot 2 _).subset) $$ Hv2; iintro Hv2
  rw [read_putAt 2 (by decide) _ (rowAt m c 2)]
  iapply (stepRecv m K c 14 ⟨by decide, by decide⟩ _ (by decide) (by rfl) _) $$ HR Hc14 HO Har14; iintro ⟨HO, Har14, Hv14⟩; unfold recvPay
  iapply (wp_load 𝒱₀ (c : Thread nD τ) none Set.univ (m := rM) (S := slotSet 14) (setOn_slot 14 _).subset) $$ Hv14; iintro Hv14
  rw [read_putAt 14 (by decide) _ (rowAt m c 14)]
  iapply (stepRecv m K c 3 ⟨by decide, by decide⟩ _ (by decide) (by rfl) _) $$ HR Hc3 HO Har3; iintro ⟨HO, Har3, Hv3⟩; unfold recvPay
  iapply (wp_load 𝒱₀ (c : Thread nD τ) none Set.univ (m := rM) (S := slotSet 3) (setOn_slot 3 _).subset) $$ Hv3; iintro Hv3
  rw [read_putAt 3 (by decide) _ (rowAt m c 3)]
  iapply (stepRecv m K c 13 ⟨by decide, by decide⟩ _ (by decide) (by rfl) _) $$ HR Hc13 HO Har13; iintro ⟨HO, Har13, Hv13⟩; unfold recvPay
  iapply (wp_load 𝒱₀ (c : Thread nD τ) none Set.univ (m := rM) (S := slotSet 13) (setOn_slot 13 _).subset) $$ Hv13; iintro Hv13
  rw [read_putAt 13 (by decide) _ (rowAt m c 13)]
  iapply (stepRecv m K c 4 ⟨by decide, by decide⟩ _ (by decide) (by rfl) _) $$ HR Hc4 HO Har4; iintro ⟨HO, Har4, Hv4⟩; unfold recvPay
  iapply (wp_load 𝒱₀ (c : Thread nD τ) none Set.univ (m := rM) (S := slotSet 4) (setOn_slot 4 _).subset) $$ Hv4; iintro Hv4
  rw [read_putAt 4 (by decide) _ (rowAt m c 4)]
  iapply (stepRecv m K c 12 ⟨by decide, by decide⟩ _ (by decide) (by rfl) _) $$ HR Hc12 HO Har12; iintro ⟨HO, Har12, Hv12⟩; unfold recvPay
  iapply (wp_load 𝒱₀ (c : Thread nD τ) none Set.univ (m := rM) (S := slotSet 12) (setOn_slot 12 _).subset) $$ Hv12; iintro Hv12
  rw [read_putAt 12 (by decide) _ (rowAt m c 12)]
  iapply (stepRecv m K c 5 ⟨by decide, by decide⟩ _ (by decide) (by rfl) _) $$ HR Hc5 HO Har5; iintro ⟨HO, Har5, Hv5⟩; unfold recvPay
  iapply (wp_load 𝒱₀ (c : Thread nD τ) none Set.univ (m := rM) (S := slotSet 5) (setOn_slot 5 _).subset) $$ Hv5; iintro Hv5
  rw [read_putAt 5 (by decide) _ (rowAt m c 5)]
  iapply (stepRecv m K c 11 ⟨by decide, by decide⟩ _ (by decide) (by rfl) _) $$ HR Hc11 HO Har11; iintro ⟨HO, Har11, Hv11⟩; unfold recvPay
  iapply (wp_load 𝒱₀ (c : Thread nD τ) none Set.univ (m := rM) (S := slotSet 11) (setOn_slot 11 _).subset) $$ Hv11; iintro Hv11
  rw [read_putAt 11 (by decide) _ (rowAt m c 11)]
  iapply (stepRecv m K c 6 ⟨by decide, by decide⟩ _ (by decide) (by rfl) _) $$ HR Hc6 HO Har6; iintro ⟨HO, Har6, Hv6⟩; unfold recvPay
  iapply (wp_load 𝒱₀ (c : Thread nD τ) none Set.univ (m := rM) (S := slotSet 6) (setOn_slot 6 _).subset) $$ Hv6; iintro Hv6
  rw [read_putAt 6 (by decide) _ (rowAt m c 6)]
  iapply (stepRecv m K c 10 ⟨by decide, by decide⟩ _ (by decide) (by rfl) _) $$ HR Hc10 HO Har10; iintro ⟨HO, Har10, Hv10⟩; unfold recvPay
  iapply (wp_load 𝒱₀ (c : Thread nD τ) none Set.univ (m := rM) (S := slotSet 10) (setOn_slot 10 _).subset) $$ Hv10; iintro Hv10
  rw [read_putAt 10 (by decide) _ (rowAt m c 10)]
  iapply (stepRecv m K c 7 ⟨by decide, by decide⟩ _ (by decide) (by rfl) _) $$ HR Hc7 HO Har7; iintro ⟨HO, Har7, Hv7⟩; unfold recvPay
  iapply (wp_load 𝒱₀ (c : Thread nD τ) none Set.univ (m := rM) (S := slotSet 7) (setOn_slot 7 _).subset) $$ Hv7; iintro Hv7
  rw [read_putAt 7 (by decide) _ (rowAt m c 7)]
  iapply (stepRecv m K c 9 ⟨by decide, by decide⟩ _ (by decide) (by rfl) _) $$ HR Hc9 HO Har9; iintro ⟨HO, Har9, Hv9⟩; unfold recvPay
  iapply (wp_load 𝒱₀ (c : Thread nD τ) none Set.univ (m := rM) (S := slotSet 9) (setOn_slot 9 _).subset) $$ Hv9; iintro Hv9
  rw [read_putAt 9 (by decide) _ (rowAt m c 9)]
  iapply (stepRecv m K c 8 ⟨by decide, by decide⟩ _ (by decide) (by rfl) _) $$ HR Hc8 HO Har8; iintro ⟨HO, Har8, Hv8⟩; unfold recvPay
  iapply (wp_load 𝒱₀ (c : Thread nD τ) none Set.univ (m := rM) (S := slotSet 8) (setOn_slot 8 _).subset) $$ Hv8; iintro Hv8
  rw [read_putAt 8 (by decide) _ (rowAt m c 8)]
  -- the result stored
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out]
  -- the fifteen send waits: the shares of slot 0 come back
  iapply (stepSendWait m K c 1 ⟨by decide, by decide⟩ _ (by decide) (by rfl) _) $$ HR Hcs1 HO Has1; iintro ⟨HO, Has1, Hq1⟩
  iapply (stepSendWait m K c 2 ⟨by decide, by decide⟩ _ (by decide) (by rfl) _) $$ HR Hcs2 HO Has2; iintro ⟨HO, Has2, Hq2⟩
  iapply (stepSendWait m K c 3 ⟨by decide, by decide⟩ _ (by decide) (by rfl) _) $$ HR Hcs3 HO Has3; iintro ⟨HO, Has3, Hq3⟩
  iapply (stepSendWait m K c 4 ⟨by decide, by decide⟩ _ (by decide) (by rfl) _) $$ HR Hcs4 HO Has4; iintro ⟨HO, Has4, Hq4⟩
  iapply (stepSendWait m K c 5 ⟨by decide, by decide⟩ _ (by decide) (by rfl) _) $$ HR Hcs5 HO Has5; iintro ⟨HO, Has5, Hq5⟩
  iapply (stepSendWait m K c 6 ⟨by decide, by decide⟩ _ (by decide) (by rfl) _) $$ HR Hcs6 HO Has6; iintro ⟨HO, Has6, Hq6⟩
  iapply (stepSendWait m K c 7 ⟨by decide, by decide⟩ _ (by decide) (by rfl) _) $$ HR Hcs7 HO Has7; iintro ⟨HO, Has7, Hq7⟩
  iapply (stepSendWait m K c 8 ⟨by decide, by decide⟩ _ (by decide) (by rfl) _) $$ HR Hcs8 HO Has8; iintro ⟨HO, Has8, Hq8⟩
  iapply (stepSendWait m K c 9 ⟨by decide, by decide⟩ _ (by decide) (by rfl) _) $$ HR Hcs9 HO Has9; iintro ⟨HO, Has9, Hq9⟩
  iapply (stepSendWait m K c 10 ⟨by decide, by decide⟩ _ (by decide) (by rfl) _) $$ HR Hcs10 HO Has10; iintro ⟨HO, Has10, Hq10⟩
  iapply (stepSendWait m K c 11 ⟨by decide, by decide⟩ _ (by decide) (by rfl) _) $$ HR Hcs11 HO Has11; iintro ⟨HO, Has11, Hq11⟩
  iapply (stepSendWait m K c 12 ⟨by decide, by decide⟩ _ (by decide) (by rfl) _) $$ HR Hcs12 HO Has12; iintro ⟨HO, Has12, Hq12⟩
  iapply (stepSendWait m K c 13 ⟨by decide, by decide⟩ _ (by decide) (by rfl) _) $$ HR Hcs13 HO Has13; iintro ⟨HO, Has13, Hq13⟩
  iapply (stepSendWait m K c 14 ⟨by decide, by decide⟩ _ (by decide) (by rfl) _) $$ HR Hcs14 HO Has14; iintro ⟨HO, Has14, Hq14⟩
  iapply (stepSendWait m K c 15 ⟨by decide, by decide⟩ _ (by decide) (by rfl) _) $$ HR Hcs15 HO Has15; iintro ⟨HO, Has15, Hq15⟩
  -- every cell's round is over: the kernel's own thirty-two cells close, their counters back at zero
  imod (close_send0 m K c) $$ HR Has0 with Hzs0
  imod (close_send m K c 1 ⟨by decide, by decide⟩) $$ HR Has1 with Hzs1
  imod (close_send m K c 2 ⟨by decide, by decide⟩) $$ HR Has2 with Hzs2
  imod (close_send m K c 3 ⟨by decide, by decide⟩) $$ HR Has3 with Hzs3
  imod (close_send m K c 4 ⟨by decide, by decide⟩) $$ HR Has4 with Hzs4
  imod (close_send m K c 5 ⟨by decide, by decide⟩) $$ HR Has5 with Hzs5
  imod (close_send m K c 6 ⟨by decide, by decide⟩) $$ HR Has6 with Hzs6
  imod (close_send m K c 7 ⟨by decide, by decide⟩) $$ HR Has7 with Hzs7
  imod (close_send m K c 8 ⟨by decide, by decide⟩) $$ HR Has8 with Hzs8
  imod (close_send m K c 9 ⟨by decide, by decide⟩) $$ HR Has9 with Hzs9
  imod (close_send m K c 10 ⟨by decide, by decide⟩) $$ HR Has10 with Hzs10
  imod (close_send m K c 11 ⟨by decide, by decide⟩) $$ HR Has11 with Hzs11
  imod (close_send m K c 12 ⟨by decide, by decide⟩) $$ HR Has12 with Hzs12
  imod (close_send m K c 13 ⟨by decide, by decide⟩) $$ HR Has13 with Hzs13
  imod (close_send m K c 14 ⟨by decide, by decide⟩) $$ HR Has14 with Hzs14
  imod (close_send m K c 15 ⟨by decide, by decide⟩) $$ HR Has15 with Hzs15
  imod (close_recv0 m K c) $$ HR Har0 with Hzr0
  imod (close_recv m K c 1 ⟨by decide, by decide⟩) $$ HR Har1 with Hzr1
  imod (close_recv m K c 2 ⟨by decide, by decide⟩) $$ HR Har2 with Hzr2
  imod (close_recv m K c 3 ⟨by decide, by decide⟩) $$ HR Har3 with Hzr3
  imod (close_recv m K c 4 ⟨by decide, by decide⟩) $$ HR Har4 with Hzr4
  imod (close_recv m K c 5 ⟨by decide, by decide⟩) $$ HR Har5 with Hzr5
  imod (close_recv m K c 6 ⟨by decide, by decide⟩) $$ HR Har6 with Hzr6
  imod (close_recv m K c 7 ⟨by decide, by decide⟩) $$ HR Har7 with Hzr7
  imod (close_recv m K c 8 ⟨by decide, by decide⟩) $$ HR Har8 with Hzr8
  imod (close_recv m K c 9 ⟨by decide, by decide⟩) $$ HR Har9 with Hzr9
  imod (close_recv m K c 10 ⟨by decide, by decide⟩) $$ HR Har10 with Hzr10
  imod (close_recv m K c 11 ⟨by decide, by decide⟩) $$ HR Har11 with Hzr11
  imod (close_recv m K c 12 ⟨by decide, by decide⟩) $$ HR Har12 with Hzr12
  imod (close_recv m K c 13 ⟨by decide, by decide⟩) $$ HR Har13 with Hzr13
  imod (close_recv m K c 14 ⟨by decide, by decide⟩) $$ HR Har14 with Hzr14
  imod (close_recv m K c 15 ⟨by decide, by decide⟩) $$ HR Har15 with Hzr15
  -- slot 0's shares together again
  unfold sendPay
  ihave Hl0 := (scr_unshare c (slotSet 0) (putAt 0 (locmax m c)) 15) $$ [Hl0 Hq1 Hq2 Hq3 Hq4 Hq5 Hq6 Hq7 Hq8 Hq9 Hq10 Hq11 Hq12 Hq13 Hq14 Hq15]
  · isplitl [Hl0]; · iexact Hl0
    iapply (Entails.of_eq (shares_chain c (slotSet 0) (putAt 0 (locmax m c))).symm)
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  -- and the sixteen slots one buffer again
  ihave Hscr := (scr_join m c) $$ [Hl0 Hv1 Hv2 Hv3 Hv4 Hv5 Hv6 Hv7 Hv8 Hv9 Hv10 Hv11 Hv12 Hv13 Hv14 Hv15]
  · iapply (Entails.of_eq (final_chain m c).symm)
    isplitl [Hl0]; · iexact Hl0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    iexact Hv15
  rw [wp_ret]; imodintro
  iapply Hk
  unfold bodyPost Φ₁ Dat.owesAt Pipeline.owesWithin
  rw [show (dats m 0 c).owed t₀.succ = 0 from rfl]
  isplitr [HO Hx Hout]
  · isplitl [Hscr]; · iexact Hscr
    iapply (Entails.of_eq (semVal_chain (F := F) c).symm)
    isplitl [Hzs0]; · iexact Hzs0
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzs7]; · iexact Hzs7
    isplitl [Hzs8]; · iexact Hzs8
    isplitl [Hzs9]; · iexact Hzs9
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    isplitl [Hzr7]; · iexact Hzr7
    isplitl [Hzr8]; · iexact Hzr8
    isplitl [Hzr9]; · iexact Hzr9
    isplitl [Hzr10]; · iexact Hzr10
    isplitl [Hzr11]; · iexact Hzr11
    isplitl [Hzr12]; · iexact Hzr12
    isplitl [Hzr13]; · iexact Hzr13
    isplitl [Hzr14]; · iexact Hzr14
    iexact Hzr15
  isplitl [HO]
  · iexists _
    isplitr
    swap
    · iexact HO
    · ipureintro; exact fun _ _ => Or.inl trivial
  isplitl [Hx]
  · iexists _; isplitr; · (ipureintro; rfl)
    iexact Hx
  iexists _; isplitr; · (ipureintro; rfl)
  iexact Hout

end Body

set_option maxRecDepth 65536 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 65536 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.Kernel.Hand

end
-- ==== Proof.Kernel.Launch.lean ====
/-
The launch. The exchange's cells are the thirty-three cells of each of the sixteen devices. The launch
element funds every cell at round 0 and mints each cell's owner the tokens of its duties; one global step
allocates every cell's invariant and deals the tokens around the ring: the token of duty `d` of a barrier
cell goes to the device `d` places before its owner, the token of the landing in slot `d` likewise, and a
send token stays with its owner. The launch credit of a device is the fifteen units its barrier cell is
owed and a row's credit on each of its fifteen receive cells.
-/
import proofs.«900909_g7700000000000910_dist_max_ax0_shard0_i_m1536_n768_v7x_i16_f32_1_alg».proof.Proof.Kernel.Body

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layout -/

theorem ownSemFacts : Pipeline.OwnSemFacts cfg0.spec osem := by decide

theorem share_eq (c : Dev nD) (w : Fin cfg0.W) : (dats m 0 c).share w = fullShare := by unfold Dat.share; split <;> rfl

/-- The numbering of one device's cells names each cell once. -/
theorem csem_injective : Function.Injective (csem : Fin 33 → SemLoc sig) := by
  intro k k' h
  by_cases hk : k.val = 0 <;> by_cases hk' : k'.val = 0
  · exact Fin.ext (hk.trans hk'.symm)
  · dsimp only [csem] at h; rw [dif_pos hk, dif_neg hk'] at h; cases h
  · dsimp only [csem] at h; rw [dif_neg hk, dif_pos hk'] at h; cases h
  · dsimp only [csem] at h; rw [dif_neg hk, dif_neg hk'] at h
    have h3 : k.val + 1 = k'.val + 1 := congrArg Fin.val (SemLoc.dma.inj h)
    exact Fin.ext (by omega)

theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def ringCells : Finset (GSem nD τ sig) := Finset.univ.map ⟨kcell, kcell_injective⟩

theorem sq_inj {j k : ℕ} (hj : j < 16) (hk : k < 16) (h : sq j = sq k) : j = k := by
  have := congrArg Fin.val h; rw [sq_val j hj, sq_val k hk] at this; omega
theorem rq_inj {j k : ℕ} (hj : j < 16) (hk : k < 16) (h : rq j = rq k) : j = k := by
  have := congrArg Fin.val h; rw [rq_val j hj, rq_val k hk] at this; omega
theorem sq_ne_rq {j k : ℕ} (hj : j < 16) (hk : k < 16) : sq j ≠ rq k := by
  intro h; have := congrArg Fin.val h; rw [sq_val j hj, rq_val k hk] at this; omega

/-- The duty tokens minted to the owner of a device's cells: its barrier's duties `1 … 15`, and the one duty of
    each of its send and receive cells `1 … 15`. -/
abbrev tokOf (x : Dev nD × Fin 3 × Fin 15) : GSem nD τ sig × ℕ × ℕ := match x.2.1 with
  | 0 => (barCell x.1, 0, x.2.2.val + 1)
  | 1 => (sendCell x.1 (x.2.2.val + 1), 0, 0)
  | 2 => (recvCell x.1 (x.2.2.val + 1), 0, 0)

theorem tokOf_injective : Function.Injective (tokOf : Dev nD × Fin 3 × Fin 15 → GSem nD τ sig × ℕ × ℕ) := by
  rintro ⟨c, a, j⟩ ⟨c', a', j'⟩ h
  have hj : j.val < 15 := j.isLt
  have hj' : j'.val < 15 := j'.isLt
  have h1 : c = c' := by
    have := congrArg (fun x : GSem nD τ sig × ℕ × ℕ => x.1.1.1) h
    fin_cases a <;> fin_cases a' <;> exact this
  subst h1
  have hs := congrArg (fun x : GSem nD τ sig × ℕ × ℕ => x.1.2) h
  have hd := congrArg (fun x : GSem nD τ sig × ℕ × ℕ => x.2.2) h
  fin_cases a <;> fin_cases a'
  · have hd' : j.val + 1 = j'.val + 1 := hd
    have : j = j' := Fin.ext (by omega)
    subst this; rfl
  · cases hs
  · cases hs
  · cases hs
  · have hs' : sq (j.val + 1) = sq (j'.val + 1) := SemLoc.dma.inj hs
    have : j = j' := Fin.ext (by have := sq_inj (by omega) (by omega) hs'; omega)
    subst this; rfl
  · have hs' : sq (j.val + 1) = rq (j'.val + 1) := SemLoc.dma.inj hs
    exact absurd hs' (sq_ne_rq (by omega) (by omega))
  · cases hs
  · have hs' : rq (j.val + 1) = sq (j'.val + 1) := SemLoc.dma.inj hs
    exact absurd hs'.symm (sq_ne_rq (by omega) (by omega))
  · have hs' : rq (j.val + 1) = rq (j'.val + 1) := SemLoc.dma.inj hs
    have : j = j' := Fin.ext (by have := rq_inj (by omega) (by omega) hs'; omega)
    subst this; rfl

def ringToks : Finset (GSem nD τ sig × ℕ × ℕ) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.Icc 1 15) fun e => dutyTok ER (barCell c) 0 e)
    ∗ (bigSep (Finset.Icc 1 15) fun k => dutyTok ER (sendCell c k) 0 0)
    ∗ (bigSep (Finset.Icc 1 15) fun k => dutyTok ER (recvCell c k) 0 0))

/-- What the launch element deals device `c`. -/
def G (c : Dev nD) : sProp 𝕄 :=
  iprop((bigSep Finset.univ fun k : Fin 33 => roundState ER (sched m) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- Fifteen summands numbered from 0 are the summands `1 … 15`. -/
theorem bigSep_fin15_Icc (Φ : ℕ → sProp 𝕄) : (bigSep Finset.univ fun j : Fin 15 => Φ (j.val + 1)) = bigSep (Finset.Icc 1 15) Φ := by
  have h : (Finset.univ : Finset (Fin 15)).map ⟨fun j => j.val + 1, fun a b h => Fin.ext (Nat.succ_injective h)⟩ = Finset.Icc 1 15 := by decide
  rw [← h, bigSep_map]; rfl

omit [FloatOps F] in
/-- Summands over devices and a set of numbers may be taken in either order. -/
theorem bigSep_swap (S : Finset ℕ) (Φ : Dev nD → ℕ → sProp 𝕄) :
    (bigSep Finset.univ fun c => bigSep S (Φ c)) = bigSep S fun d => bigSep Finset.univ fun c => Φ c d := by
  induction S using Finset.induction_on with
  | empty => simp only [bigSep_empty]; exact bigSep_emp_const _
  | insert a S ha ih =>
    have e1 : (bigSep (insert a S) fun d => bigSep Finset.univ fun c => Φ c d)
        = iprop((bigSep Finset.univ fun c => Φ c a) ∗ bigSep S fun d => bigSep Finset.univ fun c => Φ c d) := bigSep_insert ha
    have e2 : (bigSep Finset.univ fun c => bigSep (insert a S) (Φ c)) = bigSep Finset.univ fun c => iprop(Φ c a ∗ bigSep S (Φ c)) :=
      bigSep_congr fun c _ => bigSep_insert ha
    rw [e1, e2, bigSep_sep', ih]

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_prod, bigSep_fin3, ← bigSep_fin15_Icc, ← bigSep_fin15_Icc, ← bigSep_fin15_Icc]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Fin 32 => semVal ((c : Thread nD τ), osem j) 0 := rfl

omit [FloatOps F] in
/-- The barrier semaphore is the one semaphore the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Cell `j + 1` of a device is its own semaphore `j`. -/
theorem kcell_succ (c : Dev nD) (j : Fin 32) : kcell (c, j.succ) = ((c : Thread nD τ), osem j) := by
  show ((c : Thread nD τ), csem j.succ) = ((c : Thread nD τ), osem j)
  congr 1

theorem erase_zero33 : (Finset.univ.erase (0 : Fin 33)) = (Finset.univ : Finset (Fin 32)).map (Fin.succEmb 32) := by decide

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  have hS : (bigSep Finset.univ fun j : Fin 32 => (semVal ((c : Thread nD τ), osem j) 0 : sProp 𝕄))
      = bigSep Finset.univ fun j : Fin 32 => semVal (kcell (c, Fin.succEmb 32 j)) 0 :=
    bigSep_congr fun j _ => by rw [show Fin.succEmb 32 j = j.succ from rfl, kcell_succ]
  rw [ownSems0_eq, unscopedSems0_eq, bigSep_univ_at _ (0 : Fin 33), erase_zero33, bigSep_map, hS]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 33 → ℕ) (c : Dev nD) : iprop(records m K ∗ linear c) ⊢ G' m c := by
  unfold G' ghost
  iintro H
  iexists K
  iexact H

omit [FloatOps F] in
/-- Summand `d` of device `c` handed to the device `d` places before it, for every `d = 1 … 15`: each shift permutes the devices. -/
theorem around (Φ : Dev nD → ℕ → sProp 𝕄) :
    (bigSep Finset.univ fun c => bigSep (Finset.Icc 1 15) fun d => Φ c d)
      = bigSep Finset.univ fun c => bigSep (Finset.Icc 1 15) fun d => Φ (sh d c) d := by
  rw [bigSep_swap (Finset.Icc 1 15) Φ, bigSep_swap (Finset.Icc 1 15) fun c d => Φ (sh d c) d]
  exact bigSep_congr fun d hd => bigSep_univ_equiv (shEquiv d (by have := Finset.mem_Icc.mp hd; omega)) fun c => Φ c d

omit [FloatOps F] in
/-- The tokens dealt around the ring. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun c d => (dutyTok ER (barCell c) 0 d : sProp 𝕄)), around (fun c d => (dutyTok ER (recvCell c d) 0 0 : sProp 𝕄))]
  iintro ⟨H1, H2, H3⟩
  isplitl [H1]; · iexact H1
  isplitl [H3]; · iexact H3
  iexact H2

theorem regroup :
    (bigSep Finset.univ fun c : Dev nD => iprop((bigSep Finset.univ fun k => iprop(∃ κ : ℕ, cellInv ER (sched m) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- Units on one cell add up. -/
theorem sum_tallyAt_one (g : GSem nD τ sig) (S : Finset ℕ) : (∑ _d ∈ S, (tallyAt g () 1 : CellTallies nD τ sig Unit)) = tallyAt g () S.card := by
  induction S using Finset.induction_on with
  | empty => rw [Finset.sum_empty, Finset.card_empty, tallyAt_zero]
  | insert a S ha ih => rw [Finset.sum_insert ha, ih, Finset.card_insert_of_notMem ha, tallyAt_add, Nat.add_comm]

omit [FloatOps F] in
/-- The fifteen unit credits on a barrier cell are one credit of fifteen. -/
theorem bar_merge (c : Dev nD) :
    (bigSep (Finset.Icc 1 15) fun _ : ℕ => (cred (tallyAt (barCell c) () 1) : sProp 𝕄)) = cred (tallyAt (barCell c) () 15) := by
  rw [← Pipeline.cred_finsetSum, sum_tallyAt_one, Nat.card_Icc]

omit [FloatOps F] in
theorem creds (c : Dev nD) :
    (Pipeline.launchCred O₀ c : sProp 𝕄)
      ⊢ iprop(cred (tallyAt (barCell c) () 15) ∗ bigSep (Finset.Icc 1 15) fun k => cred (tallyAt (recvCell c k) () N)) := by
  have hO : (O₀ : Dev nD → CellTallies nD τ sig Unit)
      = fun d => (∑ r ∈ Finset.Icc 1 15, tallyAt (recvCell (sh r d) r) () N) + ∑ r ∈ Finset.Icc 1 15, tallyAt (barCell (sh r d)) () 1 := rfl
  have hB : (bigSep (Finset.Icc 1 15) fun r => (Pipeline.launchCred (fun d => tallyAt (barCell (sh r d)) () 1) c : sProp 𝕄))
      ⊢ cred (tallyAt (barCell c) () 15) := by
    rw [← bar_merge]
    exact bigSep_mono fun d hd => Pipeline.launchCred_tallyAt (SemLoc.reg barS) (sh d) (sh (16 - d))
      (sh_compl_sh d (by have := Finset.mem_Icc.mp hd; omega)) (sh_sh_compl d (by have := Finset.mem_Icc.mp hd; omega)) () 1 c
  have hR : (bigSep (Finset.Icc 1 15) fun r => (Pipeline.launchCred (fun d => tallyAt (recvCell (sh r d) r) () N) c : sProp 𝕄))
      ⊢ bigSep (Finset.Icc 1 15) fun k => cred (tallyAt (recvCell c k) () N) :=
    bigSep_mono fun d hd => Pipeline.launchCred_tallyAt (SemLoc.dma (rq d)) (sh d) (sh (16 - d))
      (sh_compl_sh d (by have := Finset.mem_Icc.mp hd; omega)) (sh_sh_compl d (by have := Finset.mem_Icc.mp hd; omega)) () N c
  rw [hO, Pipeline.launchCred_add, Pipeline.launchCred_sum, Pipeline.launchCred_sum]
  iintro ⟨HR, HB⟩
  isplitl [HB]
  · iapply hB; iexact HB
  · iapply hR; iexact HR

/-! ### The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scr
  iintro ⟨⟨%f, Hr⟩, Hz⟩
  isplitr; · iempintro
  isplitl [Hz]; · iexact Hz
  iexists f; iexact Hr

omit [FloatOps F] in
/-- A staging or send cell sits at level 0, below every cell a device owes at launch. -/
theorem mayWait_stage (c : Dev nD) (q : DmaSem sig) (hq : ¬ 18 < q.val) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _) fun g u hg => by
      have hlv : lv ((c : Thread nD τ), SemLoc.dma q) () = 0 := by dsimp only [lv]; rw [if_neg hq]
      have hg' : 0 < (debtR c (Finset.Icc 1 15) + debtB c (Finset.Icc 1 15)) g u := hg
      rcases Pipeline.add_pos_cases hg' with h | h
      · obtain ⟨d, hd, rfl⟩ := debtR_pos (Finset.Subset.refl _) h
        refine ⟨by rw [L_tc]; exact Finset.mem_singleton_self _, ?_⟩
        rw [hlv, lv_recv _ d hd]; decide
      · obtain ⟨d, rfl⟩ := debtB_pos h
        refine ⟨by rw [L_tc]; exact Finset.mem_singleton_self _, ?_⟩
        rw [hlv, lv_bar]; decide
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

set_option maxRecDepth 8000 in
/-- At the compiled mesh of sixteen devices, for any float values, from any memory with zero counters: every weakly
    fair execution of @main terminates, and every final state has each device's arrays at the computed contents. -/
theorem run_main (ρ : Dev nD → PrngReg) : θ_run defs (onTc (τ := τ) (main (F := F))) ⟨m, fun _ => 0, ρ⟩
    (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m c (0 : Fin 2) = m ((c : Thread nD τ).loc main_arg0) :=
  (dats (F := F) m 0 c).arrAt_in (0 : Fin 2) rfl _

/-- The result array is one block, written back whole after the one point: it holds what the body left. -/
theorem finalA_out (c : Dev nD) : finalA m c (1 : Fin 2) = outAt m c := by
  unfold finalA
  rw [show cfg0.N = t₀.val + 1 from rfl, (dats m 0 c).arrAt_succ (1 : Fin 2) t₀,
    if_pos (show (cfg0.win (1 : Fin 2)).flush t₀ = true from by decide)]
  have hz : (fun a => (win0_1.index t₀) a * main_v1.ty.shape.size a) = fun _ => 0 := funext fun a => by fin_cases a <;> decide
  rw [Memref.write_access_unit_zero_univ (Elt F) main_v1 hz]
  rfl

/-- The run read at the two arrays: the result holds the maximum of the sixteen rows, the argument what it held. -/
theorem run_values (ρ : Dev nD → PrngReg) : θ_run defs (onTc (τ := τ) (main (F := F))) ⟨m, fun _ => 0, ρ⟩
    (fun r => ∀ c : Dev nD, r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_out m c), (h c (0 : Fin 2)).trans (finalA_x m c)⟩)
    (run_main m ρ)

/-- info: 'Cert.Kernel.Hand.run_values' depends on axioms: [propext, Classical.choice, Quot.sound] -/
#guard_msgs in #print axioms run_values

end Cert.Kernel.Hand

end
-- ==== Proof.ValueIdeal.lean ====
/-
The value of the distributed column maximum against the one-device reference.

Device c holds rows c * 1536 ... c * 1536 + 1535 of the 24576 x 768 array X. Its local row is, at column j, the maximum
over its 1536 rows (folded from the value the pattern of negative infinity denotes). The result on every device is, at
column j, the maximum of the sixteen local rows; the sixteen rows a device folds are those of all sixteen devices, since
the shifts by 0, 1, ..., 15 places reach every device. The reference is, at column j, the maximum over all 24576 rows,
folded from the same initial value.

A maximum is carried by its universal property: it is below y exactly when every entry (and the initial value) is below
y. Both sides are below y exactly when the initial value and all X (row, j) are, because row = c * 1536 + r pairs the
rows with (device, local row). Two extended reals below the same bounds are equal.
-/
import proofs.«900909_g7700000000000910_dist_max_ax0_shard0_i_m1536_n768_v7x_i16_f32_1_alg».proof.Proof.KernelIdeal.Contents
import proofs.«900909_g7700000000000910_dist_max_ax0_shard0_i_m1536_n768_v7x_i16_f32_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws
import Mathlib.Data.Finset.Fold
import Mathlib.Order.Basic
import Mathlib.Tactic.IntervalCases

noncomputable section

namespace Cert.ValueIdeal

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-- The initial value of both reductions: what the pattern of negative infinity denotes. -/
abbrev bot0 : EReal := FloatOps.ofBits (F := Ideal) .f32 0xFF800000#32

/-- The window is the whole array at its one grid point, so the block read through it is the buffer's contents. -/
theorem xblk_eq (c : Dev nD) :
    xblk (F := Ideal) m c = m ((c.tc : Thread nD τ).loc main_arg0) := by
  unfold xblk
  exact Memref.read_access_unit_zero (Elt Ideal) main_arg0 (funext fun a => Nat.zero_mul _) _ _

/-- Reducing a matrix over its rows: over column j, the source index with row coordinate r inserted is (r, j). -/
theorem lift_rows {n k : ℕ} (h : (⟨2, ![n, k]⟩ : Shape).Reduces [0] ⟨1, ![k]⟩) (j : Fin k)
    (r : Fin ((⟨2, ![n, k]⟩ : Shape).size 0)) :
    h.lift (ix1 j) r = ix2 (n0 := n) (n1 := k) r j := by
  funext a
  apply Fin.ext
  show h.liftVal (ix1 j) r.val a = _
  match a with
  | ⟨0, _⟩ => simp [Shape.Reduces.liftVal]
  | ⟨1, _⟩ => simp [Shape.Reduces.liftVal]

/-- A vector of 768 entries viewed as one row and then as one row of one plane reads, at (0, 0, j), its entry j. -/
theorem cast_row {α : Type} (v : (⟨1, ![768]⟩ : Shape).Idx → α) (h1 : (⟨1, ![768]⟩ : Shape).ShapeCasts ⟨2, ![1, 768]⟩)
    (h2 : (⟨2, ![1, 768]⟩ : Shape).ShapeCasts ⟨3, ![1, 1, 768]⟩) (j : Fin 768) :
    shapeCast ⟨3, ![1, 1, 768]⟩ (shapeCast ⟨2, ![1, 768]⟩ v h1) h2 (ix3 (0 : Fin 1) (0 : Fin 1) j) = v (ix1 j) := by
  rw [shapeCast_ab_1ab_apply, shapeCast_a_1a_apply]

/-- A device's local row at column j: the maximum of its block's column j over the 1536 rows. -/
theorem locmax_apply (c : Dev nD) (j : Fin 768) :
    (locmax (F := Ideal) m c (ix3 (0 : Fin 1) (0 : Fin 1) j) : EReal)
      = (Finset.univ : Finset (Fin 1536)).fold max bot0
          (fun r => (xblk (F := Ideal) m c (ix2 r j) : EReal)) := by
  unfold locmax k0_pay1
  dsimp only
  rw [cast_row]
  refine (Ideal.multiReduction_maximumf_single _ _ reduces_S1536x768_S768 _ _ (ix1 j)).trans ?_
  refine Finset.fold_congr ?_
  intro r _
  show shapeCast S1536x768 (xblk (F := Ideal) m c) _ _ = _
  rw [shapeCast_self, lift_rows]

/-- The reference at column j: the maximum of column j over all 24576 rows. -/
theorem ref_apply (X : (⟨Cert.ReferenceIdeal.S24576x768, .f32⟩ : BufTy).Contents (Elt Ideal)) (j : Fin 768) :
    (Cert.ReferenceIdeal.Read.val_main_v1 (F := Ideal) X (ix2 (0 : Fin 1) j) : EReal)
      = (Finset.univ : Finset (Fin 24576)).fold max bot0 (fun k => (X (ix2 k j) : EReal)) := by
  rw [Cert.ReferenceIdeal.Read.val_main_v1_apply]
  have hr : Cert.ReferenceIdeal.S24576x768.Reduces [0] Cert.ReferenceIdeal.S768 := by decide
  unfold Cert.ReferenceIdeal.Read.val_main_v0
  refine (Host.reduce_eq_fold_single _ X _ _ hr _ _).trans ?_
  refine Finset.fold_congr ?_
  intro k _
  show X (hr.lift _ k) = _
  have hi : Cert.ReferenceIdeal.Read.idx_main_v1 (ix2 (0 : Fin 1) j) = ix1 j := by
    funext a; match a with | ⟨0, _⟩ => rfl
  rw [hi, lift_rows]

section Pays
variable (p : FVec Ideal S1x768 .f32) (a b d : Vec Ideal S1x1x768 .f32) (j : Fin 768) (y : EReal)

/-- One row of one plane viewed as one row reads, at (0, j), its entry (0, 0, j). -/
theorem drop_row (v : Vec Ideal S1x1x768 .f32) (h : S1x1x768.ShapeCasts S1x768) :
    shapeCast S1x768 v h (ix2 (0 : Fin 1) j) = v (ix3 (0 : Fin 1) (0 : Fin 1) j) :=
  shapeCast_1ab_ab_apply v h 0 j

/-- The first fold step, of two rows: below y exactly when both rows are, entry by entry. -/
theorem pay2_le : (k0_pay2 a b (ix2 (0 : Fin 1) j) : EReal) ≤ y ↔
    (a (ix3 (0 : Fin 1) (0 : Fin 1) j) : EReal) ≤ y ∧ (b (ix3 (0 : Fin 1) (0 : Fin 1) j) : EReal) ≤ y := by
  unfold k0_pay2
  rw [maximumf_apply, drop_row, drop_row, max_le_iff]

/-- One more row folded in: below y exactly when the fold so far and the new row are. -/
theorem step_le (q : FVec Ideal S1x768 .f32) (v : Vec Ideal S1x1x768 .f32) (h : S1x1x768.ShapeCasts S1x768) :
    (maximumf q (shapeCast S1x768 v h) (ix2 (0 : Fin 1) j) : EReal) ≤ y ↔
      (q (ix2 (0 : Fin 1) j) : EReal) ≤ y ∧ (v (ix3 (0 : Fin 1) (0 : Fin 1) j) : EReal) ≤ y := by
  rw [maximumf_apply, drop_row, max_le_iff]

/-- Two more rows folded in. -/
theorem pay_two_le (f : FVec Ideal S1x768 .f32 → Vec Ideal S1x1x768 .f32 → Vec Ideal S1x1x768 .f32 → FVec Ideal S1x768 .f32)
    (hf : ∀ q u v, f q u v = maximumf (maximumf q (shapeCast S1x768 u shapeCasts_S1x1x768_S1x768)) (shapeCast S1x768 v shapeCasts_S1x1x768_S1x768)) :
    (f p a b (ix2 (0 : Fin 1) j) : EReal) ≤ y ↔
      ((p (ix2 (0 : Fin 1) j) : EReal) ≤ y ∧ (a (ix3 (0 : Fin 1) (0 : Fin 1) j) : EReal) ≤ y)
        ∧ (b (ix3 (0 : Fin 1) (0 : Fin 1) j) : EReal) ≤ y := by
  rw [hf, step_le, step_le]

/-- Three more rows folded in. -/
theorem pay_three_le (f : FVec Ideal S1x768 .f32 → Vec Ideal S1x1x768 .f32 → Vec Ideal S1x1x768 .f32 → Vec Ideal S1x1x768 .f32 → FVec Ideal S1x768 .f32)
    (hf : ∀ q u v w, f q u v w = maximumf (maximumf (maximumf q (shapeCast S1x768 u shapeCasts_S1x1x768_S1x768)) (shapeCast S1x768 v shapeCasts_S1x1x768_S1x768)) (shapeCast S1x768 w shapeCasts_S1x1x768_S1x768)) :
    (f p a b d (ix2 (0 : Fin 1) j) : EReal) ≤ y ↔
      (((p (ix2 (0 : Fin 1) j) : EReal) ≤ y ∧ (a (ix3 (0 : Fin 1) (0 : Fin 1) j) : EReal) ≤ y)
        ∧ (b (ix3 (0 : Fin 1) (0 : Fin 1) j) : EReal) ≤ y) ∧ (d (ix3 (0 : Fin 1) (0 : Fin 1) j) : EReal) ≤ y := by
  rw [hf, step_le, step_le, step_le]

theorem pay3_le : (k0_pay3 p a b d (ix2 (0 : Fin 1) j) : EReal) ≤ y ↔
      (((p (ix2 (0 : Fin 1) j) : EReal) ≤ y ∧ (a (ix3 (0 : Fin 1) (0 : Fin 1) j) : EReal) ≤ y)
        ∧ (b (ix3 (0 : Fin 1) (0 : Fin 1) j) : EReal) ≤ y) ∧ (d (ix3 (0 : Fin 1) (0 : Fin 1) j) : EReal) ≤ y :=
  pay_three_le p a b d j y k0_pay3 (fun _ _ _ _ => rfl)
theorem pay5_le : (k0_pay5 p a b d (ix2 (0 : Fin 1) j) : EReal) ≤ y ↔
      (((p (ix2 (0 : Fin 1) j) : EReal) ≤ y ∧ (a (ix3 (0 : Fin 1) (0 : Fin 1) j) : EReal) ≤ y)
        ∧ (b (ix3 (0 : Fin 1) (0 : Fin 1) j) : EReal) ≤ y) ∧ (d (ix3 (0 : Fin 1) (0 : Fin 1) j) : EReal) ≤ y :=
  pay_three_le p a b d j y k0_pay5 (fun _ _ _ _ => rfl)
theorem pay4_le : (k0_pay4 p a b (ix2 (0 : Fin 1) j) : EReal) ≤ y ↔
      ((p (ix2 (0 : Fin 1) j) : EReal) ≤ y ∧ (a (ix3 (0 : Fin 1) (0 : Fin 1) j) : EReal) ≤ y)
        ∧ (b (ix3 (0 : Fin 1) (0 : Fin 1) j) : EReal) ≤ y :=
  pay_two_le p a b j y k0_pay4 (fun _ _ _ => rfl)
theorem pay6_le : (k0_pay6 p a b (ix2 (0 : Fin 1) j) : EReal) ≤ y ↔
      ((p (ix2 (0 : Fin 1) j) : EReal) ≤ y ∧ (a (ix3 (0 : Fin 1) (0 : Fin 1) j) : EReal) ≤ y)
        ∧ (b (ix3 (0 : Fin 1) (0 : Fin 1) j) : EReal) ≤ y :=
  pay_two_le p a b j y k0_pay6 (fun _ _ _ => rfl)
theorem pay7_le : (k0_pay7 p a b (ix2 (0 : Fin 1) j) : EReal) ≤ y ↔
      ((p (ix2 (0 : Fin 1) j) : EReal) ≤ y ∧ (a (ix3 (0 : Fin 1) (0 : Fin 1) j) : EReal) ≤ y)
        ∧ (b (ix3 (0 : Fin 1) (0 : Fin 1) j) : EReal) ≤ y :=
  pay_two_le p a b j y k0_pay7 (fun _ _ _ => rfl)
theorem pay8_le : (k0_pay8 p a b (ix2 (0 : Fin 1) j) : EReal) ≤ y ↔
      ((p (ix2 (0 : Fin 1) j) : EReal) ≤ y ∧ (a (ix3 (0 : Fin 1) (0 : Fin 1) j) : EReal) ≤ y)
        ∧ (b (ix3 (0 : Fin 1) (0 : Fin 1) j) : EReal) ≤ y :=
  pay_two_le p a b j y k0_pay8 (fun _ _ _ => rfl)

end Pays

/-- A shift by no places is the identity. -/
theorem sh_zero (c : Dev nD) : sh 0 c = c := by
  apply Fin.ext
  have hc : c.val < 16 := c.isLt
  simp only [sh_val]
  omega

/-- Every device is the given one or one of its fifteen proper shifts: the shift by (c' - c) mod 16 takes c to c'. -/
theorem dev_cover (c c' : Dev nD) :
    c' = c ∨ c' = sh 15 c ∨ c' = sh 1 c ∨ c' = sh 14 c ∨ c' = sh 2 c ∨ c' = sh 13 c ∨ c' = sh 3 c ∨ c' = sh 12 c
      ∨ c' = sh 4 c ∨ c' = sh 11 c ∨ c' = sh 5 c ∨ c' = sh 10 c ∨ c' = sh 6 c ∨ c' = sh 9 c ∨ c' = sh 7 c ∨ c' = sh 8 c := by
  have hc : c.val < 16 := c.isLt
  have hc' : c'.val < 16 := c'.isLt
  have key : c' = sh ((c'.val + 16 - c.val) % 16) c := by
    apply Fin.ext
    simp only [sh_val]
    omega
  have hd : (c'.val + 16 - c.val) % 16 < 16 := Nat.mod_lt _ (by decide)
  generalize (c'.val + 16 - c.val) % 16 = d at key hd
  subst key
  interval_cases d <;> simp only [sh_zero, true_or, or_true]

/-- The result on a device at column j is below y exactly when every device's local row is, at column j: the sixteen
    rows folded are the rows of all sixteen devices. -/
theorem outAt_le_iff (c : Dev nD) (j : Fin 768) (y : EReal) :
    (outAt (F := Ideal) m c (ix2 (0 : Fin 1) j) : EReal) ≤ y ↔
      ∀ c' : Dev nD, (locmax (F := Ideal) m c' (ix3 (0 : Fin 1) (0 : Fin 1) j) : EReal) ≤ y := by
  unfold outAt
  rw [pay8_le, pay7_le, pay6_le, pay5_le, pay4_le, pay3_le, pay2_le]
  constructor
  · rintro ⟨⟨⟨⟨⟨⟨⟨⟨⟨⟨⟨⟨⟨⟨⟨h0, h1⟩, h15⟩, h2⟩, h14⟩, h3⟩, h13⟩, h4⟩, h12⟩, h5⟩, h11⟩, h6⟩, h10⟩, h7⟩, h9⟩, h8⟩ c'
    rcases dev_cover c c' with e | e | e | e | e | e | e | e | e | e | e | e | e | e | e | e <;> rw [e]
    · exact h0
    · exact h1
    · exact h15
    · exact h2
    · exact h14
    · exact h3
    · exact h13
    · exact h4
    · exact h12
    · exact h5
    · exact h11
    · exact h6
    · exact h10
    · exact h7
    · exact h9
    · exact h8
  · intro h
    exact ⟨⟨⟨⟨⟨⟨⟨⟨⟨⟨⟨⟨⟨⟨⟨h _, h _⟩, h _⟩, h _⟩, h _⟩, h _⟩, h _⟩, h _⟩, h _⟩, h _⟩, h _⟩, h _⟩, h _⟩, h _⟩, h _⟩, h _⟩

/-- Every device's result is the reference's: at each column, the maximum over the sixteen devices of the maximum over a
    device's 1536 rows is the maximum over all 24576 rows. -/
theorem out_eq_ref
    (m : (ℓ : Loc Cert.KernelIdeal.nD Cert.KernelIdeal.τ Cert.KernelIdeal.sig) → Buf (Elt Ideal) ℓ)
    (X : (⟨Cert.ReferenceIdeal.S24576x768, .f32⟩ : BufTy).Contents (Elt Ideal))
    (hblk : ∀ c : Dev Cert.KernelIdeal.nD,
      m ((c.tc : Thread Cert.KernelIdeal.nD Cert.KernelIdeal.τ).loc Cert.KernelIdeal.main_arg0)
        = Layout.block ⟨2, ![1536, 768]⟩ ⟨2, ![24576, 768]⟩ 0 16 c X)
    (c : Dev Cert.KernelIdeal.nD) :
    Cert.KernelIdeal.Hand.outAt (F := Ideal) m c = Cert.ReferenceIdeal.Read.val_main_v1 (F := Ideal) X := by
  funext i
  obtain ⟨u, j, rfl⟩ : ∃ (u : Fin 1) (j : Fin 768), i = ix2 u j := ⟨i 0, i 1, eq_ix2 i⟩
  obtain rfl : u = 0 := Subsingleton.elim _ _
  refine eq_of_forall_ge_iff fun y => ?_
  have T : Layout.Tiles ⟨2, ![1536, 768]⟩ ⟨2, ![24576, 768]⟩ 0 16 := by decide
  have hx : ∀ (c' : Dev nD) (r : Fin 1536),
      (xblk (F := Ideal) m c' (ix2 r j) : EReal) = X (T.idx c' (ix2 r j)) := by
    intro c' r
    rw [xblk_eq, hblk]
    rfl
  rw [outAt_le_iff, ref_apply, Finset.fold_max_le]
  simp only [locmax_apply, Finset.fold_max_le, Finset.mem_univ, forall_true_left, hx]
  constructor
  · intro h
    refine ⟨(h c).1, fun k => ?_⟩
    have hq : k.val / 1536 < 16 := by have := k.isLt; omega
    have hk := (h ⟨k.val / 1536, hq⟩).2 ⟨k.val % 1536, Nat.mod_lt _ (by decide)⟩
    have he : T.idx ⟨k.val / 1536, hq⟩ (ix2 ⟨k.val % 1536, Nat.mod_lt _ (by decide)⟩ j) = ix2 k j :=
      Shape.idx_ext₂ (Nat.div_add_mod' k.val 1536) rfl
    rw [he] at hk
    exact hk
  · intro h c'
    refine ⟨h.1, fun r => ?_⟩
    have he : T.idx c' (ix2 r j) = ix2 (T.idx c' (ix2 r j) 0) j := Shape.idx_ext₂ rfl rfl
    rw [he]
    exact h.2 _

/-- info: 'Cert.ValueIdeal.out_eq_ref' depends on axioms: [propext, Classical.choice, Quot.sound] -/
#guard_msgs in #print axioms out_eq_ref

end Cert.ValueIdeal
end
-- ==== Proof.lean ====
/-
The proof of `Cert.Claim`. The kernel's run (written once, for any float values) ends with each device's
result holding the entrywise maximum of the sixteen devices' rows of column maxima and its argument unchanged.
The three frames are that run and the reference's run with the values dropped. For the algebraic claim the
common value is the reference's result, the column maxima of the whole array: the maximum over all rows is
the maximum, over the sixteen blocks, of each block's column maxima.
-/
import proofs.«900909_g7700000000000910_dist_max_ax0_shard0_i_m1536_n768_v7x_i16_f32_1_alg».proof.Defs
import proofs.«900909_g7700000000000910_dist_max_ax0_shard0_i_m1536_n768_v7x_i16_f32_1_alg».proof.Proof.Gen.Kernel
import proofs.«900909_g7700000000000910_dist_max_ax0_shard0_i_m1536_n768_v7x_i16_f32_1_alg».proof.Proof.Gen.Kernel.Skeleton
import proofs.«900909_g7700000000000910_dist_max_ax0_shard0_i_m1536_n768_v7x_i16_f32_1_alg».proof.Proof.Gen.Kernel.Launch
import proofs.«900909_g7700000000000910_dist_max_ax0_shard0_i_m1536_n768_v7x_i16_f32_1_alg».proof.Proof.Gen.Kernel.Points
import proofs.«900909_g7700000000000910_dist_max_ax0_shard0_i_m1536_n768_v7x_i16_f32_1_alg».proof.Proof.Gen.Kernel.Frame
import proofs.«900909_g7700000000000910_dist_max_ax0_shard0_i_m1536_n768_v7x_i16_f32_1_alg».proof.Proof.Gen.KernelIdeal
import proofs.«900909_g7700000000000910_dist_max_ax0_shard0_i_m1536_n768_v7x_i16_f32_1_alg».proof.Proof.Gen.KernelIdeal.Skeleton
import proofs.«900909_g7700000000000910_dist_max_ax0_shard0_i_m1536_n768_v7x_i16_f32_1_alg».proof.Proof.Gen.KernelIdeal.Launch
import proofs.«900909_g7700000000000910_dist_max_ax0_shard0_i_m1536_n768_v7x_i16_f32_1_alg».proof.Proof.Gen.KernelIdeal.Points
import proofs.«900909_g7700000000000910_dist_max_ax0_shard0_i_m1536_n768_v7x_i16_f32_1_alg».proof.Proof.Gen.KernelIdeal.Frame
import proofs.«900909_g7700000000000910_dist_max_ax0_shard0_i_m1536_n768_v7x_i16_f32_1_alg».proof.Proof.Gen.ReferenceIdeal
import proofs.«900909_g7700000000000910_dist_max_ax0_shard0_i_m1536_n768_v7x_i16_f32_1_alg».proof.Proof.Gen.Pre_finite_inputs_Kernel
import proofs.«900909_g7700000000000910_dist_max_ax0_shard0_i_m1536_n768_v7x_i16_f32_1_alg».proof.Proof.Gen.Pre_finite_inputs_ReferenceIdeal
import proofs.«900909_g7700000000000910_dist_max_ax0_shard0_i_m1536_n768_v7x_i16_f32_1_alg».proof.Proof.Gen.ReferenceIdeal.Run
import proofs.«900909_g7700000000000910_dist_max_ax0_shard0_i_m1536_n768_v7x_i16_f32_1_alg».proof.Proof.Gen.ReferenceIdeal.Read
import proofs.«900909_g7700000000000910_dist_max_ax0_shard0_i_m1536_n768_v7x_i16_f32_1_alg».proof.Proof.KernelIdeal.Launch
import proofs.«900909_g7700000000000910_dist_max_ax0_shard0_i_m1536_n768_v7x_i16_f32_1_alg».proof.Proof.Kernel.Launch
import proofs.«900909_g7700000000000910_dist_max_ax0_shard0_i_m1536_n768_v7x_i16_f32_1_alg».proof.Proof.ValueIdeal
import Idealize.ShloMosaic.Adequacy
import Idealize.ShloMosaic.Init

noncomputable section

namespace Cert.Proof

open Idealize.ShloMosaic Idealize.SL.Sem

/-- The word-level kernel's frame: its run with the result's value dropped. -/
theorem frame_Kernel : Cert.frame_Kernel := fun m g _ =>
  (θ_run Cert.Kernel.defs _ _).mono (fun _ h c => (h c).2) (Cert.Kernel.Hand.run_values (F := Bits) m g)

/-- The idealized kernel's frame: the same run at the ideal instance. -/
theorem frame_KernelIdeal : Cert.frame_KernelIdeal := fun m g _ =>
  (θ_run Cert.KernelIdeal.defs _ _).mono (fun _ h c => (h c).2) (Cert.KernelIdeal.Hand.run_values (F := Ideal) m g)

/-- The reference's frame: its run with the result dropped. -/
theorem frame_ReferenceIdeal : Cert.frame_ReferenceIdeal := fun m g _ =>
  (θ_run Cert.ReferenceIdeal.defs _ _).mono (fun _ h c => (h c).2) (Cert.ReferenceIdeal.Value.run (F := Ideal) m g)

/-- Kernel and reference agree: every device's result is the column maxima of the whole array, which the
    reference computes on its one device; both leave their arguments as they were. -/
theorem algebraic : Cert.algebraic_KernelIdeal_ReferenceIdeal := fun m g m' g' _ hblk =>
  ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h c).1.trans (Cert.ValueIdeal.out_eq_ref m _ hblk c), (h c).2⟩)
      (Cert.KernelIdeal.Hand.run_values (F := Ideal) m g),
    (θ_run Cert.ReferenceIdeal.defs _ _).mono
      (fun _ h => ⟨(h 0).1.trans (Cert.ReferenceIdeal.Read.val_main_v1_eq _), (h 0).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

end Cert.Proof

end
